-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000x16 : Shape := ⟨2, ![1600000, 16]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S16x128 : Shape := ⟨2, ![16, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x16 : S_.BroadcastsInDim S1600000x16 (![] : Fin 0 → Fin S1600000x16.rank)
  reducesTo_S1600000x16_S_d0_1 : S1600000x16.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S16x128 : S_.BroadcastsInDim S16x128 (![] : Fin 0 → Fin S16x128.rank)
  reducesTo_S16x128_S_d0_1 : S16x128.ReducesTo [0, 1] S_

variable [Facts]

def fn_part2 {F : FTy → Type} [FloatOps F] (main_arg10 : FVec F S128 .f32) (main_arg11 : FVec F S128x128 .f32) (main_arg12 : FVec F S128 .f32) (main_v33 : IVec S_ 1) : IVec S_ 1 :=
  let main_v34 : FVec F S128 .f32 := Host.absf main_arg10
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg11
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg12
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg7 : FVec F S16x128 .f32) (main_arg8 : FVec F S128 .f32) (main_arg9 : FVec F S128x128 .f32) (main_arg10 : FVec F S128 .f32) (main_arg11 : FVec F S128x128 .f32) (main_arg12 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S16x128 .f32 := Host.absf main_arg7
  let main_cst_6 : FVec F S_ .f32 := constant S_ .f32 0x7F800000#32
  let main_v20 : FVec F S16x128 .f32 := broadcastInDim S16x128 ![] bcast_S_S16x128 main_cst_6
  let main_v21 : IVec S16x128 1 := cmpf .olt main_v19 main_v20
  let main_c_7 : IVec S_ 1 := constantI S_ 1 1#1
  let main_v22 : IVec S_ 1 := (fun x v => Host.reduce IntOp.andi x v reducesTo_S16x128_S_d0_1 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg9
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg10 main_arg11 main_arg12 main_v33

def fn {F : FTy → Type} [FloatOps F] (main_arg0 : FVec F S100000x128 .f32) (main_arg1 : FVec F S1600000x16 .f32) (main_arg2 : IVec S1600000 32) (main_arg3 : IVec S1600000 32) (main_arg4 : IVec S100000 32) (main_arg5 : FVec F S128x128 .f32) (main_arg6 : FVec F S128 .f32) (main_arg7 : FVec F S16x128 .f32) (main_arg8 : FVec F S128 .f32) (main_arg9 : FVec F S128x128 .f32) (main_arg10 : FVec F S128 .f32) (main_arg11 : FVec F S128x128 .f32) (main_arg12 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x16 .f32 := Host.absf main_arg1
  let main_cst_0 : FVec F S_ .f32 := constant S_ .f32 0x7F800000#32
  let main_v5 : FVec F S1600000x16 .f32 := broadcastInDim S1600000x16 ![] bcast_S_S1600000x16 main_cst_0
  let main_v6 : IVec S1600000x16 1 := cmpf .olt main_v4 main_v5
  let main_c_1 : IVec S_ 1 := constantI S_ 1 1#1
  let main_v7 : IVec S_ 1 := (fun x v => Host.reduce IntOp.andi x v reducesTo_S1600000x16_S_d0_1 h_S_) main_v6 main_c_1
  let main_v8 : IVec S_ 1 := andi main_v3 main_v7
  let main_v9 : FVec F S128x128 .f32 := Host.absf main_arg5
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg7 main_arg8 main_arg9 main_arg10 main_arg11 main_arg12 main_v13 main_v16
-- ==== Kernel.lean ====
abbrev S100000x128 : Shape := ⟨2, ![100000, 128]⟩
abbrev S1600000x16 : Shape := ⟨2, ![1600000, 16]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S16x128 : Shape := ⟨2, ![16, 128]⟩
abbrev S100000x1 : Shape := ⟨2, ![100000, 1]⟩
abbrev S_ : Shape := ⟨0, ![]⟩
abbrev S1600000x1 : Shape := ⟨2, ![1600000, 1]⟩
abbrev S1600000x17 : Shape := ⟨2, ![1600000, 17]⟩
abbrev S100000x17 : Shape := ⟨2, ![100000, 17]⟩
abbrev S4000x128 : Shape := ⟨2, ![4000, 128]⟩
abbrev S4000x17 : Shape := ⟨2, ![4000, 17]⟩
abbrev S4000x16 : Shape := ⟨2, ![4000, 16]⟩
abbrev S4000x1 : Shape := ⟨2, ![4000, 1]⟩
abbrev S1x128 : Shape := ⟨2, ![1, 128]⟩
abbrev S1600000x128 : Shape := ⟨2, ![1600000, 128]⟩
abbrev S64x128 : Shape := ⟨2, ![64, 128]⟩
abbrev S4000x64 : Shape := ⟨2, ![4000, 64]⟩

abbrev nBuf : Space → Nat
  | .hbm => 69
  | .vmem => 43
  | .smem => 0
  | _ => 0

abbrev bufTy : (tb : Table) → Fin (tcTables nBuf tb) → BufTy
  | .hbm, ⟨0, _⟩ => ⟨S100000x128, .f32⟩
  | .hbm, ⟨1, _⟩ => ⟨S1600000x16, .f32⟩
  | .hbm, ⟨2, _⟩ => ⟨S1600000, .i32⟩
  | .hbm, ⟨3, _⟩ => ⟨S1600000, .i32⟩
  | .hbm, ⟨4, _⟩ => ⟨S100000, .i32⟩
  | .hbm, ⟨5, _⟩ => ⟨S128x128, .f32⟩
  | .hbm, ⟨6, _⟩ => ⟨S128, .f32⟩
  | .hbm, ⟨7, _⟩ => ⟨S16x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S100000x1, .i32⟩
  | .hbm, ⟨14, _⟩ => ⟨S_, .f32⟩
  | .hbm, ⟨15, _⟩ => ⟨S1600000x1, .f32⟩
  | .hbm, ⟨16, _⟩ => ⟨S1600000x17, .f32⟩
  | .hbm, ⟨17, _⟩ => ⟨S_, .f32⟩
  | .hbm, ⟨18, _⟩ => ⟨S100000x17, .f32⟩
  | .hbm, ⟨19, _⟩ => ⟨S1600000x1, .i32⟩
  | .hbm, ⟨20, _⟩ => ⟨S100000x17, .f32⟩
  | .hbm, ⟨21, _⟩ => ⟨S100000x128, .f32⟩
  | .hbm, ⟨22, _⟩ => ⟨S100000x128, .bf16⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000x128, .bf16⟩
  | .hbm, ⟨32, _⟩ => ⟨S1600000x128, .f32⟩
  | .hbm, ⟨33, _⟩ => ⟨S_, .f32⟩
  | .hbm, ⟨34, _⟩ => ⟨S100000x128, .f32⟩
  | .hbm, ⟨35, _⟩ => ⟨S1600000x1, .i32⟩
  | .hbm, ⟨36, _⟩ => ⟨S100000x128, .f32⟩
  | .hbm, ⟨37, _⟩ => ⟨S100000x128, .bf16⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000x128, .bf16⟩
  | .hbm, ⟨47, _⟩ => ⟨S1600000x128, .f32⟩
  | .hbm, ⟨48, _⟩ => ⟨S_, .f32⟩
  | .hbm, ⟨49, _⟩ => ⟨S100000x128, .f32⟩
  | .hbm, ⟨50, _⟩ => ⟨S1600000x1, .i32⟩
  | .hbm, ⟨51, _⟩ => ⟨S100000x128, .f32⟩
  | .hbm, ⟨52, _⟩ => ⟨S100000x128, .bf16⟩
  | .hbm, ⟨53, _⟩ => ⟨S_, .i32⟩
  | .hbm, ⟨54, _⟩ => ⟨S1600000, .i32⟩
  | .hbm, ⟨55, _⟩ => ⟨S1600000, .i1⟩
  | .hbm, ⟨56, _⟩ => ⟨S_, .i32⟩
  | .hbm, ⟨57, _⟩ => ⟨S1600000, .i32⟩
  | .hbm, ⟨58, _⟩ => ⟨S1600000, .i32⟩
  | .hbm, ⟨59, _⟩ => ⟨S1600000, .i32⟩
  | .hbm, ⟨60, _⟩ => ⟨S1600000x1, .i32⟩
  | .hbm, ⟨61, _⟩ => ⟨S1600000x128, .bf16⟩
  | .hbm, ⟨62, _⟩ => ⟨S1600000x128, .f32⟩
  | .hbm, ⟨63, _⟩ => ⟨S_, .f32⟩
  | .hbm, ⟨64, _⟩ => ⟨S100000x128, .f32⟩
  | .hbm, ⟨65, _⟩ => ⟨S1600000x1, .i32⟩
  | .hbm, ⟨66, _⟩ => ⟨S100000x128, .f32⟩
  | .hbm, ⟨67, _⟩ => ⟨S100000x128, .f32⟩
  | .hbm, ⟨68, _⟩ => ⟨S64x128, .f32⟩
  | .local _ .vmem, ⟨0, _⟩ => ⟨S4000x128, .f32⟩
  | .local _ .vmem, ⟨1, _⟩ => ⟨S4000x128, .f32⟩
  | .local _ .vmem, ⟨2, _⟩ => ⟨S4000x17, .f32⟩
  | .local _ .vmem, ⟨3, _⟩ => ⟨S4000x17, .f32⟩
  | .local _ .vmem, ⟨4, _⟩ => ⟨S128x128, .f32⟩
  | .local _ .vmem, ⟨5, _⟩ => ⟨S128, .f32⟩
  | .local _ .vmem, ⟨6, _⟩ => ⟨S16x128, .f32⟩
  | .local _ .vmem, ⟨7, _⟩ => ⟨S128, .f32⟩
  | .local _ .vmem, ⟨8, _⟩ => ⟨S4000x128, .f32⟩
  | .local _ .vmem, ⟨9, _⟩ => ⟨S4000x128, .f32⟩
  | .local _ .vmem, ⟨10, _⟩ => ⟨S4000x128, .bf16⟩
  | .local _ .vmem, ⟨11, _⟩ => ⟨S4000x128, .bf16⟩
  | .local _ .vmem, ⟨12, _⟩ => ⟨S4000x128, .f32⟩
  | .local _ .vmem, ⟨13, _⟩ => ⟨S4000x128, .f32⟩
  | .local _ .vmem, ⟨14, _⟩ => ⟨S128x128, .f32⟩
  | .local _ .vmem, ⟨15, _⟩ => ⟨S128, .f32⟩
  | .local _ .vmem, ⟨16, _⟩ => ⟨S4000x128, .f32⟩
  | .local _ .vmem, ⟨17, _⟩ => ⟨S4000x128, .f32⟩
  | .local _ .vmem, ⟨18, _⟩ => ⟨S4000x128, .bf16⟩
  | .local _ .vmem, ⟨19, _⟩ => ⟨S4000x128, .bf16⟩
  | .local _ .vmem, ⟨20, _⟩ => ⟨S4000x128, .f32⟩
  | .local _ .vmem, ⟨21, _⟩ => ⟨S4000x128, .f32⟩
  | .local _ .vmem, ⟨22, _⟩ => ⟨S128x128, .f32⟩
  | .local _ .vmem, ⟨23, _⟩ => ⟨S128, .f32⟩
  | .local _ .vmem, ⟨24, _⟩ => ⟨S4000x128, .f32⟩
  | .local _ .vmem, ⟨25, _⟩ => ⟨S4000x128, .f32⟩
  | .local _ .vmem, ⟨26, _⟩ => ⟨S4000x128, .bf16⟩
  | .local _ .vmem, ⟨27, _⟩ => ⟨S4000x128, .bf16⟩
  | .local _ .vmem, ⟨28, _⟩ => ⟨S4000x128, .f32⟩
  | .local _ .vmem, ⟨29, _⟩ => ⟨S4000x128, .f32⟩
  | .local _ .vmem, ⟨30, _⟩ => ⟨S128x128, .f32⟩
  | .local _ .vmem, ⟨31, _⟩ => ⟨S128, .f32⟩
  | .local _ .vmem, ⟨32, _⟩ => ⟨S4000x128, .f32⟩
  | .local _ .vmem, ⟨33, _⟩ => ⟨S4000x128, .f32⟩
  | .local _ .vmem, ⟨34, _⟩ => ⟨S4000x128, .f32⟩
  | .local _ .vmem, ⟨35, _⟩ => ⟨S4000x128, .f32⟩
  | .local _ .vmem, ⟨36, _⟩ => ⟨S4000x128, .f32⟩
  | .local _ .vmem, ⟨37, _⟩ => ⟨S4000x128, .f32⟩
  | .local _ .vmem, ⟨38, _⟩ => ⟨S128x128, .f32⟩
  | .local _ .vmem, ⟨39, _⟩ => ⟨S128, .f32⟩
  | .local _ .vmem, ⟨40, _⟩ => ⟨S4000x1, .i32⟩
  | .local _ .vmem, ⟨41, _⟩ => ⟨S4000x1, .i32⟩
  | .local _ .vmem, ⟨42, _⟩ => ⟨S64x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6_0 : Ref sig .tc := ⟨.hbm, 21, rfl⟩
abbrev main_v6_1 : Ref sig .tc := ⟨.hbm, 22, rfl⟩
abbrev main_c : Ref sig .tc := ⟨.hbm, 23, rfl⟩
abbrev main_v7 : Ref sig .tc := ⟨.hbm, 24, rfl⟩
abbrev main_v8 : Ref sig .tc := ⟨.hbm, 25, rfl⟩
abbrev main_c_1 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_c_3 : Ref sig .tc := ⟨.hbm, 38, rfl⟩
abbrev main_v19 : Ref sig .tc := ⟨.hbm, 39, rfl⟩
abbrev main_v20 : Ref sig .tc := ⟨.hbm, 40, rfl⟩
abbrev main_c_4 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_5 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_8 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg4_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg3_1 : Ref sig .tc := ⟨.vmem, 33, rfl⟩
abbrev cc3_stg4_0 : Ref sig .tc := ⟨.vmem, 34, rfl⟩
abbrev cc3_stg4_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg3_0 : Ref sig .tc := ⟨.vmem, 40, rfl⟩
abbrev cc4_stg3_1 : Ref sig .tc := ⟨.vmem, 41, rfl⟩
abbrev cc4_stg4_0 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem3_1 : DmaSem sig := 17
abbrev cc1_sem4_0 : DmaSem sig := 18
abbrev cc1_sem4_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem3_1 : DmaSem sig := 25
abbrev cc2_sem4_0 : DmaSem sig := 26
abbrev cc2_sem4_1 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem3_1 : DmaSem sig := 33
abbrev cc3_sem4_0 : DmaSem sig := 34
abbrev cc3_sem4_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem3_0 : DmaSem sig := 40
abbrev cc4_sem3_1 : DmaSem sig := 41
abbrev cc4_sem4_0 : DmaSem sig := 42

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x17 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4000x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4000x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S4000x128 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S4000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S4000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S4000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S4000x1 .i32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S64x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

class Facts₀ : Prop where
  shapeCasts_S100000_S100000x1 : S100000.ShapeCasts S100000x1
  bcast_S_S1600000x1 : S_.BroadcastsInDim S1600000x1 (![] : Fin 0 → Fin S1600000x1.rank)
  concatenates_S1600000x16_S1600000x1_S1600000x17_d1 : Shape.Concatenates [S1600000x16, S1600000x1] S1600000x17 1
  bcast_S_S100000x17 : S_.BroadcastsInDim S100000x17 (![] : Fin 0 → Fin S100000x17.rank)
  bcast_S1600000_S1600000x1_0 : S1600000.BroadcastsInDim S1600000x1 (![0] : Fin 1 → Fin S1600000x1.rank)
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S4000x17_S4000x17_0_0 : ∀ a, (![0, 0] : Fin 2 → Nat) a + S4000x17.size a ≤ S4000x17.size a
  h_S4000x17 : 0 < S4000x17.numel
  shapeCasts_S4000x17_S4000x17 : S4000x17.ShapeCasts S4000x17
  slices_S4000x17_o0_0_S4000x16 : S4000x17.Slices ![0, 0] S4000x16
  slices_S4000x17_o0_16_S4000x1 : S4000x17.Slices ![0, 16] S4000x1
  inb_S16x128_S16x128_0_0 : ∀ a, (![0, 0] : Fin 2 → Nat) a + S16x128.size a ≤ S16x128.size a
  h_S16x128 : 0 < S16x128.numel
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  broadcasts_S4000x1_S4000x128 : S4000x1.Broadcasts S4000x128
  packedbf16_S4000x128_S4000x128_0_0 : (Rect.unit (s := S4000x128) ![0, 0] S4000x128.size inb_S4000x128_S4000x128_0_0).PackedRows (EltTy.packing .bf16)
  bcast_S_S1600000 : S_.BroadcastsInDim S1600000 (![] : Fin 0 → Fin S1600000.rank)
  bcast_S_S100000x128 : S_.BroadcastsInDim S100000x128 (![] : Fin 0 → Fin S100000x128.rank)
  shapeCasts_S4000x128_S4000x128 : S4000x128.ShapeCasts S4000x128
  inb_S64x128_S64x128_0_0 : ∀ a, (![0, 0] : Fin 2 → Nat) a + S64x128.size a ≤ S64x128.size a
  h_S64x128 : 0 < S64x128.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x64 : S4000x1.Broadcasts S4000x64
  iota_S4000x64_d1_w32 : S4000x64.Iotas .tc 32 [1]
  natLt_1_32 : 1 < 32
  shapeCasts_S64x128_S64x128 : S64x128.ShapeCasts S64x128
  scatter_S100000x17_S1600000x1_S1600000x17_1_0_0_1_wf : ScatterDims.WF S100000x17 S1600000x1 S1600000x17 [1] [0] [0] 1
  dot_S4000x128_S128x128_S4000x128_1_0_0_1_n_n_wf : DotDims.WF S4000x128 S128x128 S4000x128 [1] [0] [0] [1] [] []
  dot_S4000x16_S16x128_S4000x128_1_0_0_1_n_n_wf : DotDims.WF S4000x16 S16x128 S4000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x64_S4000x128_S64x128_0_0_1_1_n_n_wf : DotDims.WF S4000x64 S4000x128 S64x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x17.size a ≤ S100000x17.size a
  hwx0_1 : ∀ i : grid0.Coords, EltTy.bits .f32 = 32 ∨ (Rect.block (s := S100000x17) S4000x17.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x128.size a ≤ S16x128.size a
  hwx0_4 : ∀ i : grid0.Coords, EltTy.bits .f32 = 32 ∨ (Rect.block (s := S16x128) S16x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S100000x128.size a
  hwx0_6 : ∀ i : grid0.Coords, EltTy.bits .f32 = 32 ∨ (Rect.block (s := S100000x128) S4000x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x128.size a ≤ S100000x128.size a
  hwx0_7 : ∀ i : grid0.Coords, EltTy.bits .bf16 = 32 ∨ (Rect.block (s := S100000x128) S4000x128.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x128.size a ≤ S100000x128.size a
  hwx1_3 : ∀ i : grid1.Coords, EltTy.bits .f32 = 32 ∨ (Rect.block (s := S100000x128) S4000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x128.size a ≤ S100000x128.size a
  hwx1_4 : ∀ i : grid1.Coords, EltTy.bits .bf16 = 32 ∨ (Rect.block (s := S100000x128) S4000x128.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x128.size a ≤ S100000x128.size a
  hwx2_3 : ∀ i : grid2.Coords, EltTy.bits .f32 = 32 ∨ (Rect.block (s := S100000x128) S4000x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x128.size a ≤ S100000x128.size a
  hwx2_4 : ∀ i : grid2.Coords, EltTy.bits .bf16 = 32 ∨ (Rect.block (s := S100000x128) S4000x128.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4000x128.size a ≤ S100000x128.size a
  hwx3_3 : ∀ i : grid3.Coords, EltTy.bits .f32 = 32 ∨ (Rect.block (s := S100000x128) S4000x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S4000x128.size a ≤ S100000x128.size a
  hwx3_4 : ∀ i : grid3.Coords, EltTy.bits .f32 = 32 ∨ (Rect.block (s := S100000x128) S4000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S100000x128.size a
  hwx4_0 : ∀ i : grid4.Coords, EltTy.bits .f32 = 32 ∨ (Rect.block (s := S100000x128) S4000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128.size a ≤ S128.size a
  hwx4_2 : ∀ i : grid4.Coords, EltTy.bits .f32 = 32 ∨ (Rect.block (s := S128) S128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S4000x1.size a ≤ S100000x1.size a
  hwx4_3 : ∀ i : grid4.Coords, EltTy.bits .i32 = 32 ∨ (Rect.block (s := S100000x1) S4000x1.size (cc4_transform_3 i) (hinb4_3 i)).WholeWords (EltTy.packing .i32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x128.size a ≤ S64x128.size a
  hwx4_4 : ∀ i : grid4.Coords, EltTy.bits .f32 = 32 ∨ (Rect.block (s := S64x128) S64x128.size (cc4_transform_4 i) (hinb4_4 i)).WholeWords (EltTy.packing .f32)

variable [Facts₀]

def scatter_S100000x17_S1600000x1_S1600000x17_1_0_0_1 : ScatterDims S100000x17 S1600000x1 S1600000x17 where
  updateWindowDims := [1]
  insertedWindowDims := [0]
  scatterDimsToOperandDims := [0]
  indexVectorDim := 1
  wf := scatter_S100000x17_S1600000x1_S1600000x17_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x16_S16x128_S4000x128_1_0_0_1_n_n : DotDims S4000x16 S16x128 S4000x128 where
  lhsContracting := [1]
  rhsContracting := [0]
  lhsNonContracting := [0]
  rhsNonContracting := [1]
  lhsBatch := []
  rhsBatch := []
  wf := dot_S4000x16_S16x128_S4000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x64_S4000x128_S64x128_0_0_1_1_n_n : DotDims S4000x64 S4000x128 S64x128 where
  lhsContracting := [0]
  rhsContracting := [0]
  lhsNonContracting := [1]
  rhsNonContracting := [1]
  lhsBatch := []
  rhsBatch := []
  wf := dot_S4000x64_S4000x128_S64x128_0_0_1_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S4000x17.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S16x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6_0) S4000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6_1) S4000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v17) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg9) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg10) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6_0) S4000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v18) S4000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v29) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v6_0) S4000x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v30) S4000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v41) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg10) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v6_0) S4000x128.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v42) S4000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v42) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg11) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg12) S128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v0) S4000x1.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v43) S64x128.size cc4_transform_4 reads4_4 true true 1 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

class Facts : Prop extends Facts₀ where

variable [Facts]
-- ==== ReferenceIdeal.lean ====
abbrev S100000x128 : Shape := ⟨2, ![100000, 128]⟩
abbrev S1600000x16 : Shape := ⟨2, ![1600000, 16]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S16x128 : Shape := ⟨2, ![16, 128]⟩
abbrev S1x128 : Shape := ⟨2, ![1, 128]⟩
abbrev S1600000x128 : Shape := ⟨2, ![1600000, 128]⟩
abbrev S_ : Shape := ⟨0, ![]⟩
abbrev S1600000x1 : Shape := ⟨2, ![1600000, 1]⟩
abbrev S64x128 : Shape := ⟨2, ![64, 128]⟩
abbrev S100000x1 : Shape := ⟨2, ![100000, 1]⟩

abbrev nBuf : Space → Nat
  | .hbm => 106
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000x16, .f32⟩
  | .hbm, ⟨2, _⟩ => ⟨S1600000, .i32⟩
  | .hbm, ⟨3, _⟩ => ⟨S1600000, .i32⟩
  | .hbm, ⟨4, _⟩ => ⟨S100000, .i32⟩
  | .hbm, ⟨5, _⟩ => ⟨S128x128, .f32⟩
  | .hbm, ⟨6, _⟩ => ⟨S128, .f32⟩
  | .hbm, ⟨7, _⟩ => ⟨S16x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S100000x128, .f32⟩
  | .hbm, ⟨14, _⟩ => ⟨S1x128, .f32⟩
  | .hbm, ⟨15, _⟩ => ⟨S100000x128, .f32⟩
  | .hbm, ⟨16, _⟩ => ⟨S100000x128, .f32⟩
  | .hbm, ⟨17, _⟩ => ⟨S1600000x128, .f32⟩
  | .hbm, ⟨18, _⟩ => ⟨S1x128, .f32⟩
  | .hbm, ⟨19, _⟩ => ⟨S1600000x128, .f32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S100000x128, .f32⟩
  | .hbm, ⟨26, _⟩ => ⟨S_, .f32⟩
  | .hbm, ⟨27, _⟩ => ⟨S100000x128, .f32⟩
  | .hbm, ⟨28, _⟩ => ⟨S100000x128, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x128, .f32⟩
  | .hbm, ⟨38, _⟩ => ⟨S_, .f32⟩
  | .hbm, ⟨39, _⟩ => ⟨S100000x128, .f32⟩
  | .hbm, ⟨40, _⟩ => ⟨S1600000x1, .i32⟩
  | .hbm, ⟨41, _⟩ => ⟨S100000x128, .f32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S100000x128, .f32⟩
  | .hbm, ⟨46, _⟩ => ⟨S100000x128, .f32⟩
  | .hbm, ⟨47, _⟩ => ⟨S_, .f32⟩
  | .hbm, ⟨48, _⟩ => ⟨S100000x128, .f32⟩
  | .hbm, ⟨49, _⟩ => ⟨S100000x128, .f32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x128, .f32⟩
  | .hbm, ⟨59, _⟩ => ⟨S_, .f32⟩
  | .hbm, ⟨60, _⟩ => ⟨S100000x128, .f32⟩
  | .hbm, ⟨61, _⟩ => ⟨S1600000x1, .i32⟩
  | .hbm, ⟨62, _⟩ => ⟨S100000x128, .f32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S100000x128, .f32⟩
  | .hbm, ⟨70, _⟩ => ⟨S100000x128, .f32⟩
  | .hbm, ⟨71, _⟩ => ⟨S_, .i32⟩
  | .hbm, ⟨72, _⟩ => ⟨S1600000, .i32⟩
  | .hbm, ⟨73, _⟩ => ⟨S1600000, .i1⟩
  | .hbm, ⟨74, _⟩ => ⟨S_, .i32⟩
  | .hbm, ⟨75, _⟩ => ⟨S1600000, .i32⟩
  | .hbm, ⟨76, _⟩ => ⟨S1600000, .i32⟩
  | .hbm, ⟨77, _⟩ => ⟨S1600000, .i32⟩
  | .hbm, ⟨78, _⟩ => ⟨S1600000x1, .i32⟩
  | .hbm, ⟨79, _⟩ => ⟨S1600000x128, .f32⟩
  | .hbm, ⟨80, _⟩ => ⟨S_, .f32⟩
  | .hbm, ⟨81, _⟩ => ⟨S100000x128, .f32⟩
  | .hbm, ⟨82, _⟩ => ⟨S1600000x1, .i32⟩
  | .hbm, ⟨83, _⟩ => ⟨S100000x128, .f32⟩
  | .hbm, ⟨84, _⟩ => ⟨S100000x128, .f32⟩
  | .hbm, ⟨85, _⟩ => ⟨S1x128, .f32⟩
  | .hbm, ⟨86, _⟩ => ⟨S100000x128, .f32⟩
  | .hbm, ⟨87, _⟩ => ⟨S100000x128, .f32⟩
  | .hbm, ⟨88, _⟩ => ⟨S100000x128, .f32⟩
  | .hbm, ⟨89, _⟩ => ⟨S_, .f32⟩
  | .hbm, ⟨90, _⟩ => ⟨S100000x128, .f32⟩
  | .hbm, ⟨91, _⟩ => ⟨S100000x128, .f32⟩
  | .hbm, ⟨92, _⟩ => ⟨S100000x128, .f32⟩
  | .hbm, ⟨93, _⟩ => ⟨S1x128, .f32⟩
  | .hbm, ⟨94, _⟩ => ⟨S100000x128, .f32⟩
  | .hbm, ⟨95, _⟩ => ⟨S100000x128, .f32⟩
  | .hbm, ⟨96, _⟩ => ⟨S_, .f32⟩
  | .hbm, ⟨97, _⟩ => ⟨S100000x128, .f32⟩
  | .hbm, ⟨98, _⟩ => ⟨S100000x128, .f32⟩
  | .hbm, ⟨99, _⟩ => ⟨S_, .f32⟩
  | .hbm, ⟨100, _⟩ => ⟨S64x128, .f32⟩
  | .hbm, ⟨101, _⟩ => ⟨S100000x1, .i32⟩
  | .hbm, ⟨102, _⟩ => ⟨S64x128, .f32⟩
  | .hbm, ⟨103, _⟩ => ⟨S_, .f32⟩
  | .hbm, ⟨104, _⟩ => ⟨S64x128, .f32⟩
  | .hbm, ⟨105, _⟩ => ⟨S64x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_call0_cst : Ref sig .tc := ⟨.hbm, 26, rfl⟩
abbrev main_call0_v0 : Ref sig .tc := ⟨.hbm, 27, rfl⟩
abbrev main_v12 : Ref sig .tc := ⟨.hbm, 28, rfl⟩
abbrev main_c : Ref sig .tc := ⟨.hbm, 29, rfl⟩
abbrev main_v13 : Ref sig .tc := ⟨.hbm, 30, rfl⟩
abbrev main_v14 : Ref sig .tc := ⟨.hbm, 31, rfl⟩
abbrev main_c_0 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_1 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_call1_cst : Ref sig .tc := ⟨.hbm, 47, rfl⟩
abbrev main_call1_v0 : Ref sig .tc := ⟨.hbm, 48, rfl⟩
abbrev main_v28 : Ref sig .tc := ⟨.hbm, 49, rfl⟩
abbrev main_c_2 : Ref sig .tc := ⟨.hbm, 50, rfl⟩
abbrev main_v29 : Ref sig .tc := ⟨.hbm, 51, rfl⟩
abbrev main_v30 : Ref sig .tc := ⟨.hbm, 52, rfl⟩
abbrev main_c_3 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_4 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_call2_cst : Ref sig .tc := ⟨.hbm, 68, rfl⟩
abbrev main_call2_v0 : Ref sig .tc := ⟨.hbm, 69, rfl⟩
abbrev main_v44 : Ref sig .tc := ⟨.hbm, 70, rfl⟩
abbrev main_c_5 : Ref sig .tc := ⟨.hbm, 71, rfl⟩
abbrev main_v45 : Ref sig .tc := ⟨.hbm, 72, rfl⟩
abbrev main_v46 : Ref sig .tc := ⟨.hbm, 73, rfl⟩
abbrev main_c_6 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_7 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_call3_cst : Ref sig .tc := ⟨.hbm, 89, rfl⟩
abbrev main_call3_v0 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_call4_cst : Ref sig .tc := ⟨.hbm, 96, rfl⟩
abbrev main_call4_v0 : Ref sig .tc := ⟨.hbm, 97, rfl⟩
abbrev main_v65 : Ref sig .tc := ⟨.hbm, 98, rfl⟩
abbrev main_cst_8 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_call5_cst : Ref sig .tc := ⟨.hbm, 103, rfl⟩
abbrev main_call5_v0 : Ref sig .tc := ⟨.hbm, 104, rfl⟩
abbrev main_v69 : Ref sig .tc := ⟨.hbm, 105, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1x128_S1600000x128_0_1 : S1x128.BroadcastsInDim S1600000x128 (![0, 1] : Fin 2 → Fin S1600000x128.rank)
  bcast_S_S100000x128 : S_.BroadcastsInDim S100000x128 (![] : Fin 0 → Fin S100000x128.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S_S64x128 : S_.BroadcastsInDim S64x128 (![] : Fin 0 → Fin S64x128.rank)
  bcast_S100000_S100000x1_0 : S100000.BroadcastsInDim S100000x1 (![0] : Fin 1 → Fin S100000x1.rank)
  dot_S100000x128_S128x128_S100000x128_1_0_0_1_n_n_wf : DotDims.WF S100000x128 S128x128 S100000x128 [1] [0] [0] [1] [] []
  dot_S1600000x16_S16x128_S1600000x128_1_0_0_1_n_n_wf : DotDims.WF S1600000x16 S16x128 S1600000x128 [1] [0] [0] [1] [] []
  scatter_S100000x128_S1600000x1_S1600000x128_1_0_0_1_wf : ScatterDims.WF S100000x128 S1600000x1 S1600000x128 [1] [0] [0] 1
  gather_S100000x128_S1600000x1_S1600000x128_1_0_n_n_0_1_1128_wf : GatherDims.WF S100000x128 S1600000x1 S1600000x128 [1] [0] [] [0] [] 1 ![1, 128]
  scatter_S64x128_S100000x1_S100000x128_1_0_0_1_wf : ScatterDims.WF S64x128 S100000x1 S100000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S1600000x16_S16x128_S1600000x128_1_0_0_1_n_n : DotDims S1600000x16 S16x128 S1600000x128 where
  lhsContracting := [1]
  rhsContracting := [0]
  lhsNonContracting := [0]
  rhsNonContracting := [1]
  lhsBatch := []
  rhsBatch := []
  wf := dot_S1600000x16_S16x128_S1600000x128_1_0_0_1_n_n_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf

class Facts : Prop extends Facts₀ where

variable [Facts]
-- ==== Proof.Spec.lean ====
/-
  The mean-field embedding network as plain functions on extended-real arrays, entry by entry.

  A dense layer is a matrix product plus a bias row plus a residual, clamped below at zero.  The input message is
  the node projection plus, per node, the projected sum of the features of the edges that arrive at it plus the
  number of those edges times the edge bias.  The graph readout sums, per graph, the clamped output projection of
  the nodes that carry that graph's id, and clamps the sum.  Neighbour pooling (gather by source, sum by
  destination) is left abstract here: both programs spell it with the same host operations.
-/
import Idealize.ShloMosaic.PureOps.Ideal
import Idealize.ShloMosaic.Lib.ValueIdx

noncomputable section

open Idealize.ShloMosaic Idealize.ShloMosaic.ValueIdx

namespace MeanField

/-- A real-or-infinite matrix with `n` rows and `c` columns. -/
abbrev Mat (n c : Nat) : Type := (⟨2, ![n, c]⟩ : Shape).Idx → EReal
/-- A row of `c` entries. -/
abbrev Row (c : Nat) : Type := (⟨1, ![c]⟩ : Shape).Idx → EReal
/-- A column of `n` 32-bit words. -/
abbrev WCol (n : Nat) : Type := (⟨2, ![n, 1]⟩ : Shape).Idx → BitVec 32

/-- Entry `(p, q)` of the matrix product `x · w`. -/
def mmAt {n k c : Nat} (x : Mat n k) (w : Mat k c) (p : Fin n) (q : Fin c) : EReal :=
  ∑ j : Fin k, x (ix2 p j) * w (ix2 j q)

/-- `x · w + b`, the bias added along rows. -/
def affine {n k c : Nat} (x : Mat n k) (w : Mat k c) (b : Row c) : Mat n c :=
  fun i => mmAt x w (i 0) (i 1) + b (ix1 (i 1))

/-- One mean-field layer before the clamp: `x · w + b + r`. -/
def preLayer {n k c : Nat} (x : Mat n k) (w : Mat k c) (b : Row c) (r : Mat n c) : Mat n c :=
  fun i => affine x w b i + r i

/-- One mean-field layer: `max (x · w + b + r) 0`. -/
def layer {n k c : Nat} (x : Mat n k) (w : Mat k c) (b : Row c) (r : Mat n c) : Mat n c :=
  fun i => max (preLayer x w b r i) 0

/-- The clamp at zero of every entry. -/
def clamp {n c : Nat} (x : Mat n c) : Mat n c := fun i => max (x i) 0

/-- The output projection of the node features, clamped: `max (h · w + b) 0`. -/
def act {n k c : Nat} (h : Mat n k) (w : Mat k c) (b : Row c) : Mat n c :=
  fun i => max (affine h w b i) 0

/-- The input message from the per-node aggregate `agg` of the edge features augmented by a column of ones
    (so that column 16 counts the edges that arrive at the node):
    `node · wn + bn + agg[:, :16] · we + agg[:, 16] * be`, summed in that order. -/
def messageOfAgg {n : Nat} (node : Mat n 128) (agg : Mat n 17) (wn : Mat 128 128) (bn : Row 128) (we : Mat 16 128) (be : Row 128) :
    Mat n 128 :=
  fun i => (affine node wn bn i + ∑ j : Fin 16, agg (ix2 (i 0) (Fin.castLE (by omega) j)) * we (ix2 j (i 1)))
    + agg (ix2 (i 0) (16 : Fin 17)) * be (ix1 (i 1))

/-- The input message from the per-node sum `s` of the projected edge features: `(node · wn + bn) + s`. -/
def messageOfSum {n : Nat} (node : Mat n 128) (wn : Mat 128 128) (bn : Row 128) (s : Mat n 128) : Mat n 128 :=
  fun i => affine node wn bn i + s i

/-- The rows of the index column `idx` whose word, read as a signed integer, is `g`. -/
def rowsAt {m : Nat} (idx : WCol m) (g : ℤ) : Finset (Fin m) :=
  Finset.univ.filter fun e => (idx (ix2 e 0)).toInt = g

/-- The sum by rows of `upd` into `n` segments named by `idx`: entry `(p, q)` sums `upd (e, q)` over the rows `e`
    whose index is `p`; a row whose index is negative or at least `n` lands nowhere. -/
def segSum {m n c : Nat} (idx : WCol m) (upd : Mat m c) : Mat n c :=
  fun i => ∑ e ∈ rowsAt idx ((i 0 : Fin n).val : ℤ), upd (ix2 e (i 1))

/-- The one-hot entry: `1` when the word is the segment's number, else `0`. -/
def hot (a : BitVec 32) (g : Nat) : EReal := if a = BitVec.ofNat 32 g then 1 else 0

/-- The readout as the reference spells it: the per-graph sum by rows of the clamped projection, clamped. -/
def readoutBySegment {n : Nat} (h : Mat n 128) (w : Mat 128 128) (b : Row 128) (ids : WCol n) : Mat 64 128 :=
  fun i => max (0 + segSum (n := 64) ids (act h w b) i) 0

/-- The readout as the kernel spells it over `T` tiles of `R` rows: for each tile the one-hot matrix transposed
    times the tile's clamped projection, the tiles' products added up from zero in order, the total clamped. -/
def readoutByTiles (T R : Nat) (h : Mat (T * R) 128) (w : Mat 128 128) (b : Row 128) (ids : WCol (T * R)) : Mat 64 128 :=
  fun i => max (∑ t : Fin T, ∑ r : Fin R,
      hot (ids (ix2 ⟨t.val * R + r.val, by
        have := t.isLt; have := r.isLt
        calc t.val * R + r.val < t.val * R + R := by omega
          _ = (t.val + 1) * R := by ring
          _ ≤ T * R := Nat.mul_le_mul_right R (by omega)⟩ 0)) (i 0).val
      * act h w b (ix2 ⟨t.val * R + r.val, by
        have := t.isLt; have := r.isLt
        calc t.val * R + r.val < t.val * R + R := by omega
          _ = (t.val + 1) * R := by ring
          _ ≤ T * R := Nat.mul_le_mul_right R (by omega)⟩ (i 1))) 0

end MeanField

end
-- ==== Proof.Region0.lean ====
/-
  The input-message kernel region, read as two functions of the arrays it finds.

  The region walks the 100000 rows in 25 blocks of 4000.  At each block it forms
  node · wn + bn + agg[:, :16] · we + agg[:, 16] * be (summed in that order) from the block of node features, the
  block of the per-node edge aggregate (16 summed feature columns and a count column) and the whole weights and
  biases, writes that block of the message, and writes its clamp at zero as the block of the first node
  features (a change of float format is the identity here).  Every block is written exactly once.
-/
import proofs.«400930_j41970420417062_2_alg».proof.Proof.Gen.KernelIdeal.Frame
import proofs.«400930_j41970420417062_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.ShloMosaic.ValueIdx Idealize.SL.Sem
open Idealize.ShloMosaic.Pipeline (Dat Cfg Window)

namespace Cert.KernelIdeal.RegionValue

open Cert.KernelIdeal Cert.KernelIdeal.Gen

/-! ## The two matrix products at an entry -/

/-- The node product's left operand is read at the output's row … -/
theorem lhs_node_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
/-- … and the contraction's coordinate; -/
theorem lhs_node_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
/-- its right operand at the contraction's coordinate … -/
theorem rhs_node_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
/-- … and the output's column. -/
theorem rhs_node_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The node product into a zero accumulator, at `(p, q)`: the sum over the 128 features. -/
theorem node_mm (a : FVec Ideal S4000x128 .bf16) (w : FVec Ideal S128x128 .bf16) (p : Fin 4000) (q : Fin 128) :
    matmul (F := Ideal) dot_S4000x128_S128x128_S4000x128_1_0_0_1_n_n none a w (constant (F := Ideal) S4000x128 .f32 0x00000000#32) (ix2 p q)
      = ∑ k : Fin 128, a (ix2 p k) * w (ix2 k q) := by
  refine (Ideal.matmul_constant_zero_apply dot_S4000x128_S128x128_S4000x128_1_0_0_1_n_n none a w (ix2 p q)).trans ?_
  rw [← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p q) ((ValueIdx.contrEquiv1 dot_S4000x128_S128x128_S4000x128_1_0_0_1_n_n 128 rfl rfl).symm k) = ix2 p k := funext fun a => Fin.ext (by
    match a with
    | ⟨0, _⟩ => exact lhs_node_0 _ _
    | ⟨1, _⟩ => exact (lhs_node_1 _ _).trans hk)
  have er : dot_S4000x128_S128x128_S4000x128_1_0_0_1_n_n.rhsIdx (ix2 p q) ((ValueIdx.contrEquiv1 dot_S4000x128_S128x128_S4000x128_1_0_0_1_n_n 128 rfl rfl).symm k) = ix2 k q := funext fun a => Fin.ext (by
    match a with
    | ⟨0, _⟩ => exact (rhs_node_0 _ _).trans hk
    | ⟨1, _⟩ => exact rhs_node_1 _ _)
  rw [el, er]

/-- The edge product's left operand is read at the output's row … -/
theorem lhs_edge_0 (i : S4000x128.Idx) (q : dot_S4000x16_S16x128_S4000x128_1_0_0_1_n_n.contr.Idx) :
    (dot_S4000x16_S16x128_S4000x128_1_0_0_1_n_n.lhsIdx i q 0).val = (i 0).val := by
  unfold DotDims.lhsIdx
  rw [dif_neg (show ¬(0 : Fin S4000x16.rank) ∈ dot_S4000x16_S16x128_S4000x128_1_0_0_1_n_n.lhsBatch by decide), dif_pos (show (0 : Fin S4000x16.rank) ∈ dot_S4000x16_S16x128_S4000x128_1_0_0_1_n_n.lhsNonContracting by decide)]
  rfl
/-- … and the contraction's coordinate; -/
theorem lhs_edge_1 (i : S4000x128.Idx) (q : dot_S4000x16_S16x128_S4000x128_1_0_0_1_n_n.contr.Idx) :
    (dot_S4000x16_S16x128_S4000x128_1_0_0_1_n_n.lhsIdx i q 1).val = (q ⟨0, by decide⟩).val :=
  dot_S4000x16_S16x128_S4000x128_1_0_0_1_n_n.lhsIdx_val_of_single rfl i q
/-- its right operand at the contraction's coordinate … -/
theorem rhs_edge_0 (i : S4000x128.Idx) (q : dot_S4000x16_S16x128_S4000x128_1_0_0_1_n_n.contr.Idx) :
    (dot_S4000x16_S16x128_S4000x128_1_0_0_1_n_n.rhsIdx i q 0).val = (q ⟨0, by decide⟩).val :=
  dot_S4000x16_S16x128_S4000x128_1_0_0_1_n_n.rhsIdx_val_of_single rfl i q
/-- … and the output's column. -/
theorem rhs_edge_1 (i : S4000x128.Idx) (q : dot_S4000x16_S16x128_S4000x128_1_0_0_1_n_n.contr.Idx) :
    (dot_S4000x16_S16x128_S4000x128_1_0_0_1_n_n.rhsIdx i q 1).val = (i 1).val := by
  unfold DotDims.rhsIdx
  rw [dif_neg (show ¬(1 : Fin S16x128.rank) ∈ dot_S4000x16_S16x128_S4000x128_1_0_0_1_n_n.rhsBatch by decide), dif_pos (show (1 : Fin S16x128.rank) ∈ dot_S4000x16_S16x128_S4000x128_1_0_0_1_n_n.rhsNonContracting by decide)]
  rfl

/-- The edge product into a zero accumulator, at `(p, q)`: the sum over the 16 summed edge features. -/
theorem edge_mm (a : FVec Ideal S4000x16 .bf16) (w : FVec Ideal S16x128 .bf16) (p : Fin 4000) (q : Fin 128) :
    matmul (F := Ideal) dot_S4000x16_S16x128_S4000x128_1_0_0_1_n_n none a w (constant (F := Ideal) S4000x128 .f32 0x00000000#32) (ix2 p q)
      = ∑ k : Fin 16, a (ix2 p k) * w (ix2 k q) := by
  refine (Ideal.matmul_constant_zero_apply dot_S4000x16_S16x128_S4000x128_1_0_0_1_n_n none a w (ix2 p q)).trans ?_
  rw [← Equiv.sum_comp (ValueIdx.contrEquiv1 dot_S4000x16_S16x128_S4000x128_1_0_0_1_n_n 16 rfl rfl).symm]
  refine Finset.sum_congr rfl fun k _ => ?_
  have hk := ValueIdx.contrEquiv1_symm_val dot_S4000x16_S16x128_S4000x128_1_0_0_1_n_n 16 rfl rfl k
  have el : dot_S4000x16_S16x128_S4000x128_1_0_0_1_n_n.lhsIdx (ix2 p q) ((ValueIdx.contrEquiv1 dot_S4000x16_S16x128_S4000x128_1_0_0_1_n_n 16 rfl rfl).symm k) = ix2 p k := funext fun a => Fin.ext (by
    match a with
    | ⟨0, _⟩ => exact lhs_edge_0 _ _
    | ⟨1, _⟩ => exact (lhs_edge_1 _ _).trans hk)
  have er : dot_S4000x16_S16x128_S4000x128_1_0_0_1_n_n.rhsIdx (ix2 p q) ((ValueIdx.contrEquiv1 dot_S4000x16_S16x128_S4000x128_1_0_0_1_n_n 16 rfl rfl).symm k) = ix2 k q := funext fun a => Fin.ext (by
    match a with
    | ⟨0, _⟩ => exact (rhs_edge_0 _ _).trans hk
    | ⟨1, _⟩ => exact rhs_edge_1 _ _)
  rw [el, er]

/-! ## The payloads at an entry -/

/-- An `[a, 1]` column broadcast to `[a, b]` reads, at `(p, c)`, the column's entry in row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The message payload at `(p, q)`: the node product plus the node bias plus the edge product plus the count times the edge bias,
    summed in that order; a change of float format is the identity. -/
theorem message_entry (x0 : Vec Ideal S4000x128 .f32) (x2 : Vec Ideal S128x128 .f32) (x1 : Vec Ideal S4000x17 .f32)
    (x4 : Vec Ideal S16x128 .f32) (x3 : Vec Ideal S128 .f32) (x5 : Vec Ideal S128 .f32) (p : Fin 4000) (q : Fin 128) :
    k0_pay1 (F := Ideal) x0 x2 x1 x4 x3 x5 (ix2 p q)
      = (((∑ k : Fin 128, x0 (ix2 p k) * x2 (ix2 k q)) + x3 (ix1 q))
          + ∑ k : Fin 16, x1 (ix2 p (Fin.castLE (by omega) k)) * x4 (ix2 k q))
        + x1 (ix2 p (16 : Fin 17)) * x5 (ix1 q) := by
  unfold k0_pay1
  simp only [ValueIdx.addf_apply, ValueIdx.mulf_apply]
  have e4 : matmul (F := Ideal) dot_S4000x128_S128x128_S4000x128_1_0_0_1_n_n none (truncf FTy.bf16 x0 bitsLt_bf16_f32)
      (truncf FTy.bf16 x2 bitsLt_bf16_f32) (constant (F := Ideal) S4000x128 FTy.f32 0x00000000#32) (ix2 p q)
        = ∑ k : Fin 128, x0 (ix2 p k) * x2 (ix2 k q) := node_mm _ _ p q
  have e15 : ∀ x : Vec Ideal S128 .f32, broadcastTo S4000x128 (shapeCast S1x128 x shapeCasts_S128_S1x128) broadcasts_S1x128_S4000x128 (ix2 p q) = x (ix1 q) :=
    fun x => (broadcastTo_1b_ab_apply _ broadcasts_S1x128_S4000x128 p q).trans (shapeCast_a_1a_apply x shapeCasts_S128_S1x128 0 q)
  have e12 : matmul (F := Ideal) dot_S4000x16_S16x128_S4000x128_1_0_0_1_n_n none
          (truncf FTy.bf16
            (extractStridedSlice S4000x16 ![0, 0] (shapeCast S4000x17 x1 shapeCasts_S4000x17_S4000x17)
              slices_S4000x17_o0_0_S4000x16)
            bitsLt_bf16_f32)
          (truncf FTy.bf16 x4 bitsLt_bf16_f32) (constant (F := Ideal) S4000x128 FTy.f32 0x00000000#32) (ix2 p q)
        = ∑ k : Fin 16, x1 (ix2 p (Fin.castLE (by omega) k)) * x4 (ix2 k q) := by
    refine (edge_mm _ _ p q).trans (Finset.sum_congr rfl fun k _ => ?_)
    refine congrArg (· * x4 (ix2 k q)) ?_
    exact (slice2_axis1_apply 0 (shapeCast S4000x17 x1 shapeCasts_S4000x17_S4000x17) slices_S4000x17_o0_0_S4000x16 p k
      (Fin.castLE (by omega) k) (Nat.zero_add _).symm).trans (congrFun (shapeCast_self x1 shapeCasts_S4000x17_S4000x17) _)
  have e20 : broadcastTo S4000x128
          (extractStridedSlice S4000x1 ![0, 16] (shapeCast S4000x17 x1 shapeCasts_S4000x17_S4000x17)
            slices_S4000x17_o0_16_S4000x1)
          broadcasts_S4000x1_S4000x128 (ix2 p q) = x1 (ix2 p (16 : Fin 17)) :=
    (broadcastTo_a1_ab_apply _ broadcasts_S4000x1_S4000x128 p q).trans
      ((slice2_axis1_apply 16 (shapeCast S4000x17 x1 shapeCasts_S4000x17_S4000x17) slices_S4000x17_o0_16_S4000x1 p (0 : Fin 1)
        (16 : Fin 17) rfl).trans (congrFun (shapeCast_self x1 shapeCasts_S4000x17_S4000x17) _))
  rw [e4, e15 x3, e12, e20, e15 x5]

/-- The message payload at `(p, q)` of blocks that read the arrays at row `i 0` and column `i 1` is the input message at `i`. -/
theorem message_of_blocks (node : MeanField.Mat 100000 128) (agg : MeanField.Mat 100000 17) (wn : MeanField.Mat 128 128)
    (bn : MeanField.Row 128) (we : MeanField.Mat 16 128) (be : MeanField.Row 128)
    (x0 : Vec Ideal S4000x128 .f32) (x2 : Vec Ideal S128x128 .f32) (x1 : Vec Ideal S4000x17 .f32)
    (x4 : Vec Ideal S16x128 .f32) (x3 : Vec Ideal S128 .f32) (x5 : Vec Ideal S128 .f32)
    (i : S100000x128.Idx) (p : Fin 4000) (q : Fin 128)
    (h0 : ∀ k : Fin 128, x0 (ix2 p k) = node (ix2 (i 0) k))
    (h1 : ∀ k : Fin 17, x1 (ix2 p k) = agg (ix2 (i 0) k))
    (h2 : ∀ k : Fin 128, x2 (ix2 k q) = wn (ix2 k (i 1)))
    (h3 : x3 (ix1 q) = bn (ix1 (i 1)))
    (h4 : ∀ k : Fin 16, x4 (ix2 k q) = we (ix2 k (i 1)))
    (h5 : x5 (ix1 q) = be (ix1 (i 1))) :
    k0_pay1 (F := Ideal) x0 x2 x1 x4 x3 x5 (ix2 p q) = MeanField.messageOfAgg node agg wn bn we be i := by
  rw [message_entry]
  unfold MeanField.messageOfAgg MeanField.affine MeanField.mmAt
  simp only [h0, h1, h2, h3, h4, h5]

/-- The features payload is the message payload clamped at zero. -/
theorem features_entry (x0 : Vec Ideal S4000x128 .f32) (x2 : Vec Ideal S128x128 .f32) (x1 : Vec Ideal S4000x17 .f32)
    (x4 : Vec Ideal S16x128 .f32) (x3 : Vec Ideal S128 .f32) (x5 : Vec Ideal S128 .f32) (i : S4000x128.Idx) :
    k0_pay2 (F := Ideal) x0 x2 x1 x4 x3 x5 i = max (k0_pay1 (F := Ideal) x0 x2 x1 x4 x3 x5 i) 0 := by
  unfold k0_pay2
  show max (k0_pay1 (F := Ideal) x0 x2 x1 x4 x3 x5 i) (Ideal.ofBits .f32 0x00000000#32) = _
  rw [Ideal.ofBits_zero_f32]

/-! ## The blocks the region reads, as rows of the arrays it finds -/

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps, decided over the grid: the row blocks move with the point, everything else stays at block 0. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- The block of node features at point `t` is rows `4000 t …` of the array. -/
theorem node_block (c : Dev nD) (t : Fin cfg0.N) (x : S4000x128.Idx) (k : S100000x128.Idx)
    (hk0 : (k 0).val = t.val * 4000 + (x 0).val) (hk1 : (k 1).val = (x 1).val) :
    (iblk0 V c 0 t : Vec Ideal S4000x128 .f32) x = (V c main_arg0 : S100000x128.Idx → Elt Ideal .f32) k := by
  obtain ⟨h0, h1, -⟩ := index_facts t
  unfold iblk0
  rw [View.read_apply]
  show V c main_arg0 _ = V c main_arg0 _
  congr 1
  funext a
  apply Fin.ext
  match a with
  | ⟨0, _⟩ => show win0_0.index t 0 * 4000 + 1 * (x 0).val = (k 0).val; rw [h0, hk0]; omega
  | ⟨1, _⟩ => show win0_0.index t 1 * 128 + 1 * (x 1).val = (k 1).val; rw [h1, hk1]; omega

/-- The block of the edge aggregate at point `t` is rows `4000 t …` of the array. -/
theorem agg_block (c : Dev nD) (t : Fin cfg0.N) (x : S4000x17.Idx) (k : S100000x17.Idx)
    (hk0 : (k 0).val = t.val * 4000 + (x 0).val) (hk1 : (k 1).val = (x 1).val) :
    (iblk0 V c 1 t : Vec Ideal S4000x17 .f32) x = (V c main_v5 : S100000x17.Idx → Elt Ideal .f32) k := by
  obtain ⟨-, -, h0, h1, -⟩ := index_facts t
  unfold iblk0
  rw [View.read_apply]
  show V c main_v5 _ = V c main_v5 _
  congr 1
  funext a
  apply Fin.ext
  match a with
  | ⟨0, _⟩ => show win0_1.index t 0 * 4000 + 1 * (x 0).val = (k 0).val; rw [h0, hk0]; omega
  | ⟨1, _⟩ => show win0_1.index t 1 * 17 + 1 * (x 1).val = (k 1).val; rw [h1, hk1]; omega

/-- The node weights' block is the whole matrix at every point. -/
theorem wn_block (c : Dev nD) (t : Fin cfg0.N) (x : S128x128.Idx) (k : S128x128.Idx)
    (hk0 : (k 0).val = (x 0).val) (hk1 : (k 1).val = (x 1).val) :
    (iblk0 V c 2 t : Vec Ideal S128x128 .f32) x = (V c main_arg5 : S128x128.Idx → Elt Ideal .f32) k := by
  obtain ⟨-, -, -, -, h0, h1, -⟩ := index_facts t
  unfold iblk0
  rw [View.read_apply]
  show V c main_arg5 _ = V c main_arg5 _
  congr 1
  funext a
  apply Fin.ext
  match a with
  | ⟨0, _⟩ => show win0_2.index t 0 * 128 + 1 * (x 0).val = (k 0).val; rw [h0, hk0]; omega
  | ⟨1, _⟩ => show win0_2.index t 1 * 128 + 1 * (x 1).val = (k 1).val; rw [h1, hk1]; omega

/-- The node bias's block is the whole row at every point. -/
theorem bn_block (c : Dev nD) (t : Fin cfg0.N) (x : S128.Idx) (k : S128.Idx) (hk0 : (k 0).val = (x 0).val) :
    (iblk0 V c 3 t : Vec Ideal S128 .f32) x = (V c main_arg6 : S128.Idx → Elt Ideal .f32) k := by
  obtain ⟨-, -, -, -, -, -, h0, -⟩ := index_facts t
  unfold iblk0
  rw [View.read_apply]
  show V c main_arg6 _ = V c main_arg6 _
  congr 1
  funext a
  apply Fin.ext
  match a with
  | ⟨0, _⟩ => show win0_3.index t 0 * 128 + 1 * (x 0).val = (k 0).val; rw [h0, hk0]; omega

/-- The edge weights' block is the whole matrix at every point. -/
theorem we_block (c : Dev nD) (t : Fin cfg0.N) (x : S16x128.Idx) (k : S16x128.Idx)
    (hk0 : (k 0).val = (x 0).val) (hk1 : (k 1).val = (x 1).val) :
    (iblk0 V c 4 t : Vec Ideal S16x128 .f32) x = (V c main_arg7 : S16x128.Idx → Elt Ideal .f32) k := by
  obtain ⟨-, -, -, -, -, -, -, h0, h1, -⟩ := index_facts t
  unfold iblk0
  rw [View.read_apply]
  show V c main_arg7 _ = V c main_arg7 _
  congr 1
  funext a
  apply Fin.ext
  match a with
  | ⟨0, _⟩ => show win0_4.index t 0 * 16 + 1 * (x 0).val = (k 0).val; rw [h0, hk0]; omega
  | ⟨1, _⟩ => show win0_4.index t 1 * 128 + 1 * (x 1).val = (k 1).val; rw [h1, hk1]; omega

/-- The edge bias's block is the whole row at every point. -/
theorem be_block (c : Dev nD) (t : Fin cfg0.N) (x : S128.Idx) (k : S128.Idx) (hk0 : (k 0).val = (x 0).val) :
    (iblk0 V c 5 t : Vec Ideal S128 .f32) x = (V c main_arg8 : S128.Idx → Elt Ideal .f32) k := by
  obtain ⟨-, -, -, -, -, -, -, -, -, h0, -⟩ := index_facts t
  unfold iblk0
  rw [View.read_apply]
  show V c main_arg8 _ = V c main_arg8 _
  congr 1
  funext a
  apply Fin.ext
  match a with
  | ⟨0, _⟩ => show win0_5.index t 0 * 128 + 1 * (x 0).val = (k 0).val; rw [h0, hk0]; omega

/-! ## What each point writes back -/

/-- What point `t` writes back to the message array is block `t` of the input message of the arrays the region found. -/
theorem flushed_message (c : Dev nD) (t : Fin cfg0.N) :
    (dat0 (F := Ideal) V c).flushed 6 t = ((cfg0.win 6).blk t).view.read (Elt Ideal)
      (MeanField.messageOfAgg (V c main_arg0) (V c main_v5) (V c main_arg5) (V c main_arg6) (V c main_arg7) (V c main_arg8)) := by
  show (cfg0.win 6).cut (grid0.coords t) ((dat0 V c).after 6 t) = _
  rw [after0_6]
  unfold out0_6
  rw [View.canon_unit_zero hz2]
  simp only [View.ld_unit_zero (S := S4000x128) hz2, View.ld_unit_zero (S := S128x128) hz2, View.ld_unit_zero (S := S4000x17) hz2,
    View.ld_unit_zero (S := S16x128) hz2, View.ld_unit_zero (S := S128) hz1]
  obtain ⟨-, -, -, -, -, -, -, -, -, -, e0, e1, -⟩ := index_facts t
  funext j
  have hp : (j 0).val < 4000 := (j 0).isLt
  have hq : (j 1).val < 128 := (j 1).isLt
  have hx : (cfg0.win 6).xinj (grid0.coords t) j = ix2 ⟨(j 0).val, hp⟩ ⟨(j 1).val, hq⟩ := by
    funext a; match a with | ⟨0, _⟩ => rfl | ⟨1, _⟩ => rfl
  rw [View.read_apply]
  show k0_pay1 (F := Ideal) _ _ _ _ _ _ ((cfg0.win 6).xinj (grid0.coords t) j) = _
  rw [hx]
  have hi0 : ((((cfg0.win 6).blk t).view.emb j) 0).val = t.val * 4000 + (j 0).val := by
    show win0_6.index t 0 * 4000 + 1 * (j 0).val = _; rw [e0]; omega
  have hi1 : ((((cfg0.win 6).blk t).view.emb j) 1).val = (j 1).val := by
    show win0_6.index t 1 * 128 + 1 * (j 1).val = _; rw [e1]; omega
  exact message_of_blocks _ _ _ _ _ _ _ _ _ _ _ _ (((cfg0.win 6).blk t).view.emb j) ⟨(j 0).val, hp⟩ ⟨(j 1).val, hq⟩
    (fun k => node_block V c t _ _ hi0 rfl)
    (fun k => agg_block V c t _ _ hi0 rfl)
    (fun k => wn_block V c t _ _ rfl hi1)
    (bn_block V c t _ _ hi1)
    (fun k => we_block V c t _ _ rfl hi1)
    (be_block V c t _ _ hi1)

/-- What point `t` writes back to the features array is block `t` of that message clamped at zero. -/
theorem flushed_features (c : Dev nD) (t : Fin cfg0.N) :
    (dat0 (F := Ideal) V c).flushed 7 t = ((cfg0.win 7).blk t).view.read (Elt Ideal)
      (MeanField.clamp (MeanField.messageOfAgg (V c main_arg0) (V c main_v5) (V c main_arg5) (V c main_arg6) (V c main_arg7) (V c main_arg8))) := by
  show (cfg0.win 7).cut (grid0.coords t) ((dat0 V c).after 7 t) = _
  rw [after0_7]
  unfold out0_7
  rw [View.canon_unit_zero hz2]
  simp only [View.ld_unit_zero (S := S4000x128) hz2, View.ld_unit_zero (S := S128x128) hz2, View.ld_unit_zero (S := S4000x17) hz2,
    View.ld_unit_zero (S := S16x128) hz2, View.ld_unit_zero (S := S128) hz1]
  obtain ⟨-, -, -, -, -, -, -, -, -, -, -, -, e0, e1⟩ := index_facts t
  funext j
  have hp : (j 0).val < 4000 := (j 0).isLt
  have hq : (j 1).val < 128 := (j 1).isLt
  have hx : (cfg0.win 7).xinj (grid0.coords t) j = ix2 ⟨(j 0).val, hp⟩ ⟨(j 1).val, hq⟩ := by
    funext a; match a with | ⟨0, _⟩ => rfl | ⟨1, _⟩ => rfl
  rw [View.read_apply]
  show k0_pay2 (F := Ideal) _ _ _ _ _ _ ((cfg0.win 7).xinj (grid0.coords t) j) = _
  rw [hx, features_entry]
  have hi0 : ((((cfg0.win 7).blk t).view.emb j) 0).val = t.val * 4000 + (j 0).val := by
    show win0_7.index t 0 * 4000 + 1 * (j 0).val = _; rw [e0]; omega
  have hi1 : ((((cfg0.win 7).blk t).view.emb j) 1).val = (j 1).val := by
    show win0_7.index t 1 * 128 + 1 * (j 1).val = _; rw [e1]; omega
  exact congrArg (max · 0) (message_of_blocks _ _ _ _ _ _ _ _ _ _ _ _ (((cfg0.win 7).blk t).view.emb j) ⟨(j 0).val, hp⟩ ⟨(j 1).val, hq⟩
    (fun k => node_block V c t _ _ hi0 rfl)
    (fun k => agg_block V c t _ _ hi0 rfl)
    (fun k => wn_block V c t _ _ rfl hi1)
    (bn_block V c t _ _ hi1)
    (fun k => we_block V c t _ _ rfl hi1)
    (be_block V c t _ _ hi1))

/-! ## The blocks cover the arrays -/

/-- An index of the message array is in point `t`'s block iff each coordinate is in the block's range on its axis. -/
theorem mem_message_block (t : Fin cfg0.N) (i : S100000x128.Idx) :
    i ∈ ((cfg0.win 6).blk t).view.set ↔ ∀ a : Fin 2, win0_6.index t a * S4000x128.size a ≤ (i a).val ∧ (i a).val < win0_6.index t a * S4000x128.size a + S4000x128.size a := by
  show i ∈ ((View.whole main_v6_0).slice (win0_6.rect t)).set ↔ _
  rw [View.set_slice_whole, Rect.mem_set_unit]
  exact Iff.rfl

/-- The same for the features array. -/
theorem mem_features_block (t : Fin cfg0.N) (i : S100000x128.Idx) :
    i ∈ ((cfg0.win 7).blk t).view.set ↔ ∀ a : Fin 2, win0_7.index t a * S4000x128.size a ≤ (i a).val ∧ (i a).val < win0_7.index t a * S4000x128.size a + S4000x128.size a := by
  show i ∈ ((View.whole main_v6_1).slice (win0_7.rect t)).set ↔ _
  rw [View.set_slice_whole, Rect.mem_set_unit]
  exact Iff.rfl

/-- Row `n` of the message array is in the block of point `n / 4000`. -/
theorem covered_message (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hN : (i 0).val / 4000 < cfg0.N := by show _ < grid0.N; rw [N_0]; omega
  obtain ⟨-, -, -, -, -, -, -, -, -, -, e0, e1, -⟩ := index_facts ⟨(i 0).val / 4000, hN⟩
  have e0' : win0_6.index ⟨(i 0).val / 4000, hN⟩ (0 : Fin 2) = (i 0).val / 4000 := e0
  refine ⟨⟨(i 0).val / 4000, hN⟩, flush0_6 _, ?_⟩
  rw [mem_message_block]
  intro a
  match a with
  | ⟨0, _⟩ =>
    show win0_6.index ⟨(i 0).val / 4000, hN⟩ (0 : Fin 2) * 4000 ≤ (i 0).val ∧ (i 0).val < win0_6.index ⟨(i 0).val / 4000, hN⟩ (0 : Fin 2) * 4000 + 4000
    rw [e0']; omega
  | ⟨1, _⟩ =>
    show win0_6.index ⟨(i 0).val / 4000, hN⟩ (1 : Fin 2) * 128 ≤ (i 1).val ∧ (i 1).val < win0_6.index ⟨(i 0).val / 4000, hN⟩ (1 : Fin 2) * 128 + 128
    rw [e1]; omega

/-- Row `n` of the features array is in the block of point `n / 4000`. -/
theorem covered_features (i : S100000x128.Idx) :
    ∃ t : Fin cfg0.N, (cfg0.win 7).flush t = true ∧ i ∈ ((cfg0.win 7).blk t).view.set := by
  have hi0 : (i 0).val < 100000 := (i 0).isLt
  have hi1 : (i 1).val < 128 := (i 1).isLt
  have hN : (i 0).val / 4000 < cfg0.N := by show _ < grid0.N; rw [N_0]; omega
  obtain ⟨-, -, -, -, -, -, -, -, -, -, -, -, e0, e1⟩ := index_facts ⟨(i 0).val / 4000, hN⟩
  have e0' : win0_7.index ⟨(i 0).val / 4000, hN⟩ (0 : Fin 2) = (i 0).val / 4000 := e0
  refine ⟨⟨(i 0).val / 4000, hN⟩, flush0_7 _, ?_⟩
  rw [mem_features_block]
  intro a
  match a with
  | ⟨0, _⟩ =>
    show win0_7.index ⟨(i 0).val / 4000, hN⟩ (0 : Fin 2) * 4000 ≤ (i 0).val ∧ (i 0).val < win0_7.index ⟨(i 0).val / 4000, hN⟩ (0 : Fin 2) * 4000 + 4000
    rw [e0']; omega
  | ⟨1, _⟩ =>
    show win0_7.index ⟨(i 0).val / 4000, hN⟩ (1 : Fin 2) * 128 ≤ (i 1).val ∧ (i 1).val < win0_7.index ⟨(i 0).val / 4000, hN⟩ (1 : Fin 2) * 128 + 128
    rw [e1]; omega

/-! ## The arrays after the region -/

/-- After region 0 its first output array holds the input message of the arrays the region was entered with. -/
theorem region0_message (c : Dev nD) :
    (dat0 (F := Ideal) V c).arrAt 6 cfg0.N
      = MeanField.messageOfAgg (V c main_arg0) (V c main_v5) (V c main_arg5) (V c main_arg6) (V c main_arg7) (V c main_arg8) :=
  (dat0 (F := Ideal) V c).arrAt_eq_of_cover 6 _ (fun t _ => flushed_message V c t) covered_message

/-- After region 0 its second output array holds that message clamped at zero. -/
theorem region0_features (c : Dev nD) :
    (dat0 (F := Ideal) V c).arrAt 7 cfg0.N
      = MeanField.clamp (MeanField.messageOfAgg (V c main_arg0) (V c main_v5) (V c main_arg5) (V c main_arg6) (V c main_arg7) (V c main_arg8)) :=
  (dat0 (F := Ideal) V c).arrAt_eq_of_cover 7 _ (fun t _ => flushed_features V c t) covered_features

end Cert.KernelIdeal.RegionValue

end
-- ==== Proof.Region1.lean ====
/-
  The first mean-field layer's kernel region, read as one function of the arrays it finds.

  The region walks the 100000 rows in 25 blocks of 4000.  At each block it multiplies the block of pooled
  neighbour features by the whole 128 x 128 weight, adds the bias row and the matching block of the input message,
  clamps at zero and writes the block back (a change of float format is the identity here).  Row n lies in block
  n / 4000, every block is written exactly once, so the array after the region is the layer function of the whole
  arrays, entry by entry.
-/
import proofs.«400930_j41970420417062_2_alg».proof.Proof.Gen.KernelIdeal.Frame
import proofs.«400930_j41970420417062_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.ShloMosaic.ValueIdx Idealize.SL.Sem
open Idealize.ShloMosaic.Pipeline (Dat Cfg Window)

namespace Cert.KernelIdeal.RegionValue

open Cert.KernelIdeal Cert.KernelIdeal.Gen

variable (V : (c : Dev nD) → (b : Ref sig .tc) → Buf (Elt Ideal) ((c : Thread nD τ).loc b))

namespace Layer1

/-! ## The block product: its operand indices axis by axis, then its entries -/

/-- The left operand's row is the output's row. -/
theorem lhs_dot_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
/-- The left operand's column is the contraction's coordinate. -/
theorem lhs_dot_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
/-- The right operand's row is the contraction's coordinate. -/
theorem rhs_dot_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
/-- The right operand's column is the output's column. -/
theorem rhs_dot_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The block product read at an entry: row `p` of the left block against column `q` of the weight. -/
theorem blockProduct_apply (x : FVec Ideal S4000x128 .bf16) (w : FVec Ideal S128x128 .bf16) (p : Fin 4000) (q : Fin 128) :
    matmul (F := Ideal) dot_S4000x128_S128x128_S4000x128_1_0_0_1_n_n none x w (constant (F := Ideal) S4000x128 .f32 0x00000000#32) (ix2 p q)
      = ∑ k : Fin 128, x (ix2 p k) * w (ix2 k q) := by
  refine (Ideal.matmul_constant_zero_apply dot_S4000x128_S128x128_S4000x128_1_0_0_1_n_n none x w (ix2 p q)).trans ?_
  rw [← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p q) ((ValueIdx.contrEquiv1 dot_S4000x128_S128x128_S4000x128_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S4000x128_S128x128_S4000x128_1_0_0_1_n_n.rhsIdx (ix2 p q) ((ValueIdx.contrEquiv1 dot_S4000x128_S128x128_S4000x128_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-- The body's block read at an entry: the clamp at zero of the block product plus the bias plus the residual. -/
theorem layerBlock_apply (x : Vec Ideal S4000x128 .f32) (w : Vec Ideal S128x128 .f32) (b : Vec Ideal S128 .f32) (r : Vec Ideal S4000x128 .f32) (p : Fin 4000) (q : Fin 128) :
    k1_pay1 x w b r (ix2 p q) = max (((∑ k : Fin 128, x (ix2 p k) * w (ix2 k q)) + b (ix1 q)) + r (ix2 p q)) 0 := by
  unfold k1_pay1
  refine (maximumf_apply (φ := .f32) _ _ (ix2 p q)).trans ?_
  refine congrArg₂ max ?_ Ideal.ofBits_zero_f32
  refine (addf_apply (φ := .f32) _ _ (ix2 p q)).trans ?_
  refine congrArg₂ (· + ·) ?_ (congrFun (shapeCast_self r _) _)
  refine (addf_apply (φ := .f32) _ _ (ix2 p q)).trans ?_
  refine congrArg₂ (· + ·) ?_ ?_
  · refine (blockProduct_apply _ _ p q).trans (Finset.sum_congr rfl fun k _ => ?_)
    exact congrArg (· * w (ix2 k q)) (congrFun (shapeCast_self x _) (ix2 p k))
  · exact (broadcastTo_1b_ab_apply _ _ p q).trans (shapeCast_a_1a_apply b _ 0 q)

/-! ## From the block to the whole arrays -/

/-- The body's block at an entry is the layer of the whole arrays at the matching entry, once each input block is
    known to be the part of its array that the entry's row and column name. -/
theorem layerBlock_eq_layer
    (X : MeanField.Mat 100000 128) (Wt : MeanField.Mat 128 128) (B : MeanField.Row 128) (R : MeanField.Mat 100000 128)
    (x0 : Vec Ideal S4000x128 .f32) (x1 : Vec Ideal S128x128 .f32) (x2 : Vec Ideal S128 .f32) (x3 : Vec Ideal S4000x128 .f32)
    (j : S4000x128.Idx) (i : S100000x128.Idx)
    (hq : (i 1).val = (j 1).val)
    (h0 : ∀ k : Fin 128, x0 (ix2 (j 0) k) = X (ix2 (i 0) k))
    (h1 : ∀ k q : Fin 128, x1 (ix2 k q) = Wt (ix2 k q))
    (h2 : ∀ q : Fin 128, x2 (ix1 q) = B (ix1 q))
    (h3 : x3 j = R i) :
    k1_pay1 x0 x1 x2 x3 j = MeanField.layer X Wt B R i := by
  have hq' : i 1 = j 1 := Fin.ext hq
  have e3 : x3 (ix2 (j 0) (j 1)) = R i := (congrArg x3 (eq_ix2 j).symm).trans h3
  have e2 : x2 (ix1 (j 1)) = B (ix1 (i 1)) := (h2 (j 1)).trans (congrArg (fun a => B (ix1 a)) hq'.symm)
  have e1 : ∀ k : Fin 128, x0 (ix2 (j 0) k) * x1 (ix2 k (j 1)) = X (ix2 (i 0) k) * Wt (ix2 k (i 1)) := fun k =>
    congrArg₂ (· * ·) (h0 k) ((h1 k (j 1)).trans (congrArg (fun a => Wt (ix2 k a)) hq'.symm))
  refine (congrArg (k1_pay1 x0 x1 x2 x3) (eq_ix2 j)).trans ?_
  refine (layerBlock_apply x0 x1 x2 x3 (j 0) (j 1)).trans ?_
  show max (((∑ k : Fin 128, x0 (ix2 (j 0) k) * x1 (ix2 k (j 1))) + x2 (ix1 (j 1))) + x3 (ix2 (j 0) (j 1))) 0
    = max (((∑ k : Fin 128, X (ix2 (i 0) k) * Wt (ix2 k (i 1))) + B (ix1 (i 1))) + R i) 0
  exact congrArg₂ max (congrArg₂ (· + ·) (congrArg₂ (· + ·) (Finset.sum_congr rfl fun k _ => e1 k) e2) e3) rfl

/-- The zero offsets of a whole rank-2 block, as a constant function. -/
theorem hz : (![0, 0] : Fin 2 → Nat) = fun _ => 0 := funext fun a => by fin_cases a <;> rfl
/-- The zero offset of a whole rank-1 block, as a constant function. -/
theorem hz1 : (![0] : Fin 1 → Nat) = fun _ => 0 := funext fun a => by fin_cases a <;> rfl

/-- Where each window's block sits at grid point `t`: the two row-blocked inputs and the output at block row `t`,
    the weight and the bias whole. -/
theorem block_positions : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- What grid point `t` writes back is block `t` of the layer of the whole arrays. -/
theorem flushed_eq_layer (c : Dev nD) (t : Fin cfg1.N) :
    (dat1 (F := Ideal) V c).flushed 4 t
      = ((cfg1.win 4).blk t).view.read (Elt Ideal) (MeanField.layer (V c main_v17) (V c main_arg9) (V c main_arg10) (V c main_v6_0)) := by
  show (cfg1.win 4).cut (grid1.coords t) ((dat1 V c).after 4 t) = _
  rw [after1_4]
  unfold out1_4
  rw [View.canon_unit_zero hz]
  simp only [View.ld_unit_zero (S := S4000x128) hz, View.ld_unit_zero (S := S128x128) hz, View.ld_unit_zero (S := S128) hz1]
  obtain ⟨e00, e01, e10, e11, e20, e30, e31, e40, e41⟩ := block_positions t
  funext j
  refine layerBlock_eq_layer (V c main_v17) (V c main_arg9) (V c main_arg10) (V c main_v6_0)
    (iblk1 V c 0 t) (iblk1 V c 1 t) (iblk1 V c 2 t) (iblk1 V c 3 t) j (((cfg1.win 4).blk t).view.emb j) ?_ ?_ ?_ ?_ ?_
  · show win1_4.index t (1 : Fin 2) * 128 + 1 * (j 1).val = (j 1).val
    omega
  · intro k
    show V c main_v17 (((cfg1.win 0).blk t).view.emb (ix2 (j 0) k)) = V c main_v17 (ix2 (((cfg1.win 4).blk t).view.emb j 0) k)
    refine congrArg (V c main_v17) (funext fun a => Fin.ext ?_)
    match a with
    | ⟨0, _⟩ => show win1_0.index t (0 : Fin 2) * 4000 + 1 * (j 0).val = win1_4.index t (0 : Fin 2) * 4000 + 1 * (j 0).val; omega
    | ⟨1, _⟩ => show win1_0.index t (1 : Fin 2) * 128 + 1 * k.val = k.val; omega
  · intro k q
    show V c main_arg9 (((cfg1.win 1).blk t).view.emb (ix2 k q)) = V c main_arg9 (ix2 k q)
    refine congrArg (V c main_arg9) (funext fun a => Fin.ext ?_)
    match a with
    | ⟨0, _⟩ => show win1_1.index t (0 : Fin 2) * 128 + 1 * k.val = k.val; omega
    | ⟨1, _⟩ => show win1_1.index t (1 : Fin 2) * 128 + 1 * q.val = q.val; omega
  · intro q
    show V c main_arg10 (((cfg1.win 2).blk t).view.emb (ix1 q)) = V c main_arg10 (ix1 q)
    refine congrArg (V c main_arg10) (funext fun a => Fin.ext ?_)
    match a with
    | ⟨0, _⟩ => show win1_2.index t (0 : Fin 1) * 128 + 1 * q.val = q.val; omega
  · show V c main_v6_0 (((cfg1.win 3).blk t).view.emb j) = V c main_v6_0 (((cfg1.win 4).blk t).view.emb j)
    refine congrArg (V c main_v6_0) (funext fun a => Fin.ext ?_)
    match a with
    | ⟨0, _⟩ => show win1_3.index t (0 : Fin 2) * 4000 + 1 * (j 0).val = win1_4.index t (0 : Fin 2) * 4000 + 1 * (j 0).val; omega
    | ⟨1, _⟩ => show win1_3.index t (1 : Fin 2) * 128 + 1 * (j 1).val = win1_4.index t (1 : Fin 2) * 128 + 1 * (j 1).val; omega

/-! ## The blocks tile the array -/

/-- An entry of the array is in point `t`'s block iff each coordinate is in the block's range on its axis. -/
theorem mem_block_iff (t : Fin cfg1.N) (i : S100000x128.Idx) :
    i ∈ ((cfg1.win 4).blk t).view.set ↔ ∀ a : Fin 2, win1_4.index t a * S4000x128.size a ≤ (i a).val ∧ (i a).val < win1_4.index t a * S4000x128.size a + S4000x128.size a := by
  show i ∈ ((View.whole main_v18).slice (win1_4.rect t)).set ↔ _
  rw [View.set_slice_whole, Rect.mem_set_unit]
  exact Iff.rfl

/-- Row `n` lies in the block of point `n / 4000`, so every entry of the array is written back by some point. -/
theorem covered (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have hlt : (i 0).val / 4000 < cfg1.N := by
    show (i 0).val / 4000 < grid1.N
    rw [N_1]; omega
  obtain ⟨t, ht⟩ : ∃ t : Fin cfg1.N, t.val = (i 0).val / 4000 := ⟨⟨_, hlt⟩, rfl⟩
  obtain ⟨e00, e01, e10, e11, e20, e30, e31, e40, e41⟩ := block_positions t
  refine ⟨t, flush1_4 t, ?_⟩
  rw [mem_block_iff]
  intro a
  match a with
  | ⟨0, _⟩ => show win1_4.index t (0 : Fin 2) * 4000 ≤ (i 0).val ∧ (i 0).val < win1_4.index t (0 : Fin 2) * 4000 + 4000; omega
  | ⟨1, _⟩ => show win1_4.index t (1 : Fin 2) * 128 ≤ (i 1).val ∧ (i 1).val < win1_4.index t (1 : Fin 2) * 128 + 128; omega

end Layer1

/-- After region 1 its output array holds `max (pool · w + b + im) 0` of the arrays the region was entered with. -/
theorem region1_out (c : Dev nD) :
    (dat1 (F := Ideal) V c).arrAt 4 cfg1.N
      = MeanField.layer (V c main_v17) (V c main_arg9) (V c main_arg10) (V c main_v6_0) :=
  (dat1 (F := Ideal) V c).arrAt_eq_of_cover 4 _ (fun t _ => Layer1.flushed_eq_layer V c t) (fun i => Layer1.covered i)

end Cert.KernelIdeal.RegionValue

end
-- ==== Proof.Region2.lean ====
/-
  The second mean-field layer's kernel region, read as one function of the arrays it finds.

  The region walks the 100000 rows in 25 blocks of 4000.  At each block it multiplies the block of pooled
  neighbour features by the whole 128 x 128 weight, adds the bias row and the matching block of the input message,
  clamps at zero and writes the block back (a change of float format is the identity here).  Row n lies in block
  n / 4000, every block is written exactly once, so the array after the region is the layer function of the whole
  arrays, entry by entry.
-/
import proofs.«400930_j41970420417062_2_alg».proof.Proof.Gen.KernelIdeal.Frame
import proofs.«400930_j41970420417062_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.ShloMosaic.ValueIdx Idealize.SL.Sem
open Idealize.ShloMosaic.Pipeline (Dat Cfg Window)

namespace Cert.KernelIdeal.RegionValue

open Cert.KernelIdeal Cert.KernelIdeal.Gen

variable (V : (c : Dev nD) → (b : Ref sig .tc) → Buf (Elt Ideal) ((c : Thread nD τ).loc b))

namespace Layer2

/-! ## The block product: its operand indices axis by axis, then its entries -/

/-- The left operand's row is the output's row. -/
theorem lhs_dot_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
/-- The left operand's column is the contraction's coordinate. -/
theorem lhs_dot_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
/-- The right operand's row is the contraction's coordinate. -/
theorem rhs_dot_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
/-- The right operand's column is the output's column. -/
theorem rhs_dot_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The block product read at an entry: row `p` of the left block against column `q` of the weight. -/
theorem blockProduct_apply (x : FVec Ideal S4000x128 .bf16) (w : FVec Ideal S128x128 .bf16) (p : Fin 4000) (q : Fin 128) :
    matmul (F := Ideal) dot_S4000x128_S128x128_S4000x128_1_0_0_1_n_n none x w (constant (F := Ideal) S4000x128 .f32 0x00000000#32) (ix2 p q)
      = ∑ k : Fin 128, x (ix2 p k) * w (ix2 k q) := by
  refine (Ideal.matmul_constant_zero_apply dot_S4000x128_S128x128_S4000x128_1_0_0_1_n_n none x w (ix2 p q)).trans ?_
  rw [← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p q) ((ValueIdx.contrEquiv1 dot_S4000x128_S128x128_S4000x128_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S4000x128_S128x128_S4000x128_1_0_0_1_n_n.rhsIdx (ix2 p q) ((ValueIdx.contrEquiv1 dot_S4000x128_S128x128_S4000x128_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-- The body's block read at an entry: the clamp at zero of the block product plus the bias plus the residual. -/
theorem layerBlock_apply (x : Vec Ideal S4000x128 .f32) (w : Vec Ideal S128x128 .f32) (b : Vec Ideal S128 .f32) (r : Vec Ideal S4000x128 .f32) (p : Fin 4000) (q : Fin 128) :
    k2_pay1 x w b r (ix2 p q) = max (((∑ k : Fin 128, x (ix2 p k) * w (ix2 k q)) + b (ix1 q)) + r (ix2 p q)) 0 := by
  unfold k2_pay1
  refine (maximumf_apply (φ := .f32) _ _ (ix2 p q)).trans ?_
  refine congrArg₂ max ?_ Ideal.ofBits_zero_f32
  refine (addf_apply (φ := .f32) _ _ (ix2 p q)).trans ?_
  refine congrArg₂ (· + ·) ?_ (congrFun (shapeCast_self r _) _)
  refine (addf_apply (φ := .f32) _ _ (ix2 p q)).trans ?_
  refine congrArg₂ (· + ·) ?_ ?_
  · refine (blockProduct_apply _ _ p q).trans (Finset.sum_congr rfl fun k _ => ?_)
    exact congrArg (· * w (ix2 k q)) (congrFun (shapeCast_self x _) (ix2 p k))
  · exact (broadcastTo_1b_ab_apply _ _ p q).trans (shapeCast_a_1a_apply b _ 0 q)

/-! ## From the block to the whole arrays -/

/-- The body's block at an entry is the layer of the whole arrays at the matching entry, once each input block is
    known to be the part of its array that the entry's row and column name. -/
theorem layerBlock_eq_layer
    (X : MeanField.Mat 100000 128) (Wt : MeanField.Mat 128 128) (B : MeanField.Row 128) (R : MeanField.Mat 100000 128)
    (x0 : Vec Ideal S4000x128 .f32) (x1 : Vec Ideal S128x128 .f32) (x2 : Vec Ideal S128 .f32) (x3 : Vec Ideal S4000x128 .f32)
    (j : S4000x128.Idx) (i : S100000x128.Idx)
    (hq : (i 1).val = (j 1).val)
    (h0 : ∀ k : Fin 128, x0 (ix2 (j 0) k) = X (ix2 (i 0) k))
    (h1 : ∀ k q : Fin 128, x1 (ix2 k q) = Wt (ix2 k q))
    (h2 : ∀ q : Fin 128, x2 (ix1 q) = B (ix1 q))
    (h3 : x3 j = R i) :
    k2_pay1 x0 x1 x2 x3 j = MeanField.layer X Wt B R i := by
  have hq' : i 1 = j 1 := Fin.ext hq
  have e3 : x3 (ix2 (j 0) (j 1)) = R i := (congrArg x3 (eq_ix2 j).symm).trans h3
  have e2 : x2 (ix1 (j 1)) = B (ix1 (i 1)) := (h2 (j 1)).trans (congrArg (fun a => B (ix1 a)) hq'.symm)
  have e1 : ∀ k : Fin 128, x0 (ix2 (j 0) k) * x1 (ix2 k (j 1)) = X (ix2 (i 0) k) * Wt (ix2 k (i 1)) := fun k =>
    congrArg₂ (· * ·) (h0 k) ((h1 k (j 1)).trans (congrArg (fun a => Wt (ix2 k a)) hq'.symm))
  refine (congrArg (k2_pay1 x0 x1 x2 x3) (eq_ix2 j)).trans ?_
  refine (layerBlock_apply x0 x1 x2 x3 (j 0) (j 1)).trans ?_
  show max (((∑ k : Fin 128, x0 (ix2 (j 0) k) * x1 (ix2 k (j 1))) + x2 (ix1 (j 1))) + x3 (ix2 (j 0) (j 1))) 0
    = max (((∑ k : Fin 128, X (ix2 (i 0) k) * Wt (ix2 k (i 1))) + B (ix1 (i 1))) + R i) 0
  exact congrArg₂ max (congrArg₂ (· + ·) (congrArg₂ (· + ·) (Finset.sum_congr rfl fun k _ => e1 k) e2) e3) rfl

/-- The zero offsets of a whole rank-2 block, as a constant function. -/
theorem hz : (![0, 0] : Fin 2 → Nat) = fun _ => 0 := funext fun a => by fin_cases a <;> rfl
/-- The zero offset of a whole rank-1 block, as a constant function. -/
theorem hz1 : (![0] : Fin 1 → Nat) = fun _ => 0 := funext fun a => by fin_cases a <;> rfl

/-- Where each window's block sits at grid point `t`: the two row-blocked inputs and the output at block row `t`,
    the weight and the bias whole. -/
theorem block_positions : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- What grid point `t` writes back is block `t` of the layer of the whole arrays. -/
theorem flushed_eq_layer (c : Dev nD) (t : Fin cfg2.N) :
    (dat2 (F := Ideal) V c).flushed 4 t
      = ((cfg2.win 4).blk t).view.read (Elt Ideal) (MeanField.layer (V c main_v29) (V c main_arg9) (V c main_arg10) (V c main_v6_0)) := by
  show (cfg2.win 4).cut (grid2.coords t) ((dat2 V c).after 4 t) = _
  rw [after2_4]
  unfold out2_4
  rw [View.canon_unit_zero hz]
  simp only [View.ld_unit_zero (S := S4000x128) hz, View.ld_unit_zero (S := S128x128) hz, View.ld_unit_zero (S := S128) hz1]
  obtain ⟨e00, e01, e10, e11, e20, e30, e31, e40, e41⟩ := block_positions t
  funext j
  refine layerBlock_eq_layer (V c main_v29) (V c main_arg9) (V c main_arg10) (V c main_v6_0)
    (iblk2 V c 0 t) (iblk2 V c 1 t) (iblk2 V c 2 t) (iblk2 V c 3 t) j (((cfg2.win 4).blk t).view.emb j) ?_ ?_ ?_ ?_ ?_
  · show win2_4.index t (1 : Fin 2) * 128 + 1 * (j 1).val = (j 1).val
    omega
  · intro k
    show V c main_v29 (((cfg2.win 0).blk t).view.emb (ix2 (j 0) k)) = V c main_v29 (ix2 (((cfg2.win 4).blk t).view.emb j 0) k)
    refine congrArg (V c main_v29) (funext fun a => Fin.ext ?_)
    match a with
    | ⟨0, _⟩ => show win2_0.index t (0 : Fin 2) * 4000 + 1 * (j 0).val = win2_4.index t (0 : Fin 2) * 4000 + 1 * (j 0).val; omega
    | ⟨1, _⟩ => show win2_0.index t (1 : Fin 2) * 128 + 1 * k.val = k.val; omega
  · intro k q
    show V c main_arg9 (((cfg2.win 1).blk t).view.emb (ix2 k q)) = V c main_arg9 (ix2 k q)
    refine congrArg (V c main_arg9) (funext fun a => Fin.ext ?_)
    match a with
    | ⟨0, _⟩ => show win2_1.index t (0 : Fin 2) * 128 + 1 * k.val = k.val; omega
    | ⟨1, _⟩ => show win2_1.index t (1 : Fin 2) * 128 + 1 * q.val = q.val; omega
  · intro q
    show V c main_arg10 (((cfg2.win 2).blk t).view.emb (ix1 q)) = V c main_arg10 (ix1 q)
    refine congrArg (V c main_arg10) (funext fun a => Fin.ext ?_)
    match a with
    | ⟨0, _⟩ => show win2_2.index t (0 : Fin 1) * 128 + 1 * q.val = q.val; omega
  · show V c main_v6_0 (((cfg2.win 3).blk t).view.emb j) = V c main_v6_0 (((cfg2.win 4).blk t).view.emb j)
    refine congrArg (V c main_v6_0) (funext fun a => Fin.ext ?_)
    match a with
    | ⟨0, _⟩ => show win2_3.index t (0 : Fin 2) * 4000 + 1 * (j 0).val = win2_4.index t (0 : Fin 2) * 4000 + 1 * (j 0).val; omega
    | ⟨1, _⟩ => show win2_3.index t (1 : Fin 2) * 128 + 1 * (j 1).val = win2_4.index t (1 : Fin 2) * 128 + 1 * (j 1).val; omega

/-! ## The blocks tile the array -/

/-- An entry of the array is in point `t`'s block iff each coordinate is in the block's range on its axis. -/
theorem mem_block_iff (t : Fin cfg2.N) (i : S100000x128.Idx) :
    i ∈ ((cfg2.win 4).blk t).view.set ↔ ∀ a : Fin 2, win2_4.index t a * S4000x128.size a ≤ (i a).val ∧ (i a).val < win2_4.index t a * S4000x128.size a + S4000x128.size a := by
  show i ∈ ((View.whole main_v30).slice (win2_4.rect t)).set ↔ _
  rw [View.set_slice_whole, Rect.mem_set_unit]
  exact Iff.rfl

/-- Row `n` lies in the block of point `n / 4000`, so every entry of the array is written back by some point. -/
theorem covered (i : S100000x128.Idx) :
    ∃ t : Fin cfg2.N, (cfg2.win 4).flush t = true ∧ i ∈ ((cfg2.win 4).blk t).view.set := by
  have hi0 : (i 0).val < 100000 := (i 0).isLt
  have hi1 : (i 1).val < 128 := (i 1).isLt
  have hlt : (i 0).val / 4000 < cfg2.N := by
    show (i 0).val / 4000 < grid2.N
    rw [N_2]; omega
  obtain ⟨t, ht⟩ : ∃ t : Fin cfg2.N, t.val = (i 0).val / 4000 := ⟨⟨_, hlt⟩, rfl⟩
  obtain ⟨e00, e01, e10, e11, e20, e30, e31, e40, e41⟩ := block_positions t
  refine ⟨t, flush2_4 t, ?_⟩
  rw [mem_block_iff]
  intro a
  match a with
  | ⟨0, _⟩ => show win2_4.index t (0 : Fin 2) * 4000 ≤ (i 0).val ∧ (i 0).val < win2_4.index t (0 : Fin 2) * 4000 + 4000; omega
  | ⟨1, _⟩ => show win2_4.index t (1 : Fin 2) * 128 ≤ (i 1).val ∧ (i 1).val < win2_4.index t (1 : Fin 2) * 128 + 128; omega

end Layer2

/-- After region 2 its output array holds `max (pool · w + b + im) 0` of the arrays the region was entered with. -/
theorem region2_out (c : Dev nD) :
    (dat2 (F := Ideal) V c).arrAt 4 cfg2.N
      = MeanField.layer (V c main_v29) (V c main_arg9) (V c main_arg10) (V c main_v6_0) :=
  (dat2 (F := Ideal) V c).arrAt_eq_of_cover 4 _ (fun t _ => Layer2.flushed_eq_layer V c t) (fun i => Layer2.covered i)

end Cert.KernelIdeal.RegionValue

end
-- ==== Proof.Region3.lean ====
/-
  The third mean-field layer's kernel region, read as one function of the arrays it finds.

  The region walks the 100000 rows in 25 blocks of 4000.  At each block it multiplies the block of pooled
  neighbour features by the whole 128 x 128 weight, adds the bias row and the matching block of the input message,
  clamps at zero and writes the block back (a change of float format is the identity here).  Row n lies in block
  n / 4000, every block is written exactly once, so the array after the region is the layer function of the whole
  arrays, entry by entry.
-/
import proofs.«400930_j41970420417062_2_alg».proof.Proof.Gen.KernelIdeal.Frame
import proofs.«400930_j41970420417062_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.ShloMosaic.ValueIdx Idealize.SL.Sem
open Idealize.ShloMosaic.Pipeline (Dat Cfg Window)

namespace Cert.KernelIdeal.RegionValue

open Cert.KernelIdeal Cert.KernelIdeal.Gen

variable (V : (c : Dev nD) → (b : Ref sig .tc) → Buf (Elt Ideal) ((c : Thread nD τ).loc b))

namespace Layer3

/-! ## The block product: its operand indices axis by axis, then its entries -/

/-- The left operand's row is the output's row. -/
theorem lhs_dot_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
/-- The left operand's column is the contraction's coordinate. -/
theorem lhs_dot_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
/-- The right operand's row is the contraction's coordinate. -/
theorem rhs_dot_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
/-- The right operand's column is the output's column. -/
theorem rhs_dot_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The block product read at an entry: row `p` of the left block against column `q` of the weight. -/
theorem blockProduct_apply (x : FVec Ideal S4000x128 .bf16) (w : FVec Ideal S128x128 .bf16) (p : Fin 4000) (q : Fin 128) :
    matmul (F := Ideal) dot_S4000x128_S128x128_S4000x128_1_0_0_1_n_n none x w (constant (F := Ideal) S4000x128 .f32 0x00000000#32) (ix2 p q)
      = ∑ k : Fin 128, x (ix2 p k) * w (ix2 k q) := by
  refine (Ideal.matmul_constant_zero_apply dot_S4000x128_S128x128_S4000x128_1_0_0_1_n_n none x w (ix2 p q)).trans ?_
  rw [← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p q) ((ValueIdx.contrEquiv1 dot_S4000x128_S128x128_S4000x128_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S4000x128_S128x128_S4000x128_1_0_0_1_n_n.rhsIdx (ix2 p q) ((ValueIdx.contrEquiv1 dot_S4000x128_S128x128_S4000x128_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-- The body's block read at an entry: the clamp at zero of the block product plus the bias plus the residual. -/
theorem layerBlock_apply (x : Vec Ideal S4000x128 .f32) (w : Vec Ideal S128x128 .f32) (b : Vec Ideal S128 .f32) (r : Vec Ideal S4000x128 .f32) (p : Fin 4000) (q : Fin 128) :
    k3_pay1 x w b r (ix2 p q) = max (((∑ k : Fin 128, x (ix2 p k) * w (ix2 k q)) + b (ix1 q)) + r (ix2 p q)) 0 := by
  unfold k3_pay1
  refine (maximumf_apply (φ := .f32) _ _ (ix2 p q)).trans ?_
  refine congrArg₂ max ?_ Ideal.ofBits_zero_f32
  refine (addf_apply (φ := .f32) _ _ (ix2 p q)).trans ?_
  refine congrArg₂ (· + ·) ?_ (congrFun (shapeCast_self r _) _)
  refine (addf_apply (φ := .f32) _ _ (ix2 p q)).trans ?_
  refine congrArg₂ (· + ·) ?_ ?_
  · refine (blockProduct_apply _ _ p q).trans (Finset.sum_congr rfl fun k _ => ?_)
    exact congrArg (· * w (ix2 k q)) (congrFun (shapeCast_self x _) (ix2 p k))
  · exact (broadcastTo_1b_ab_apply _ _ p q).trans (shapeCast_a_1a_apply b _ 0 q)

/-! ## From the block to the whole arrays -/

/-- The body's block at an entry is the layer of the whole arrays at the matching entry, once each input block is
    known to be the part of its array that the entry's row and column name. -/
theorem layerBlock_eq_layer
    (X : MeanField.Mat 100000 128) (Wt : MeanField.Mat 128 128) (B : MeanField.Row 128) (R : MeanField.Mat 100000 128)
    (x0 : Vec Ideal S4000x128 .f32) (x1 : Vec Ideal S128x128 .f32) (x2 : Vec Ideal S128 .f32) (x3 : Vec Ideal S4000x128 .f32)
    (j : S4000x128.Idx) (i : S100000x128.Idx)
    (hq : (i 1).val = (j 1).val)
    (h0 : ∀ k : Fin 128, x0 (ix2 (j 0) k) = X (ix2 (i 0) k))
    (h1 : ∀ k q : Fin 128, x1 (ix2 k q) = Wt (ix2 k q))
    (h2 : ∀ q : Fin 128, x2 (ix1 q) = B (ix1 q))
    (h3 : x3 j = R i) :
    k3_pay1 x0 x1 x2 x3 j = MeanField.layer X Wt B R i := by
  have hq' : i 1 = j 1 := Fin.ext hq
  have e3 : x3 (ix2 (j 0) (j 1)) = R i := (congrArg x3 (eq_ix2 j).symm).trans h3
  have e2 : x2 (ix1 (j 1)) = B (ix1 (i 1)) := (h2 (j 1)).trans (congrArg (fun a => B (ix1 a)) hq'.symm)
  have e1 : ∀ k : Fin 128, x0 (ix2 (j 0) k) * x1 (ix2 k (j 1)) = X (ix2 (i 0) k) * Wt (ix2 k (i 1)) := fun k =>
    congrArg₂ (· * ·) (h0 k) ((h1 k (j 1)).trans (congrArg (fun a => Wt (ix2 k a)) hq'.symm))
  refine (congrArg (k3_pay1 x0 x1 x2 x3) (eq_ix2 j)).trans ?_
  refine (layerBlock_apply x0 x1 x2 x3 (j 0) (j 1)).trans ?_
  show max (((∑ k : Fin 128, x0 (ix2 (j 0) k) * x1 (ix2 k (j 1))) + x2 (ix1 (j 1))) + x3 (ix2 (j 0) (j 1))) 0
    = max (((∑ k : Fin 128, X (ix2 (i 0) k) * Wt (ix2 k (i 1))) + B (ix1 (i 1))) + R i) 0
  exact congrArg₂ max (congrArg₂ (· + ·) (congrArg₂ (· + ·) (Finset.sum_congr rfl fun k _ => e1 k) e2) e3) rfl

/-- The zero offsets of a whole rank-2 block, as a constant function. -/
theorem hz : (![0, 0] : Fin 2 → Nat) = fun _ => 0 := funext fun a => by fin_cases a <;> rfl
/-- The zero offset of a whole rank-1 block, as a constant function. -/
theorem hz1 : (![0] : Fin 1 → Nat) = fun _ => 0 := funext fun a => by fin_cases a <;> rfl

/-- Where each window's block sits at grid point `t`: the two row-blocked inputs and the output at block row `t`,
    the weight and the bias whole. -/
theorem block_positions : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 1) = 0
    ∧ win3_3.index t (0 : Fin 2) = t.val ∧ win3_3.index t (1 : Fin 2) = 0
    ∧ win3_4.index t (0 : Fin 2) = t.val ∧ win3_4.index t (1 : Fin 2) = 0 :=
  (by decide +kernel : ∀ t : Fin grid3.N, _)

/-- What grid point `t` writes back is block `t` of the layer of the whole arrays. -/
theorem flushed_eq_layer (c : Dev nD) (t : Fin cfg3.N) :
    (dat3 (F := Ideal) V c).flushed 4 t
      = ((cfg3.win 4).blk t).view.read (Elt Ideal) (MeanField.layer (V c main_v41) (V c main_arg9) (V c main_arg10) (V c main_v6_0)) := by
  show (cfg3.win 4).cut (grid3.coords t) ((dat3 V c).after 4 t) = _
  rw [after3_4]
  unfold out3_4
  rw [View.canon_unit_zero hz]
  simp only [View.ld_unit_zero (S := S4000x128) hz, View.ld_unit_zero (S := S128x128) hz, View.ld_unit_zero (S := S128) hz1]
  obtain ⟨e00, e01, e10, e11, e20, e30, e31, e40, e41⟩ := block_positions t
  funext j
  refine layerBlock_eq_layer (V c main_v41) (V c main_arg9) (V c main_arg10) (V c main_v6_0)
    (iblk3 V c 0 t) (iblk3 V c 1 t) (iblk3 V c 2 t) (iblk3 V c 3 t) j (((cfg3.win 4).blk t).view.emb j) ?_ ?_ ?_ ?_ ?_
  · show win3_4.index t (1 : Fin 2) * 128 + 1 * (j 1).val = (j 1).val
    omega
  · intro k
    show V c main_v41 (((cfg3.win 0).blk t).view.emb (ix2 (j 0) k)) = V c main_v41 (ix2 (((cfg3.win 4).blk t).view.emb j 0) k)
    refine congrArg (V c main_v41) (funext fun a => Fin.ext ?_)
    match a with
    | ⟨0, _⟩ => show win3_0.index t (0 : Fin 2) * 4000 + 1 * (j 0).val = win3_4.index t (0 : Fin 2) * 4000 + 1 * (j 0).val; omega
    | ⟨1, _⟩ => show win3_0.index t (1 : Fin 2) * 128 + 1 * k.val = k.val; omega
  · intro k q
    show V c main_arg9 (((cfg3.win 1).blk t).view.emb (ix2 k q)) = V c main_arg9 (ix2 k q)
    refine congrArg (V c main_arg9) (funext fun a => Fin.ext ?_)
    match a with
    | ⟨0, _⟩ => show win3_1.index t (0 : Fin 2) * 128 + 1 * k.val = k.val; omega
    | ⟨1, _⟩ => show win3_1.index t (1 : Fin 2) * 128 + 1 * q.val = q.val; omega
  · intro q
    show V c main_arg10 (((cfg3.win 2).blk t).view.emb (ix1 q)) = V c main_arg10 (ix1 q)
    refine congrArg (V c main_arg10) (funext fun a => Fin.ext ?_)
    match a with
    | ⟨0, _⟩ => show win3_2.index t (0 : Fin 1) * 128 + 1 * q.val = q.val; omega
  · show V c main_v6_0 (((cfg3.win 3).blk t).view.emb j) = V c main_v6_0 (((cfg3.win 4).blk t).view.emb j)
    refine congrArg (V c main_v6_0) (funext fun a => Fin.ext ?_)
    match a with
    | ⟨0, _⟩ => show win3_3.index t (0 : Fin 2) * 4000 + 1 * (j 0).val = win3_4.index t (0 : Fin 2) * 4000 + 1 * (j 0).val; omega
    | ⟨1, _⟩ => show win3_3.index t (1 : Fin 2) * 128 + 1 * (j 1).val = win3_4.index t (1 : Fin 2) * 128 + 1 * (j 1).val; omega

/-! ## The blocks tile the array -/

/-- An entry of the array is in point `t`'s block iff each coordinate is in the block's range on its axis. -/
theorem mem_block_iff (t : Fin cfg3.N) (i : S100000x128.Idx) :
    i ∈ ((cfg3.win 4).blk t).view.set ↔ ∀ a : Fin 2, win3_4.index t a * S4000x128.size a ≤ (i a).val ∧ (i a).val < win3_4.index t a * S4000x128.size a + S4000x128.size a := by
  show i ∈ ((View.whole main_v42).slice (win3_4.rect t)).set ↔ _
  rw [View.set_slice_whole, Rect.mem_set_unit]
  exact Iff.rfl

/-- Row `n` lies in the block of point `n / 4000`, so every entry of the array is written back by some point. -/
theorem covered (i : S100000x128.Idx) :
    ∃ t : Fin cfg3.N, (cfg3.win 4).flush t = true ∧ i ∈ ((cfg3.win 4).blk t).view.set := by
  have hi0 : (i 0).val < 100000 := (i 0).isLt
  have hi1 : (i 1).val < 128 := (i 1).isLt
  have hlt : (i 0).val / 4000 < cfg3.N := by
    show (i 0).val / 4000 < grid3.N
    rw [N_3]; omega
  obtain ⟨t, ht⟩ : ∃ t : Fin cfg3.N, t.val = (i 0).val / 4000 := ⟨⟨_, hlt⟩, rfl⟩
  obtain ⟨e00, e01, e10, e11, e20, e30, e31, e40, e41⟩ := block_positions t
  refine ⟨t, flush3_4 t, ?_⟩
  rw [mem_block_iff]
  intro a
  match a with
  | ⟨0, _⟩ => show win3_4.index t (0 : Fin 2) * 4000 ≤ (i 0).val ∧ (i 0).val < win3_4.index t (0 : Fin 2) * 4000 + 4000; omega
  | ⟨1, _⟩ => show win3_4.index t (1 : Fin 2) * 128 ≤ (i 1).val ∧ (i 1).val < win3_4.index t (1 : Fin 2) * 128 + 128; omega

end Layer3

/-- After region 3 its output array holds `max (pool · w + b + im) 0` of the arrays the region was entered with. -/
theorem region3_out (c : Dev nD) :
    (dat3 (F := Ideal) V c).arrAt 4 cfg3.N
      = MeanField.layer (V c main_v41) (V c main_arg9) (V c main_arg10) (V c main_v6_0) :=
  (dat3 (F := Ideal) V c).arrAt_eq_of_cover 4 _ (fun t _ => Layer3.flushed_eq_layer V c t) (fun i => Layer3.covered i)

end Cert.KernelIdeal.RegionValue

end
-- ==== Proof.Region4.lean ====
/-
  The readout kernel region, read as one function of the arrays it finds.

  The region keeps one 64 x 128 block resident over its 25 grid points.  Point 0 first sets the block to zero;
  every point adds to it the transposed one-hot matrix of the tile's graph ids (4000 x 64: entry (r, g) is 1 when
  row r's id is g) times the tile's clamped output projection max (h · w + b) 0; point 24 finally clamps the block
  at zero.  The block is written back when the run ends, so the array after the region is the clamp of the sum
  over tiles and rows of one-hot times projection.
-/
import proofs.«400930_j41970420417062_2_alg».proof.Proof.Gen.KernelIdeal.Frame
import proofs.«400930_j41970420417062_2_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.ShloMosaic.ValueIdx Idealize.SL.Sem
open Idealize.ShloMosaic.Pipeline (Dat Cfg Window)

namespace Cert.KernelIdeal.RegionValue

open Cert.KernelIdeal Cert.KernelIdeal.Gen

namespace R4

/-! ## What each control case leaves in the resident block -/

section AnyValues
variable {F : FTy → Type} [FloatOps F]

theorem hz4 : (![0, 0] : Fin 2 → Nat) = fun _ => 0 := funext fun a => by fin_cases a <;> rfl
theorem hz41 : (![0] : Fin 1 → Nat) = fun _ => 0 := funext fun a => by fin_cases a; rfl

theorem out4_B_eq (c : Dev nD) (i : grid4.Coords) (arg1 : Memref sig .tc .vmem S4000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S4000x1 .i32) (harg4 : arg4.IsWhole) (arg5 : Memref sig .tc .vmem S64x128 .f32) (harg5 : arg5.IsWhole) (hc0 : ¬cond4_0 i) (hc1 : ¬cond4_1 i)
    (x0 : Vec F S4000x128 .f32) (x1 : Vec F S128x128 .f32) (x2 : Vec F S128 .f32) (x3 : Vec F S4000x1 .i32) (xo4 : Vec F S64x128 .f32) :
    out4_B_4 c i arg1 harg1 arg2 harg2 arg3 harg3 arg4 harg4 arg5 harg5 hc0 hc1 x0 x1 x2 x3 xo4 = k4_pay2 x0 x1 x2 x3 xo4 := by
  unfold out4_B_4
  rw [View.read_writes_eq_canon _ _ _ (cover4_B_4 c i arg1 harg1 arg2 harg2 arg3 harg3 arg4 harg4 arg5 harg5 hc0 hc1 x0 x1 x2 x3 xo4)]
  unfold kernelRun4_B
  dsimp only
  sl_unfold_words
  rw [View.canon_unit_zero (S := S64x128) hz4]
  simp only [View.readAt_eq_ld, harg1.read_unread, harg2.read_unread, harg3.read_unread, harg4.read_unread, harg5.read_unread,
    View.ld_unit_zero (S := S4000x128) hz4, View.ld_unit_zero (S := S128x128) hz4, View.ld_unit_zero (S := S128) hz41,
    View.ld_unit_zero (S := S4000x1) hz4, View.ld_unit_zero (S := S64x128) hz4]

theorem out4_A_eq (c : Dev nD) (i : grid4.Coords) (arg1 : Memref sig .tc .vmem S4000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S4000x1 .i32) (harg4 : arg4.IsWhole) (arg5 : Memref sig .tc .vmem S64x128 .f32) (harg5 : arg5.IsWhole) (hc0 : cond4_0 i) (hc1 : ¬cond4_1 i)
    (x0 : Vec F S4000x128 .f32) (x1 : Vec F S128x128 .f32) (x2 : Vec F S128 .f32) (x3 : Vec F S4000x1 .i32) :
    out4_A_4 c i arg1 harg1 arg2 harg2 arg3 harg3 arg4 harg4 arg5 harg5 hc0 hc1 x0 x1 x2 x3 = k4_pay2 x0 x1 x2 x3 (k4_pay1 (F := F)) := by
  unfold out4_A_4
  rw [View.read_writes_eq_canon _ _ _ (cover4_A_4 c i arg1 harg1 arg2 harg2 arg3 harg3 arg4 harg4 arg5 harg5 hc0 hc1 x0 x1 x2 x3)]
  unfold kernelRun4_A
  dsimp only
  sl_unfold_words
  rw [View.canon_cons_unit_zero (S := S64x128) hz4, View.readCov_unit_zero (S := S64x128) _ hz4]
  simp only [View.readAt_eq_ld, harg1.read_unread, harg2.read_unread, harg3.read_unread, harg4.read_unread,
    View.ld_unit_zero (S := S4000x128) hz4, View.ld_unit_zero (S := S128x128) hz4, View.ld_unit_zero (S := S128) hz41,
    View.ld_unit_zero (S := S4000x1) hz4]

theorem out4_C_eq (c : Dev nD) (i : grid4.Coords) (arg1 : Memref sig .tc .vmem S4000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S4000x1 .i32) (harg4 : arg4.IsWhole) (arg5 : Memref sig .tc .vmem S64x128 .f32) (harg5 : arg5.IsWhole) (hc0 : ¬cond4_0 i) (hc1 : cond4_1 i)
    (x0 : Vec F S4000x128 .f32) (x1 : Vec F S128x128 .f32) (x2 : Vec F S128 .f32) (x3 : Vec F S4000x1 .i32) (xo4 : Vec F S64x128 .f32) :
    out4_C_4 c i arg1 harg1 arg2 harg2 arg3 harg3 arg4 harg4 arg5 harg5 hc0 hc1 x0 x1 x2 x3 xo4 = k4_pay3 (k4_pay2 x0 x1 x2 x3 xo4) := by
  unfold out4_C_4
  rw [View.read_writes_eq_canon _ _ _ (cover4_C_4 c i arg1 harg1 arg2 harg2 arg3 harg3 arg4 harg4 arg5 harg5 hc0 hc1 x0 x1 x2 x3 xo4)]
  unfold kernelRun4_C
  dsimp only
  sl_unfold_words
  rw [View.canon_cons_unit_zero (S := S64x128) hz4, View.readCov_unit_zero (S := S64x128) _ hz4]
  simp only [View.readAt_eq_ld, harg1.read_unread, harg2.read_unread, harg3.read_unread, harg4.read_unread, harg5.read_unread,
    View.ld_unit_zero (S := S4000x128) hz4, View.ld_unit_zero (S := S128x128) hz4, View.ld_unit_zero (S := S128) hz41,
    View.ld_unit_zero (S := S4000x1) hz4, View.ld_unit_zero (S := S64x128) hz4]

end AnyValues

/-! ## The two contractions' operand indices, axis by axis -/

theorem d1_lhs_0 (i : S4000x128.Idx) (q : dot_S4000x128_S128x128_S4000x128_1_0_0_1_n_n.contr.Idx) : (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem d1_lhs_1 (i : S4000x128.Idx) (q : dot_S4000x128_S128x128_S4000x128_1_0_0_1_n_n.contr.Idx) : (dot_S4000x128_S128x128_S4000x128_1_0_0_1_n_n.lhsIdx i q 1).val = (q ⟨0, by decide⟩).val :=
  dot_S4000x128_S128x128_S4000x128_1_0_0_1_n_n.lhsIdx_val_of_single rfl i q
theorem d1_rhs_0 (i : S4000x128.Idx) (q : dot_S4000x128_S128x128_S4000x128_1_0_0_1_n_n.contr.Idx) : (dot_S4000x128_S128x128_S4000x128_1_0_0_1_n_n.rhsIdx i q 0).val = (q ⟨0, by decide⟩).val :=
  dot_S4000x128_S128x128_S4000x128_1_0_0_1_n_n.rhsIdx_val_of_single rfl i q
theorem d1_rhs_1 (i : S4000x128.Idx) (q : dot_S4000x128_S128x128_S4000x128_1_0_0_1_n_n.contr.Idx) : (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

theorem d2_lhs_0 (i : S64x128.Idx) (q : dot_S4000x64_S4000x128_S64x128_0_0_1_1_n_n.contr.Idx) : (dot_S4000x64_S4000x128_S64x128_0_0_1_1_n_n.lhsIdx i q 0).val = (q ⟨0, by decide⟩).val :=
  dot_S4000x64_S4000x128_S64x128_0_0_1_1_n_n.lhsIdx_val_of_single rfl i q
theorem d2_lhs_1 (i : S64x128.Idx) (q : dot_S4000x64_S4000x128_S64x128_0_0_1_1_n_n.contr.Idx) : (dot_S4000x64_S4000x128_S64x128_0_0_1_1_n_n.lhsIdx i q 1).val = (i 0).val := by
  unfold DotDims.lhsIdx
  rw [dif_neg (show ¬(1 : Fin S4000x64.rank) ∈ dot_S4000x64_S4000x128_S64x128_0_0_1_1_n_n.lhsBatch by decide), dif_pos (show (1 : Fin S4000x64.rank) ∈ dot_S4000x64_S4000x128_S64x128_0_0_1_1_n_n.lhsNonContracting by decide)]
  rfl
theorem d2_rhs_0 (i : S64x128.Idx) (q : dot_S4000x64_S4000x128_S64x128_0_0_1_1_n_n.contr.Idx) : (dot_S4000x64_S4000x128_S64x128_0_0_1_1_n_n.rhsIdx i q 0).val = (q ⟨0, by decide⟩).val :=
  dot_S4000x64_S4000x128_S64x128_0_0_1_1_n_n.rhsIdx_val_of_single rfl i q
theorem d2_rhs_1 (i : S64x128.Idx) (q : dot_S4000x64_S4000x128_S64x128_0_0_1_1_n_n.contr.Idx) : (dot_S4000x64_S4000x128_S64x128_0_0_1_1_n_n.rhsIdx i q 1).val = (i 1).val := by
  unfold DotDims.rhsIdx
  rw [dif_neg (show ¬(1 : Fin S4000x128.rank) ∈ dot_S4000x64_S4000x128_S64x128_0_0_1_1_n_n.rhsBatch by decide), dif_pos (show (1 : Fin S4000x128.rank) ∈ dot_S4000x64_S4000x128_S64x128_0_0_1_1_n_n.rhsNonContracting by decide)]
  rfl

/-- The projection's product at an entry: row r of the left times column f of the right. -/
theorem mm1_apply {φ₁ φ₂ : FTy} (x : FVec Ideal S4000x128 φ₁) (y : FVec Ideal S128x128 φ₂) (r : Fin 4000) (f : Fin 128) :
    matmul dot_S4000x128_S128x128_S4000x128_1_0_0_1_n_n none x y (constant S4000x128 .f32 0x00000000#32) (ix2 r f) = ∑ k : Fin 128, x (ix2 r k) * y (ix2 k f) := by
  simp only [matmul]
  rw [Ideal.matmul_constant_zero_apply, ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 r f) ((contrEquiv1 dot_S4000x128_S128x128_S4000x128_1_0_0_1_n_n 128 rfl rfl).symm k) = ix2 r k := funext fun a => Fin.ext (by
    match a with
    | ⟨0, _⟩ => exact d1_lhs_0 _ _
    | ⟨1, _⟩ => exact (d1_lhs_1 _ _).trans hk)
  have er : dot_S4000x128_S128x128_S4000x128_1_0_0_1_n_n.rhsIdx (ix2 r f) ((contrEquiv1 dot_S4000x128_S128x128_S4000x128_1_0_0_1_n_n 128 rfl rfl).symm k) = ix2 k f := funext fun a => Fin.ext (by
    match a with
    | ⟨0, _⟩ => exact (d1_rhs_0 _ _).trans hk
    | ⟨1, _⟩ => exact d1_rhs_1 _ _)
  rw [el, er]

/-- The pooling product at an entry: column g of the left against column f of the right, summed over the rows. -/
theorem mm2_apply {φ₁ φ₂ : FTy} (x : FVec Ideal S4000x64 φ₁) (y : FVec Ideal S4000x128 φ₂) (g : Fin 64) (f : Fin 128) :
    matmul dot_S4000x64_S4000x128_S64x128_0_0_1_1_n_n none x y (constant S64x128 .f32 0x00000000#32) (ix2 g f) = ∑ r : Fin 4000, x (ix2 r g) * y (ix2 r f) := by
  simp only [matmul]
  rw [Ideal.matmul_constant_zero_apply, ← Equiv.sum_comp (contrEquiv1 dot_S4000x64_S4000x128_S64x128_0_0_1_1_n_n 4000 rfl rfl).symm]
  refine Finset.sum_congr rfl fun k _ => ?_
  have hk := contrEquiv1_symm_val dot_S4000x64_S4000x128_S64x128_0_0_1_1_n_n 4000 rfl rfl k
  have el : dot_S4000x64_S4000x128_S64x128_0_0_1_1_n_n.lhsIdx (ix2 g f) ((contrEquiv1 dot_S4000x64_S4000x128_S64x128_0_0_1_1_n_n 4000 rfl rfl).symm k) = ix2 k g := funext fun a => Fin.ext (by
    match a with
    | ⟨0, _⟩ => exact (d2_lhs_0 _ _).trans hk
    | ⟨1, _⟩ => exact d2_lhs_1 _ _)
  have er : dot_S4000x64_S4000x128_S64x128_0_0_1_1_n_n.rhsIdx (ix2 g f) ((contrEquiv1 dot_S4000x64_S4000x128_S64x128_0_0_1_1_n_n 4000 rfl rfl).symm k) = ix2 k f := funext fun a => Fin.ext (by
    match a with
    | ⟨0, _⟩ => exact (d2_rhs_0 _ _).trans hk
    | ⟨1, _⟩ => exact d2_rhs_1 _ _)
  rw [el, er]

/-! ## The payload at an entry, over the extended reals -/

/-- The one-hot factor: the id column's word at row r compared with the lane number g, widened and converted, is
    1 when the word is g's and 0 otherwise. -/
theorem onehot_apply (ids : Vec Ideal S4000x1 .i32) (r : Fin 4000) (g : Fin 64) :
    (truncf .bf16 (sitofp .f32 (extui 32 (cmpi .eq
        (broadcastTo S4000x64 (shapeCast S4000x1 (shapeCast S4000x1 ids shapeCasts_S4000x1_S4000x1) shapeCasts_S4000x1_S4000x1) broadcasts_S4000x1_S4000x64)
        (iota .tc S4000x64 32 [1] iota_S4000x64_d1_w32)) natLt_1_32) : FVec Ideal S4000x64 .f32) bitsLt_bf16_f32 : FVec Ideal S4000x64 .bf16) (ix2 r g)
      = MeanField.hot (ids (ix2 r 0)) g.val := by
  rw [truncf_apply, sitofp_apply, extui_apply]
  show FloatOps.sitofp .f32 ((IntOp.cmpi .eq (broadcastTo S4000x64 (shapeCast S4000x1 (shapeCast S4000x1 ids shapeCasts_S4000x1_S4000x1) shapeCasts_S4000x1_S4000x1) broadcasts_S4000x1_S4000x64 (ix2 r g))
    (iota .tc S4000x64 32 [1] iota_S4000x64_d1_w32 (ix2 r g))).setWidth 32) = _
  rw [shapeCast_self, shapeCast_self, iota_single_apply,
    broadcastTo_apply ids broadcasts_S4000x1_S4000x64 (ix2 r g) (ix2 r 0) (fun a => match a with
      | ⟨0, _⟩ => by show r.val = if (4000 : Nat) = 1 then 0 else r.val; rw [if_neg (by decide)]
      | ⟨1, _⟩ => by show 0 = if (1 : Nat) = 1 then 0 else g.val; rw [if_pos rfl])]
  show FloatOps.sitofp (F := Ideal) .f32 ((IntOp.cmpi .eq (ids (ix2 r 0)) (BitVec.ofNat 32 g.val)).setWidth 32) = _
  unfold MeanField.hot
  by_cases h : ids (ix2 r 0) = BitVec.ofNat 32 g.val
  · rw [if_pos h, IntOp.cmpi_eq.mpr h]
    show (((((1#1 : BitVec 1).setWidth 32).toInt : ℤ) : ℝ) : EReal) = 1
    rw [show ((1#1 : BitVec 1).setWidth 32).toInt = 1 from by decide]
    simp
  · rw [if_neg h, eq_zero_of_ne_one (fun e => h (IntOp.cmpi_eq.mp e))]
    show (((((0#1 : BitVec 1).setWidth 32).toInt : ℤ) : ℝ) : EReal) = 0
    rw [show ((0#1 : BitVec 1).setWidth 32).toInt = 0 from by decide]
    simp

/-- The tile's clamped projection at an entry: max (Σ_k h(r,k) w(k,f) + b f) 0. -/
theorem proj_apply (h : Vec Ideal S4000x128 .f32) (w : Vec Ideal S128x128 .f32) (b : Vec Ideal S128 .f32) (r : Fin 4000) (f : Fin 128) :
    (truncf .bf16 (maximumf (addf (matmul dot_S4000x128_S128x128_S4000x128_1_0_0_1_n_n none
          (truncf .bf16 (shapeCast S4000x128 h shapeCasts_S4000x128_S4000x128) bitsLt_bf16_f32 : FVec Ideal S4000x128 .bf16)
          (truncf .bf16 w bitsLt_bf16_f32 : FVec Ideal S128x128 .bf16) (constant S4000x128 .f32 0x00000000#32))
        (broadcastTo S4000x128 (shapeCast S1x128 b shapeCasts_S128_S1x128) broadcasts_S1x128_S4000x128))
      (broadcast S4000x128 (Scalar.ofBits .f32 0x00000000#32)) : FVec Ideal S4000x128 .f32) bitsLt_bf16_f32 : FVec Ideal S4000x128 .bf16) (ix2 r f)
      = max ((∑ k : Fin 128, h (ix2 r k) * w (ix2 k f)) + b (ix1 f)) 0 := by
  rw [truncf_apply, maximumf_apply, addf_apply, mm1_apply, shapeCast_self, broadcast_apply]
  rw [broadcastTo_apply (shapeCast S1x128 b shapeCasts_S128_S1x128) broadcasts_S1x128_S4000x128 (ix2 r f) (ix2 0 f) (fun a => match a with
      | ⟨0, _⟩ => by show 0 = if (1 : Nat) = 1 then 0 else r.val; rw [if_pos rfl]
      | ⟨1, _⟩ => by show f.val = if (128 : Nat) = 1 then 0 else f.val; rw [if_neg (by decide)])]
  rw [shapeCast_apply b shapeCasts_S128_S1x128 (ix2 0 f) (ix1 f) (by
    rw [Shape.rowMajor_val_one, Shape.rowMajor_val_two]; show f.val = 0 * 128 + f.val; omega)]
  show max _ (Ideal.ofBits .f32 0x00000000#32) = _
  rw [Ideal.ofBits_zero_f32]
  rfl

/-- What one point adds: the block before plus, per row of the tile, one-hot times clamped projection. -/
theorem pay2_apply (h : Vec Ideal S4000x128 .f32) (w : Vec Ideal S128x128 .f32) (b : Vec Ideal S128 .f32) (ids : Vec Ideal S4000x1 .i32)
    (prev : Vec Ideal S64x128 .f32) (g : Fin 64) (f : Fin 128) :
    k4_pay2 (F := Ideal) h w b ids prev (ix2 g f)
      = prev (ix2 g f) + ∑ r : Fin 4000, MeanField.hot (ids (ix2 r 0)) g.val
          * max ((∑ k : Fin 128, h (ix2 r k) * w (ix2 k f)) + b (ix1 f)) 0 := by
  unfold k4_pay2
  dsimp only
  rw [addf_apply, shapeCast_self, mm2_apply]
  refine congrArg (prev (ix2 g f) + ·) (Finset.sum_congr rfl fun r _ => ?_)
  rw [onehot_apply, proj_apply]

/-- The reset block is zero everywhere. -/
theorem pay1_apply (i : S64x128.Idx) : k4_pay1 (F := Ideal) i = 0 := by
  unfold k4_pay1
  show Ideal.ofBits .f32 0x00000000#32 = 0
  exact Ideal.ofBits_zero_f32

/-- The last point's clamp at an entry. -/
theorem pay3_apply (x : Vec Ideal S64x128 .f32) (i : S64x128.Idx) : k4_pay3 (F := Ideal) x i = max (x i) 0 := by
  unfold k4_pay3
  rw [maximumf_apply, shapeCast_self, broadcast_apply]
  show max _ (Ideal.ofBits .f32 0x00000000#32) = _
  rw [Ideal.ofBits_zero_f32]

/-! ## The input blocks, read at an index -/

variable (V : (c : Dev nD) → (b : Ref sig .tc) → Buf (Elt Ideal) ((c : Thread nD τ).loc b))

/-- The tile of node features at point t. -/
abbrev hblk (c : Dev nD) (t : Fin cfg4.N) : Vec Ideal S4000x128 .f32 := iblk4 V c 0 t
/-- The output weights at point t. -/
abbrev wblk (c : Dev nD) (t : Fin cfg4.N) : Vec Ideal S128x128 .f32 := iblk4 V c 1 t
/-- The output bias at point t. -/
abbrev bblk (c : Dev nD) (t : Fin cfg4.N) : Vec Ideal S128 .f32 := iblk4 V c 2 t
/-- The tile of graph ids at point t. -/
abbrev iblk (c : Dev nD) (t : Fin cfg4.N) : Vec Ideal S4000x1 .i32 := iblk4 V c 3 t

theorem idx4_0 : ∀ t : Fin cfg4.N, win4_0.index t 0 = t.val ∧ win4_0.index t 1 = 0 :=
  (by decide +kernel : ∀ t : Fin grid4.N, win4_0.index t 0 = t.val ∧ win4_0.index t 1 = 0)
theorem idx4_1 : ∀ t : Fin cfg4.N, win4_1.index t 0 = 0 ∧ win4_1.index t 1 = 0 :=
  (by decide +kernel : ∀ t : Fin grid4.N, win4_1.index t 0 = 0 ∧ win4_1.index t 1 = 0)
theorem idx4_2 : ∀ t : Fin cfg4.N, win4_2.index t 0 = 0 :=
  (by decide +kernel : ∀ t : Fin grid4.N, win4_2.index t 0 = 0)
theorem idx4_3 : ∀ t : Fin cfg4.N, win4_3.index t 0 = t.val ∧ win4_3.index t 1 = 0 :=
  (by decide +kernel : ∀ t : Fin grid4.N, win4_3.index t 0 = t.val ∧ win4_3.index t 1 = 0)

theorem row_lt (t : Fin cfg4.N) (r : Fin 4000) : t.val * 4000 + r.val < 100000 := by
  have := lt_of_lt_of_eq t.isLt (show cfg4.N = 25 from N_4); have := r.isLt; omega

theorem hblk_apply (c : Dev nD) (t : Fin cfg4.N) (r : Fin 4000) (k : Fin 128) :
    hblk V c t (ix2 r k) = V c main_v42 (ix2 ⟨t.val * 4000 + r.val, row_lt t r⟩ k) := by
  unfold hblk iblk4
  rw [View.read_apply]
  show V c main_v42 _ = V c main_v42 _
  congr 1
  funext a
  apply Fin.ext
  match a with
  | ⟨0, _⟩ => show win4_0.index t 0 * 4000 + 1 * r.val = t.val * 4000 + r.val; rw [(idx4_0 t).1]; omega
  | ⟨1, _⟩ => show win4_0.index t 1 * 128 + 1 * k.val = k.val; rw [(idx4_0 t).2]; omega

theorem wblk_apply (c : Dev nD) (t : Fin cfg4.N) (k : Fin 128) (f : Fin 128) :
    wblk V c t (ix2 k f) = V c main_arg11 (ix2 k f) := by
  unfold wblk iblk4
  rw [View.read_apply]
  show V c main_arg11 _ = V c main_arg11 _
  congr 1
  funext a
  apply Fin.ext
  match a with
  | ⟨0, _⟩ => show win4_1.index t 0 * 128 + 1 * k.val = k.val; rw [(idx4_1 t).1]; omega
  | ⟨1, _⟩ => show win4_1.index t 1 * 128 + 1 * f.val = f.val; rw [(idx4_1 t).2]; omega

theorem bblk_apply (c : Dev nD) (t : Fin cfg4.N) (f : Fin 128) :
    bblk V c t (ix1 f) = V c main_arg12 (ix1 f) := by
  unfold bblk iblk4
  rw [View.read_apply]
  show V c main_arg12 _ = V c main_arg12 _
  congr 1
  funext a
  apply Fin.ext
  match a with
  | ⟨0, _⟩ => show win4_2.index t 0 * 128 + 1 * f.val = f.val; rw [idx4_2 t]; omega

theorem iblk_apply (c : Dev nD) (t : Fin cfg4.N) (r : Fin 4000) :
    iblk V c t (ix2 r 0) = V c main_v0 (ix2 ⟨t.val * 4000 + r.val, row_lt t r⟩ 0) := by
  unfold iblk iblk4
  rw [View.read_apply]
  show V c main_v0 _ = V c main_v0 _
  congr 1
  funext a
  apply Fin.ext
  match a with
  | ⟨0, _⟩ => show win4_3.index t 0 * 4000 + 1 * r.val = t.val * 4000 + r.val; rw [(idx4_3 t).1]; omega
  | ⟨1, _⟩ => show win4_3.index t 1 * 1 + 1 * 0 = 0; rw [(idx4_3 t).2]

/-! ## The running block is the running sum of the tiles -/

/-- Tile t's sum at (g, f): over its rows, one-hot times clamped projection (zero past the grid). -/
def tileSum (c : Dev nD) (g : Fin 64) (f : Fin 128) (t : Nat) : EReal :=
  if ht : t < cfg4.N then
    ∑ r : Fin 4000, MeanField.hot (V c main_v0 (ix2 ⟨t * 4000 + r.val, row_lt ⟨t, ht⟩ r⟩ 0)) g.val
      * MeanField.act (n := 100000) (k := 128) (c := 128) (V c main_v42) (V c main_arg11) (V c main_arg12)
          (ix2 ⟨t * 4000 + r.val, row_lt ⟨t, ht⟩ r⟩ f)
  else 0

/-- One point's accumulation over the blocks it is handed adds its tile's sum. -/
theorem step_apply (c : Dev nD) (t : Fin cfg4.N) (prev : Vec Ideal S64x128 .f32) (g : Fin 64) (f : Fin 128) :
    k4_pay2 (F := Ideal) (hblk V c t) (wblk V c t) (bblk V c t) (iblk V c t) prev (ix2 g f)
      = prev (ix2 g f) + tileSum V c g f t.val := by
  rw [pay2_apply]
  unfold tileSum
  rw [dif_pos t.isLt]
  refine congrArg (prev (ix2 g f) + ·) (Finset.sum_congr rfl fun r _ => ?_)
  rw [iblk_apply, bblk_apply]
  unfold MeanField.act MeanField.affine MeanField.mmAt
  simp only [hblk_apply, wblk_apply]

/-- Before the last point the resident block holds the sum of the tiles so far. -/
theorem outsAt4_run (c : Dev nD) (g : Fin 64) (f : Fin 128) : ∀ (n : ℕ) (hn : n < cfg4.N), n < 24 →
    outsAt4 V c n hn (ix2 g f) = ∑ t ∈ Finset.range (n + 1), tileSum V c g f t
  | 0, hn, _ => by
    rw [outsAt4_A V c ⟨0, hn⟩ rfl (by dsimp only; omega), out4_A_eq, step_apply V c ⟨0, hn⟩, pay1_apply, zero_add, Finset.sum_range_one]
  | n + 1, hn, h24 => by
    have h0 : ¬(⟨n + 1, hn⟩ : Fin cfg4.N).val % 25 = 0 := by dsimp only; omega
    have h1 : ¬(⟨n + 1, hn⟩ : Fin cfg4.N).val % 25 = 24 := by dsimp only; omega
    rw [outsAt4_B V c ⟨n + 1, hn⟩ h0 h1, out4_B_eq, step_apply V c ⟨n + 1, hn⟩]
    show outsAt4 V c n _ (ix2 g f) + _ = _
    rw [outsAt4_run c g f n _ (by omega), Finset.sum_range_succ _ (n + 1)]

/-- After the last point it holds the clamp of the sum of all the tiles. -/
theorem outsAt4_last (c : Dev nD) (g : Fin 64) (f : Fin 128) (h : 24 < cfg4.N) :
    outsAt4 V c 24 h (ix2 g f) = max (∑ t ∈ Finset.range 25, tileSum V c g f t) 0 := by
  rw [outsAt4_C V c ⟨24, h⟩ (by dsimp only; omega) rfl, out4_C_eq, pay3_apply, step_apply V c ⟨24, h⟩]
  show max (outsAt4 V c 23 _ (ix2 g f) + _) 0 = _
  rw [outsAt4_run V c g f 23 _ (by decide), Finset.sum_range_succ _ 24]

/-! ## The array after the region -/

/-- The readout by tiles, as contents of the output array. -/
abbrev readout (c : Dev nD) : Buf (Elt Ideal) ((c : Thread nD τ).loc main_v43) :=
  MeanField.readoutByTiles 25 4000 (V c main_v42) (V c main_arg11) (V c main_arg12) (V c main_v0)

theorem idx4_4 : ∀ t : Fin cfg4.N, win4_4.index t 0 = 0 ∧ win4_4.index t 1 = 0 :=
  (by decide +kernel : ∀ t : Fin grid4.N, win4_4.index t 0 = 0 ∧ win4_4.index t 1 = 0)
theorem xsize4_4 : ∀ t : Fin cfg4.N, win4_4.xsize (grid4.coords t) 0 = 64 ∧ win4_4.xsize (grid4.coords t) 1 = 128 :=
  (by decide +kernel : ∀ t : Fin grid4.N, win4_4.xsize (grid4.coords t) 0 = 64 ∧ win4_4.xsize (grid4.coords t) 1 = 128)

/-- The resident block after the last point is the readout. -/
theorem outsAt4_last_eq (c : Dev nD) (h : 24 < cfg4.N) : outsAt4 V c 24 h = readout V c := by
  funext i
  obtain ⟨g, f, rfl⟩ : ∃ g f, i = ix2 g f := ⟨i 0, i 1, eq_ix2 i⟩
  rw [outsAt4_last V c g f h]
  unfold readout MeanField.readoutByTiles
  refine congrArg (max · 0) ?_
  rw [Finset.sum_range]
  refine Finset.sum_congr rfl fun t _ => ?_
  unfold tileSum
  rw [dif_pos (lt_of_lt_of_eq t.isLt N_4.symm)]

/-- The one write-back, at the last point, writes the readout: the block is the whole array. -/
theorem flushed4_eq (c : Dev nD) (t : Fin cfg4.N) (hf : (cfg4.win 4).flush t = true) :
    (dat4 V c).flushed 4 t = ((cfg4.win 4).blk t).view.read (Elt Ideal) (readout V c) := by
  have hN : cfg4.N = 25 := N_4
  have h24 : 24 < cfg4.N := by rw [hN]; decide
  have ht : t.val = 24 := by have := (flush4_4 t).mp hf; have := t.isLt; omega
  obtain rfl : t = ⟨24, h24⟩ := Fin.ext ht
  show (cfg4.win 4).cut (grid4.coords ⟨24, h24⟩) ((dat4 V c).after 4 ⟨24, h24⟩) = _
  rw [after4_4, outsAt4_last_eq]
  have hz' : (fun a => win4_4.index ⟨24, h24⟩ a * main_v43.ty.shape.size a) = fun _ => 0 := funext fun a => by
    match a with
    | ⟨0, _⟩ => show win4_4.index ⟨24, h24⟩ 0 * _ = 0; rw [(idx4_4 _).1, Nat.zero_mul]
    | ⟨1, _⟩ => show win4_4.index ⟨24, h24⟩ 1 * _ = 0; rw [(idx4_4 _).2, Nat.zero_mul]
  exact (Memref.read_access_unit_zero (Elt Ideal) main_v43 hz' (fun a => by rw [congrFun hz' a]; simp) (readout V c)).symm

end R4

open R4

variable (V : (c : Dev nD) → (b : Ref sig .tc) → Buf (Elt Ideal) ((c : Thread nD τ).loc b))

/-- After region 4 its output array holds the readout, tile by tile, of the arrays the region was entered with. -/
theorem region4_out (c : Dev nD) :
    (dat4 (F := Ideal) V c).arrAt 4 cfg4.N
      = MeanField.readoutByTiles 25 4000 (V c main_v42) (V c main_arg11) (V c main_arg12) (V c main_v0) := by
  have hN : cfg4.N = 25 := N_4
  have h24 : 24 < cfg4.N := by rw [hN]; decide
  refine (dat4 V c).arrAt_eq_of_cover 4 (readout V c) (flushed4_eq V c) fun i =>
    ⟨⟨24, h24⟩, (flush4_4 _).mpr rfl, ?_⟩
  show i ∈ ((View.whole main_v43).slice (win4_4.rect ⟨24, h24⟩)).set
  rw [View.set_slice_whole, Rect.mem_set_unit]
  intro a
  have h0 : (i 0 : Nat) < 64 := (i 0).isLt
  have h1 : (i 1 : Nat) < 128 := (i 1).isLt
  match a with
  | ⟨0, _⟩ =>
    show win4_4.index ⟨24, h24⟩ 0 * win4_4.size 0 ≤ (i 0 : Nat)
      ∧ (i 0 : Nat) < win4_4.index ⟨24, h24⟩ 0 * win4_4.size 0 + win4_4.xsize (grid4.coords ⟨24, h24⟩) 0
    rw [(idx4_4 _).1, (xsize4_4 _).1]; omega
  | ⟨1, _⟩ =>
    show win4_4.index ⟨24, h24⟩ 1 * win4_4.size 1 ≤ (i 1 : Nat)
      ∧ (i 1 : Nat) < win4_4.index ⟨24, h24⟩ 1 * win4_4.size 1 + win4_4.xsize (grid4.coords ⟨24, h24⟩) 1
    rw [(idx4_4 _).2, (xsize4_4 _).2]; omega

end Cert.KernelIdeal.RegionValue
end
-- ==== Proof.KernelFold.lean ====
/-
  The kernel program's result as one function of its arguments.

  Between its five kernel regions the program runs host operations: before the first region the per-node sum, by
  edge destination, of the edge features augmented with a column of ones, and the graph ids laid out as a column;
  before each mean-field region the neighbour pooling of the current node features (gather by edge source, with a
  negative source wrapped once, then sum by edge destination).  Each region leaves in its output array a function
  of the arrays it found, and nothing else writes those arrays or the arguments.  Walking the buffer contents from
  the launch through the stretches and the regions gives the result buffer as: the tiled readout of three
  mean-field layers over the input message.
-/
import proofs.«400930_j41970420417062_2_alg».proof.Proof.Region0
import proofs.«400930_j41970420417062_2_alg».proof.Proof.Region1
import proofs.«400930_j41970420417062_2_alg».proof.Proof.Region2
import proofs.«400930_j41970420417062_2_alg».proof.Proof.Region3
import proofs.«400930_j41970420417062_2_alg».proof.Proof.Region4
import Idealize.ShloMosaic.Lib.StableHlo.Run

set_option maxRecDepth 16384

noncomputable section

open Idealize.ShloMosaic Idealize.ShloMosaic.TcCoe Idealize.ShloMosaic.ValueIdx Idealize.SL.Sem Idealize.ShloMosaic.StableHlo
open Idealize.ShloMosaic.Pipeline (Dat Cfg Window)

namespace Cert.KernelIdeal.FoldValue

open Cert.KernelIdeal Cert.KernelIdeal.Gen Cert.KernelIdeal.RegionValue

/-- The per-node aggregate: the edge features with a column of ones appended, summed by edge destination. -/
def aggOf (x1 : FVec Ideal S1600000x16 .f32) (x3 : IVec S1600000 32) : FVec Ideal S100000x17 .f32 :=
  Host.scatterAdd scatter_S100000x17_S1600000x1_S1600000x17_1_0_0_1
    (broadcastInDim S100000x17 ![] bcast_S_S100000x17 (constant S_ .f32 0x00000000#32))
    (broadcastInDim S1600000x1 ![0] bcast_S1600000_S1600000x1_0 x3)
    (concatenate S1600000x17 1
      [⟨S1600000x16, x1⟩, ⟨S1600000x1, broadcastInDim S1600000x1 ![] bcast_S_S1600000x1 (constant S_ .f32 0x3F800000#32)⟩]
      concatenates_S1600000x16_S1600000x1_S1600000x17_d1)

/-- The graph ids as a column. -/
def idColOf (x4 : IVec S100000 32) : IVec S100000x1 32 := shapeCast S100000x1 x4 shapeCasts_S100000_S100000x1

/-- Neighbour pooling of node features `h`: gather the row of each edge's source (a negative source wrapped by the
    number of nodes), widen, and sum by edge destination. -/
def poolOf (x2 x3 : IVec S1600000 32) (h : FVec Ideal S100000x128 .bf16) : FVec Ideal S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 x3)
    (extf .f32
      (Host.gather gather_S100000x128_S1600000x1_S1600000x128_1_0_n_n_0_1_1128 h
        (broadcastInDim S1600000x1 ![0] bcast_S1600000_S1600000x1_0
          (select (cmpi .slt x2 (broadcastInDim S1600000 ![] bcast_S_S1600000 (constantI S_ 32 0#32)))
            (addi x2 (broadcastInDim S1600000 ![] bcast_S_S1600000 (constantI S_ 32 100000#32))) x2)))
      bitsLt_bf16_f32)

/-- The kernel program's result of its thirteen arguments. -/
def kernelValue (x0 : FVec Ideal S100000x128 .f32) (x1 : FVec Ideal S1600000x16 .f32) (x2 x3 : IVec S1600000 32)
    (x4 : IVec S100000 32) (x5 : FVec Ideal S128x128 .f32) (x6 : FVec Ideal S128 .f32) (x7 : FVec Ideal S16x128 .f32)
    (x8 : FVec Ideal S128 .f32) (x9 : FVec Ideal S128x128 .f32) (x10 : FVec Ideal S128 .f32) (x11 : FVec Ideal S128x128 .f32)
    (x12 : FVec Ideal S128 .f32) : MeanField.Mat 64 128 :=
  let im : MeanField.Mat 100000 128 := MeanField.messageOfAgg x0 (aggOf x1 x3) x5 x6 x7 x8
  let h1 : MeanField.Mat 100000 128 := MeanField.layer (poolOf x2 x3 (MeanField.clamp im)) x9 x10 im
  let h2 : MeanField.Mat 100000 128 := MeanField.layer (poolOf x2 x3 h1) x9 x10 im
  let h3 : MeanField.Mat 100000 128 := MeanField.layer (poolOf x2 x3 h2) x9 x10 im
  MeanField.readoutByTiles 25 4000 h3 x11 x12 (idColOf x4)

/-- A buffer that no operation of a host stretch writes holds after the stretch what it held before. -/
local macro "host_keep" h:ident : tactic =>
  `(tactic| exact StableHlo.after_of_forall_not_mem _ _ (List.forall_iff_forall_mem.mp (by
      simp only [$h:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

variable (m : (ℓ : Loc nD τ sig) → Buf (Elt Ideal) ℓ) (ρ : Dev nD → PrngReg)

/-! ### At the first region's entry: the aggregate and the id column are as the first stretch computes them from the launch, the arguments as launched -/

theorem W1_v5 (c : Dev nD) :
    W1 (F := Ideal) m ρ c (Proc.devRef .tc main_v5) = aggOf (m ((c : Thread nD τ).loc main_arg1)) (m ((c : Thread nD τ).loc main_arg3)) := by
  show StableHlo.after hostOps0 (W0 m ρ c) (Proc.devRef .tc main_v5) = _
  simp only [hostOps0]
  after_results
  rfl
theorem W1_v0 (c : Dev nD) :
    W1 (F := Ideal) m ρ c (Proc.devRef .tc main_v0) = idColOf (m ((c : Thread nD τ).loc main_arg4)) := by
  show StableHlo.after hostOps0 (W0 m ρ c) (Proc.devRef .tc main_v0) = _
  simp only [hostOps0]
  after_results
  rfl
theorem W1_arg0 (c : Dev nD) :
    W1 (F := Ideal) m ρ c (Proc.devRef .tc main_arg0) = m ((c : Thread nD τ).loc main_arg0) := by
  show StableHlo.after hostOps0 (W0 m ρ c) (Proc.devRef .tc main_arg0) = W0 m ρ c (Proc.devRef .tc main_arg0)
  host_keep hostOps0
theorem W1_arg2 (c : Dev nD) :
    W1 (F := Ideal) m ρ c (Proc.devRef .tc main_arg2) = m ((c : Thread nD τ).loc main_arg2) := by
  show StableHlo.after hostOps0 (W0 m ρ c) (Proc.devRef .tc main_arg2) = W0 m ρ c (Proc.devRef .tc main_arg2)
  host_keep hostOps0
theorem W1_arg3 (c : Dev nD) :
    W1 (F := Ideal) m ρ c (Proc.devRef .tc main_arg3) = m ((c : Thread nD τ).loc main_arg3) := by
  show StableHlo.after hostOps0 (W0 m ρ c) (Proc.devRef .tc main_arg3) = W0 m ρ c (Proc.devRef .tc main_arg3)
  host_keep hostOps0
theorem W1_arg5 (c : Dev nD) :
    W1 (F := Ideal) m ρ c (Proc.devRef .tc main_arg5) = m ((c : Thread nD τ).loc main_arg5) := by
  show StableHlo.after hostOps0 (W0 m ρ c) (Proc.devRef .tc main_arg5) = W0 m ρ c (Proc.devRef .tc main_arg5)
  host_keep hostOps0
theorem W1_arg6 (c : Dev nD) :
    W1 (F := Ideal) m ρ c (Proc.devRef .tc main_arg6) = m ((c : Thread nD τ).loc main_arg6) := by
  show StableHlo.after hostOps0 (W0 m ρ c) (Proc.devRef .tc main_arg6) = W0 m ρ c (Proc.devRef .tc main_arg6)
  host_keep hostOps0
theorem W1_arg7 (c : Dev nD) :
    W1 (F := Ideal) m ρ c (Proc.devRef .tc main_arg7) = m ((c : Thread nD τ).loc main_arg7) := by
  show StableHlo.after hostOps0 (W0 m ρ c) (Proc.devRef .tc main_arg7) = W0 m ρ c (Proc.devRef .tc main_arg7)
  host_keep hostOps0
theorem W1_arg8 (c : Dev nD) :
    W1 (F := Ideal) m ρ c (Proc.devRef .tc main_arg8) = m ((c : Thread nD τ).loc main_arg8) := by
  show StableHlo.after hostOps0 (W0 m ρ c) (Proc.devRef .tc main_arg8) = W0 m ρ c (Proc.devRef .tc main_arg8)
  host_keep hostOps0
theorem W1_arg9 (c : Dev nD) :
    W1 (F := Ideal) m ρ c (Proc.devRef .tc main_arg9) = m ((c : Thread nD τ).loc main_arg9) := by
  show StableHlo.after hostOps0 (W0 m ρ c) (Proc.devRef .tc main_arg9) = W0 m ρ c (Proc.devRef .tc main_arg9)
  host_keep hostOps0
theorem W1_arg10 (c : Dev nD) :
    W1 (F := Ideal) m ρ c (Proc.devRef .tc main_arg10) = m ((c : Thread nD τ).loc main_arg10) := by
  show StableHlo.after hostOps0 (W0 m ρ c) (Proc.devRef .tc main_arg10) = W0 m ρ c (Proc.devRef .tc main_arg10)
  host_keep hostOps0
theorem W1_arg11 (c : Dev nD) :
    W1 (F := Ideal) m ρ c (Proc.devRef .tc main_arg11) = m ((c : Thread nD τ).loc main_arg11) := by
  show StableHlo.after hostOps0 (W0 m ρ c) (Proc.devRef .tc main_arg11) = W0 m ρ c (Proc.devRef .tc main_arg11)
  host_keep hostOps0
theorem W1_arg12 (c : Dev nD) :
    W1 (F := Ideal) m ρ c (Proc.devRef .tc main_arg12) = m ((c : Thread nD τ).loc main_arg12) := by
  show StableHlo.after hostOps0 (W0 m ρ c) (Proc.devRef .tc main_arg12) = W0 m ρ c (Proc.devRef .tc main_arg12)
  host_keep hostOps0

/-! ### At the first region's exit: its two output arrays hold the input message and its clamp; what it does not touch is as entered -/

theorem W2_v6_0 (c : Dev nD) :
    W2 (F := Ideal) m ρ c (Proc.devRef .tc main_v6_0) = MeanField.messageOfAgg (m ((c : Thread nD τ).loc main_arg0)) (aggOf (m ((c : Thread nD τ).loc main_arg1)) (m ((c : Thread nD τ).loc main_arg3))) (m ((c : Thread nD τ).loc main_arg5)) (m ((c : Thread nD τ).loc main_arg6)) (m ((c : Thread nD τ).loc main_arg7)) (m ((c : Thread nD τ).loc main_arg8)) := by
  refine (W2_arr m ρ c 6).trans ((region0_message (V1 m ρ) c).trans ?_)
  show MeanField.messageOfAgg (W1 m ρ c (Proc.devRef .tc main_arg0)) (W1 m ρ c (Proc.devRef .tc main_v5)) (W1 m ρ c (Proc.devRef .tc main_arg5)) (W1 m ρ c (Proc.devRef .tc main_arg6)) (W1 m ρ c (Proc.devRef .tc main_arg7)) (W1 m ρ c (Proc.devRef .tc main_arg8)) = _
  rw [W1_arg0 m ρ c, W1_v5 m ρ c, W1_arg5 m ρ c, W1_arg6 m ρ c, W1_arg7 m ρ c, W1_arg8 m ρ c]
theorem W2_v6_1 (c : Dev nD) :
    W2 (F := Ideal) m ρ c (Proc.devRef .tc main_v6_1) = MeanField.clamp (MeanField.messageOfAgg (m ((c : Thread nD τ).loc main_arg0)) (aggOf (m ((c : Thread nD τ).loc main_arg1)) (m ((c : Thread nD τ).loc main_arg3))) (m ((c : Thread nD τ).loc main_arg5)) (m ((c : Thread nD τ).loc main_arg6)) (m ((c : Thread nD τ).loc main_arg7)) (m ((c : Thread nD τ).loc main_arg8))) := by
  refine (W2_arr m ρ c 7).trans ((region0_features (V1 m ρ) c).trans ?_)
  show MeanField.clamp (MeanField.messageOfAgg (W1 m ρ c (Proc.devRef .tc main_arg0)) (W1 m ρ c (Proc.devRef .tc main_v5)) (W1 m ρ c (Proc.devRef .tc main_arg5)) (W1 m ρ c (Proc.devRef .tc main_arg6)) (W1 m ρ c (Proc.devRef .tc main_arg7)) (W1 m ρ c (Proc.devRef .tc main_arg8))) = _
  rw [W1_arg0 m ρ c, W1_v5 m ρ c, W1_arg5 m ρ c, W1_arg6 m ρ c, W1_arg7 m ρ c, W1_arg8 m ρ c]
theorem W2_v0 (c : Dev nD) :
    W2 (F := Ideal) m ρ c (Proc.devRef .tc main_v0) = idColOf (m ((c : Thread nD τ).loc main_arg4)) :=
  (W2_of_ne m ρ c main_v0 (by decide)).trans (W1_v0 m ρ c)
theorem W2_arg2 (c : Dev nD) :
    W2 (F := Ideal) m ρ c (Proc.devRef .tc main_arg2) = m ((c : Thread nD τ).loc main_arg2) :=
  (W2_of_ne m ρ c main_arg2 (by decide)).trans (W1_arg2 m ρ c)
theorem W2_arg3 (c : Dev nD) :
    W2 (F := Ideal) m ρ c (Proc.devRef .tc main_arg3) = m ((c : Thread nD τ).loc main_arg3) :=
  (W2_of_ne m ρ c main_arg3 (by decide)).trans (W1_arg3 m ρ c)
theorem W2_arg9 (c : Dev nD) :
    W2 (F := Ideal) m ρ c (Proc.devRef .tc main_arg9) = m ((c : Thread nD τ).loc main_arg9) :=
  (W2_of_ne m ρ c main_arg9 (by decide)).trans (W1_arg9 m ρ c)
theorem W2_arg10 (c : Dev nD) :
    W2 (F := Ideal) m ρ c (Proc.devRef .tc main_arg10) = m ((c : Thread nD τ).loc main_arg10) :=
  (W2_of_ne m ρ c main_arg10 (by decide)).trans (W1_arg10 m ρ c)
theorem W2_arg11 (c : Dev nD) :
    W2 (F := Ideal) m ρ c (Proc.devRef .tc main_arg11) = m ((c : Thread nD τ).loc main_arg11) :=
  (W2_of_ne m ρ c main_arg11 (by decide)).trans (W1_arg11 m ρ c)
theorem W2_arg12 (c : Dev nD) :
    W2 (F := Ideal) m ρ c (Proc.devRef .tc main_arg12) = m ((c : Thread nD τ).loc main_arg12) :=
  (W2_of_ne m ρ c main_arg12 (by decide)).trans (W1_arg12 m ρ c)

/-! ### At the second region's entry: the pooled first features; the rest carried across the stretch -/

theorem W3_v17 (c : Dev nD) :
    W3 (F := Ideal) m ρ c (Proc.devRef .tc main_v17) = poolOf (m ((c : Thread nD τ).loc main_arg2)) (m ((c : Thread nD τ).loc main_arg3)) (MeanField.clamp (MeanField.messageOfAgg (m ((c : Thread nD τ).loc main_arg0)) (aggOf (m ((c : Thread nD τ).loc main_arg1)) (m ((c : Thread nD τ).loc main_arg3))) (m ((c : Thread nD τ).loc main_arg5)) (m ((c : Thread nD τ).loc main_arg6)) (m ((c : Thread nD τ).loc main_arg7)) (m ((c : Thread nD τ).loc main_arg8)))) := by
  show StableHlo.after hostOps1 (W2 m ρ c) (Proc.devRef .tc main_v17) = _
  simp only [hostOps1]
  after_results_simp
  rw [W2_arg2 m ρ c, W2_arg3 m ρ c, W2_v6_1 m ρ c]
  rfl
theorem W3_v6_0 (c : Dev nD) :
    W3 (F := Ideal) m ρ c (Proc.devRef .tc main_v6_0) = MeanField.messageOfAgg (m ((c : Thread nD τ).loc main_arg0)) (aggOf (m ((c : Thread nD τ).loc main_arg1)) (m ((c : Thread nD τ).loc main_arg3))) (m ((c : Thread nD τ).loc main_arg5)) (m ((c : Thread nD τ).loc main_arg6)) (m ((c : Thread nD τ).loc main_arg7)) (m ((c : Thread nD τ).loc main_arg8)) :=
  (show StableHlo.after hostOps1 (W2 m ρ c) (Proc.devRef .tc main_v6_0) = W2 m ρ c (Proc.devRef .tc main_v6_0) by host_keep hostOps1).trans
    (W2_v6_0 m ρ c)
theorem W3_v0 (c : Dev nD) :
    W3 (F := Ideal) m ρ c (Proc.devRef .tc main_v0) = idColOf (m ((c : Thread nD τ).loc main_arg4)) :=
  (show StableHlo.after hostOps1 (W2 m ρ c) (Proc.devRef .tc main_v0) = W2 m ρ c (Proc.devRef .tc main_v0) by host_keep hostOps1).trans
    (W2_v0 m ρ c)
theorem W3_arg2 (c : Dev nD) :
    W3 (F := Ideal) m ρ c (Proc.devRef .tc main_arg2) = m ((c : Thread nD τ).loc main_arg2) :=
  (show StableHlo.after hostOps1 (W2 m ρ c) (Proc.devRef .tc main_arg2) = W2 m ρ c (Proc.devRef .tc main_arg2) by host_keep hostOps1).trans
    (W2_arg2 m ρ c)
theorem W3_arg3 (c : Dev nD) :
    W3 (F := Ideal) m ρ c (Proc.devRef .tc main_arg3) = m ((c : Thread nD τ).loc main_arg3) :=
  (show StableHlo.after hostOps1 (W2 m ρ c) (Proc.devRef .tc main_arg3) = W2 m ρ c (Proc.devRef .tc main_arg3) by host_keep hostOps1).trans
    (W2_arg3 m ρ c)
theorem W3_arg9 (c : Dev nD) :
    W3 (F := Ideal) m ρ c (Proc.devRef .tc main_arg9) = m ((c : Thread nD τ).loc main_arg9) :=
  (show StableHlo.after hostOps1 (W2 m ρ c) (Proc.devRef .tc main_arg9) = W2 m ρ c (Proc.devRef .tc main_arg9) by host_keep hostOps1).trans
    (W2_arg9 m ρ c)
theorem W3_arg10 (c : Dev nD) :
    W3 (F := Ideal) m ρ c (Proc.devRef .tc main_arg10) = m ((c : Thread nD τ).loc main_arg10) :=
  (show StableHlo.after hostOps1 (W2 m ρ c) (Proc.devRef .tc main_arg10) = W2 m ρ c (Proc.devRef .tc main_arg10) by host_keep hostOps1).trans
    (W2_arg10 m ρ c)
theorem W3_arg11 (c : Dev nD) :
    W3 (F := Ideal) m ρ c (Proc.devRef .tc main_arg11) = m ((c : Thread nD τ).loc main_arg11) :=
  (show StableHlo.after hostOps1 (W2 m ρ c) (Proc.devRef .tc main_arg11) = W2 m ρ c (Proc.devRef .tc main_arg11) by host_keep hostOps1).trans
    (W2_arg11 m ρ c)
theorem W3_arg12 (c : Dev nD) :
    W3 (F := Ideal) m ρ c (Proc.devRef .tc main_arg12) = m ((c : Thread nD τ).loc main_arg12) :=
  (show StableHlo.after hostOps1 (W2 m ρ c) (Proc.devRef .tc main_arg12) = W2 m ρ c (Proc.devRef .tc main_arg12) by host_keep hostOps1).trans
    (W2_arg12 m ρ c)

/-! ### At the second region's exit: the first layer's features; the region's inputs and what it does not touch as entered -/

theorem W4_v18 (c : Dev nD) :
    W4 (F := Ideal) m ρ c (Proc.devRef .tc main_v18) = MeanField.layer (poolOf (m ((c : Thread nD τ).loc main_arg2)) (m ((c : Thread nD τ).loc main_arg3)) (MeanField.clamp (MeanField.messageOfAgg (m ((c : Thread nD τ).loc main_arg0)) (aggOf (m ((c : Thread nD τ).loc main_arg1)) (m ((c : Thread nD τ).loc main_arg3))) (m ((c : Thread nD τ).loc main_arg5)) (m ((c : Thread nD τ).loc main_arg6)) (m ((c : Thread nD τ).loc main_arg7)) (m ((c : Thread nD τ).loc main_arg8))))) (m ((c : Thread nD τ).loc main_arg9)) (m ((c : Thread nD τ).loc main_arg10)) (MeanField.messageOfAgg (m ((c : Thread nD τ).loc main_arg0)) (aggOf (m ((c : Thread nD τ).loc main_arg1)) (m ((c : Thread nD τ).loc main_arg3))) (m ((c : Thread nD τ).loc main_arg5)) (m ((c : Thread nD τ).loc main_arg6)) (m ((c : Thread nD τ).loc main_arg7)) (m ((c : Thread nD τ).loc main_arg8))) := by
  refine (W4_arr m ρ c 4).trans ((region1_out (V3 m ρ) c).trans ?_)
  show MeanField.layer (W3 m ρ c (Proc.devRef .tc main_v17)) (W3 m ρ c (Proc.devRef .tc main_arg9)) (W3 m ρ c (Proc.devRef .tc main_arg10)) (W3 m ρ c (Proc.devRef .tc main_v6_0)) = _
  rw [W3_v17 m ρ c, W3_arg9 m ρ c, W3_arg10 m ρ c, W3_v6_0 m ρ c]
theorem W4_v6_0 (c : Dev nD) :
    W4 (F := Ideal) m ρ c (Proc.devRef .tc main_v6_0) = MeanField.messageOfAgg (m ((c : Thread nD τ).loc main_arg0)) (aggOf (m ((c : Thread nD τ).loc main_arg1)) (m ((c : Thread nD τ).loc main_arg3))) (m ((c : Thread nD τ).loc main_arg5)) (m ((c : Thread nD τ).loc main_arg6)) (m ((c : Thread nD τ).loc main_arg7)) (m ((c : Thread nD τ).loc main_arg8)) :=
  ((W4_arr m ρ c 3).trans (((dat1 (V3 m ρ) c).arrAt_in 3 rfl _).trans (A_eq1 (V3 m ρ) c 3))).trans
    (W3_v6_0 m ρ c)
theorem W4_arg9 (c : Dev nD) :
    W4 (F := Ideal) m ρ c (Proc.devRef .tc main_arg9) = m ((c : Thread nD τ).loc main_arg9) :=
  ((W4_arr m ρ c 1).trans (((dat1 (V3 m ρ) c).arrAt_in 1 rfl _).trans (A_eq1 (V3 m ρ) c 1))).trans
    (W3_arg9 m ρ c)
theorem W4_arg10 (c : Dev nD) :
    W4 (F := Ideal) m ρ c (Proc.devRef .tc main_arg10) = m ((c : Thread nD τ).loc main_arg10) :=
  ((W4_arr m ρ c 2).trans (((dat1 (V3 m ρ) c).arrAt_in 2 rfl _).trans (A_eq1 (V3 m ρ) c 2))).trans
    (W3_arg10 m ρ c)
theorem W4_v0 (c : Dev nD) :
    W4 (F := Ideal) m ρ c (Proc.devRef .tc main_v0) = idColOf (m ((c : Thread nD τ).loc main_arg4)) :=
  (W4_of_ne m ρ c main_v0 (by decide)).trans (W3_v0 m ρ c)
theorem W4_arg2 (c : Dev nD) :
    W4 (F := Ideal) m ρ c (Proc.devRef .tc main_arg2) = m ((c : Thread nD τ).loc main_arg2) :=
  (W4_of_ne m ρ c main_arg2 (by decide)).trans (W3_arg2 m ρ c)
theorem W4_arg3 (c : Dev nD) :
    W4 (F := Ideal) m ρ c (Proc.devRef .tc main_arg3) = m ((c : Thread nD τ).loc main_arg3) :=
  (W4_of_ne m ρ c main_arg3 (by decide)).trans (W3_arg3 m ρ c)
theorem W4_arg11 (c : Dev nD) :
    W4 (F := Ideal) m ρ c (Proc.devRef .tc main_arg11) = m ((c : Thread nD τ).loc main_arg11) :=
  (W4_of_ne m ρ c main_arg11 (by decide)).trans (W3_arg11 m ρ c)
theorem W4_arg12 (c : Dev nD) :
    W4 (F := Ideal) m ρ c (Proc.devRef .tc main_arg12) = m ((c : Thread nD τ).loc main_arg12) :=
  (W4_of_ne m ρ c main_arg12 (by decide)).trans (W3_arg12 m ρ c)

/-! ### At the third region's entry -/

theorem W5_v29 (c : Dev nD) :
    W5 (F := Ideal) m ρ c (Proc.devRef .tc main_v29) = poolOf (m ((c : Thread nD τ).loc main_arg2)) (m ((c : Thread nD τ).loc main_arg3)) (MeanField.layer (poolOf (m ((c : Thread nD τ).loc main_arg2)) (m ((c : Thread nD τ).loc main_arg3)) (MeanField.clamp (MeanField.messageOfAgg (m ((c : Thread nD τ).loc main_arg0)) (aggOf (m ((c : Thread nD τ).loc main_arg1)) (m ((c : Thread nD τ).loc main_arg3))) (m ((c : Thread nD τ).loc main_arg5)) (m ((c : Thread nD τ).loc main_arg6)) (m ((c : Thread nD τ).loc main_arg7)) (m ((c : Thread nD τ).loc main_arg8))))) (m ((c : Thread nD τ).loc main_arg9)) (m ((c : Thread nD τ).loc main_arg10)) (MeanField.messageOfAgg (m ((c : Thread nD τ).loc main_arg0)) (aggOf (m ((c : Thread nD τ).loc main_arg1)) (m ((c : Thread nD τ).loc main_arg3))) (m ((c : Thread nD τ).loc main_arg5)) (m ((c : Thread nD τ).loc main_arg6)) (m ((c : Thread nD τ).loc main_arg7)) (m ((c : Thread nD τ).loc main_arg8)))) := by
  show StableHlo.after hostOps2 (W4 m ρ c) (Proc.devRef .tc main_v29) = _
  simp only [hostOps2]
  after_results_simp
  rw [W4_arg2 m ρ c, W4_arg3 m ρ c, W4_v18 m ρ c]
  rfl
theorem W5_v6_0 (c : Dev nD) :
    W5 (F := Ideal) m ρ c (Proc.devRef .tc main_v6_0) = MeanField.messageOfAgg (m ((c : Thread nD τ).loc main_arg0)) (aggOf (m ((c : Thread nD τ).loc main_arg1)) (m ((c : Thread nD τ).loc main_arg3))) (m ((c : Thread nD τ).loc main_arg5)) (m ((c : Thread nD τ).loc main_arg6)) (m ((c : Thread nD τ).loc main_arg7)) (m ((c : Thread nD τ).loc main_arg8)) :=
  (show StableHlo.after hostOps2 (W4 m ρ c) (Proc.devRef .tc main_v6_0) = W4 m ρ c (Proc.devRef .tc main_v6_0) by host_keep hostOps2).trans
    (W4_v6_0 m ρ c)
theorem W5_v0 (c : Dev nD) :
    W5 (F := Ideal) m ρ c (Proc.devRef .tc main_v0) = idColOf (m ((c : Thread nD τ).loc main_arg4)) :=
  (show StableHlo.after hostOps2 (W4 m ρ c) (Proc.devRef .tc main_v0) = W4 m ρ c (Proc.devRef .tc main_v0) by host_keep hostOps2).trans
    (W4_v0 m ρ c)
theorem W5_arg2 (c : Dev nD) :
    W5 (F := Ideal) m ρ c (Proc.devRef .tc main_arg2) = m ((c : Thread nD τ).loc main_arg2) :=
  (show StableHlo.after hostOps2 (W4 m ρ c) (Proc.devRef .tc main_arg2) = W4 m ρ c (Proc.devRef .tc main_arg2) by host_keep hostOps2).trans
    (W4_arg2 m ρ c)
theorem W5_arg3 (c : Dev nD) :
    W5 (F := Ideal) m ρ c (Proc.devRef .tc main_arg3) = m ((c : Thread nD τ).loc main_arg3) :=
  (show StableHlo.after hostOps2 (W4 m ρ c) (Proc.devRef .tc main_arg3) = W4 m ρ c (Proc.devRef .tc main_arg3) by host_keep hostOps2).trans
    (W4_arg3 m ρ c)
theorem W5_arg9 (c : Dev nD) :
    W5 (F := Ideal) m ρ c (Proc.devRef .tc main_arg9) = m ((c : Thread nD τ).loc main_arg9) :=
  (show StableHlo.after hostOps2 (W4 m ρ c) (Proc.devRef .tc main_arg9) = W4 m ρ c (Proc.devRef .tc main_arg9) by host_keep hostOps2).trans
    (W4_arg9 m ρ c)
theorem W5_arg10 (c : Dev nD) :
    W5 (F := Ideal) m ρ c (Proc.devRef .tc main_arg10) = m ((c : Thread nD τ).loc main_arg10) :=
  (show StableHlo.after hostOps2 (W4 m ρ c) (Proc.devRef .tc main_arg10) = W4 m ρ c (Proc.devRef .tc main_arg10) by host_keep hostOps2).trans
    (W4_arg10 m ρ c)
theorem W5_arg11 (c : Dev nD) :
    W5 (F := Ideal) m ρ c (Proc.devRef .tc main_arg11) = m ((c : Thread nD τ).loc main_arg11) :=
  (show StableHlo.after hostOps2 (W4 m ρ c) (Proc.devRef .tc main_arg11) = W4 m ρ c (Proc.devRef .tc main_arg11) by host_keep hostOps2).trans
    (W4_arg11 m ρ c)
theorem W5_arg12 (c : Dev nD) :
    W5 (F := Ideal) m ρ c (Proc.devRef .tc main_arg12) = m ((c : Thread nD τ).loc main_arg12) :=
  (show StableHlo.after hostOps2 (W4 m ρ c) (Proc.devRef .tc main_arg12) = W4 m ρ c (Proc.devRef .tc main_arg12) by host_keep hostOps2).trans
    (W4_arg12 m ρ c)

/-! ### At the third region's exit: the second layer's features -/

theorem W6_v30 (c : Dev nD) :
    W6 (F := Ideal) m ρ c (Proc.devRef .tc main_v30) = MeanField.layer (poolOf (m ((c : Thread nD τ).loc main_arg2)) (m ((c : Thread nD τ).loc main_arg3)) (MeanField.layer (poolOf (m ((c : Thread nD τ).loc main_arg2)) (m ((c : Thread nD τ).loc main_arg3)) (MeanField.clamp (MeanField.messageOfAgg (m ((c : Thread nD τ).loc main_arg0)) (aggOf (m ((c : Thread nD τ).loc main_arg1)) (m ((c : Thread nD τ).loc main_arg3))) (m ((c : Thread nD τ).loc main_arg5)) (m ((c : Thread nD τ).loc main_arg6)) (m ((c : Thread nD τ).loc main_arg7)) (m ((c : Thread nD τ).loc main_arg8))))) (m ((c : Thread nD τ).loc main_arg9)) (m ((c : Thread nD τ).loc main_arg10)) (MeanField.messageOfAgg (m ((c : Thread nD τ).loc main_arg0)) (aggOf (m ((c : Thread nD τ).loc main_arg1)) (m ((c : Thread nD τ).loc main_arg3))) (m ((c : Thread nD τ).loc main_arg5)) (m ((c : Thread nD τ).loc main_arg6)) (m ((c : Thread nD τ).loc main_arg7)) (m ((c : Thread nD τ).loc main_arg8))))) (m ((c : Thread nD τ).loc main_arg9)) (m ((c : Thread nD τ).loc main_arg10)) (MeanField.messageOfAgg (m ((c : Thread nD τ).loc main_arg0)) (aggOf (m ((c : Thread nD τ).loc main_arg1)) (m ((c : Thread nD τ).loc main_arg3))) (m ((c : Thread nD τ).loc main_arg5)) (m ((c : Thread nD τ).loc main_arg6)) (m ((c : Thread nD τ).loc main_arg7)) (m ((c : Thread nD τ).loc main_arg8))) := by
  refine (W6_arr m ρ c 4).trans ((region2_out (V5 m ρ) c).trans ?_)
  show MeanField.layer (W5 m ρ c (Proc.devRef .tc main_v29)) (W5 m ρ c (Proc.devRef .tc main_arg9)) (W5 m ρ c (Proc.devRef .tc main_arg10)) (W5 m ρ c (Proc.devRef .tc main_v6_0)) = _
  rw [W5_v29 m ρ c, W5_arg9 m ρ c, W5_arg10 m ρ c, W5_v6_0 m ρ c]
theorem W6_v6_0 (c : Dev nD) :
    W6 (F := Ideal) m ρ c (Proc.devRef .tc main_v6_0) = MeanField.messageOfAgg (m ((c : Thread nD τ).loc main_arg0)) (aggOf (m ((c : Thread nD τ).loc main_arg1)) (m ((c : Thread nD τ).loc main_arg3))) (m ((c : Thread nD τ).loc main_arg5)) (m ((c : Thread nD τ).loc main_arg6)) (m ((c : Thread nD τ).loc main_arg7)) (m ((c : Thread nD τ).loc main_arg8)) :=
  ((W6_arr m ρ c 3).trans (((dat2 (V5 m ρ) c).arrAt_in 3 rfl _).trans (A_eq2 (V5 m ρ) c 3))).trans
    (W5_v6_0 m ρ c)
theorem W6_arg9 (c : Dev nD) :
    W6 (F := Ideal) m ρ c (Proc.devRef .tc main_arg9) = m ((c : Thread nD τ).loc main_arg9) :=
  ((W6_arr m ρ c 1).trans (((dat2 (V5 m ρ) c).arrAt_in 1 rfl _).trans (A_eq2 (V5 m ρ) c 1))).trans
    (W5_arg9 m ρ c)
theorem W6_arg10 (c : Dev nD) :
    W6 (F := Ideal) m ρ c (Proc.devRef .tc main_arg10) = m ((c : Thread nD τ).loc main_arg10) :=
  ((W6_arr m ρ c 2).trans (((dat2 (V5 m ρ) c).arrAt_in 2 rfl _).trans (A_eq2 (V5 m ρ) c 2))).trans
    (W5_arg10 m ρ c)
theorem W6_v0 (c : Dev nD) :
    W6 (F := Ideal) m ρ c (Proc.devRef .tc main_v0) = idColOf (m ((c : Thread nD τ).loc main_arg4)) :=
  (W6_of_ne m ρ c main_v0 (by decide)).trans (W5_v0 m ρ c)
theorem W6_arg2 (c : Dev nD) :
    W6 (F := Ideal) m ρ c (Proc.devRef .tc main_arg2) = m ((c : Thread nD τ).loc main_arg2) :=
  (W6_of_ne m ρ c main_arg2 (by decide)).trans (W5_arg2 m ρ c)
theorem W6_arg3 (c : Dev nD) :
    W6 (F := Ideal) m ρ c (Proc.devRef .tc main_arg3) = m ((c : Thread nD τ).loc main_arg3) :=
  (W6_of_ne m ρ c main_arg3 (by decide)).trans (W5_arg3 m ρ c)
theorem W6_arg11 (c : Dev nD) :
    W6 (F := Ideal) m ρ c (Proc.devRef .tc main_arg11) = m ((c : Thread nD τ).loc main_arg11) :=
  (W6_of_ne m ρ c main_arg11 (by decide)).trans (W5_arg11 m ρ c)
theorem W6_arg12 (c : Dev nD) :
    W6 (F := Ideal) m ρ c (Proc.devRef .tc main_arg12) = m ((c : Thread nD τ).loc main_arg12) :=
  (W6_of_ne m ρ c main_arg12 (by decide)).trans (W5_arg12 m ρ c)

/-! ### At the fourth region's entry -/

theorem W7_v41 (c : Dev nD) :
    W7 (F := Ideal) m ρ c (Proc.devRef .tc main_v41) = poolOf (m ((c : Thread nD τ).loc main_arg2)) (m ((c : Thread nD τ).loc main_arg3)) (MeanField.layer (poolOf (m ((c : Thread nD τ).loc main_arg2)) (m ((c : Thread nD τ).loc main_arg3)) (MeanField.layer (poolOf (m ((c : Thread nD τ).loc main_arg2)) (m ((c : Thread nD τ).loc main_arg3)) (MeanField.clamp (MeanField.messageOfAgg (m ((c : Thread nD τ).loc main_arg0)) (aggOf (m ((c : Thread nD τ).loc main_arg1)) (m ((c : Thread nD τ).loc main_arg3))) (m ((c : Thread nD τ).loc main_arg5)) (m ((c : Thread nD τ).loc main_arg6)) (m ((c : Thread nD τ).loc main_arg7)) (m ((c : Thread nD τ).loc main_arg8))))) (m ((c : Thread nD τ).loc main_arg9)) (m ((c : Thread nD τ).loc main_arg10)) (MeanField.messageOfAgg (m ((c : Thread nD τ).loc main_arg0)) (aggOf (m ((c : Thread nD τ).loc main_arg1)) (m ((c : Thread nD τ).loc main_arg3))) (m ((c : Thread nD τ).loc main_arg5)) (m ((c : Thread nD τ).loc main_arg6)) (m ((c : Thread nD τ).loc main_arg7)) (m ((c : Thread nD τ).loc main_arg8))))) (m ((c : Thread nD τ).loc main_arg9)) (m ((c : Thread nD τ).loc main_arg10)) (MeanField.messageOfAgg (m ((c : Thread nD τ).loc main_arg0)) (aggOf (m ((c : Thread nD τ).loc main_arg1)) (m ((c : Thread nD τ).loc main_arg3))) (m ((c : Thread nD τ).loc main_arg5)) (m ((c : Thread nD τ).loc main_arg6)) (m ((c : Thread nD τ).loc main_arg7)) (m ((c : Thread nD τ).loc main_arg8)))) := by
  show StableHlo.after hostOps3 (W6 m ρ c) (Proc.devRef .tc main_v41) = _
  simp only [hostOps3]
  after_results_simp
  rw [W6_arg2 m ρ c, W6_arg3 m ρ c, W6_v30 m ρ c]
  rfl
theorem W7_v6_0 (c : Dev nD) :
    W7 (F := Ideal) m ρ c (Proc.devRef .tc main_v6_0) = MeanField.messageOfAgg (m ((c : Thread nD τ).loc main_arg0)) (aggOf (m ((c : Thread nD τ).loc main_arg1)) (m ((c : Thread nD τ).loc main_arg3))) (m ((c : Thread nD τ).loc main_arg5)) (m ((c : Thread nD τ).loc main_arg6)) (m ((c : Thread nD τ).loc main_arg7)) (m ((c : Thread nD τ).loc main_arg8)) :=
  (show StableHlo.after hostOps3 (W6 m ρ c) (Proc.devRef .tc main_v6_0) = W6 m ρ c (Proc.devRef .tc main_v6_0) by host_keep hostOps3).trans
    (W6_v6_0 m ρ c)
theorem W7_v0 (c : Dev nD) :
    W7 (F := Ideal) m ρ c (Proc.devRef .tc main_v0) = idColOf (m ((c : Thread nD τ).loc main_arg4)) :=
  (show StableHlo.after hostOps3 (W6 m ρ c) (Proc.devRef .tc main_v0) = W6 m ρ c (Proc.devRef .tc main_v0) by host_keep hostOps3).trans
    (W6_v0 m ρ c)
theorem W7_arg9 (c : Dev nD) :
    W7 (F := Ideal) m ρ c (Proc.devRef .tc main_arg9) = m ((c : Thread nD τ).loc main_arg9) :=
  (show StableHlo.after hostOps3 (W6 m ρ c) (Proc.devRef .tc main_arg9) = W6 m ρ c (Proc.devRef .tc main_arg9) by host_keep hostOps3).trans
    (W6_arg9 m ρ c)
theorem W7_arg10 (c : Dev nD) :
    W7 (F := Ideal) m ρ c (Proc.devRef .tc main_arg10) = m ((c : Thread nD τ).loc main_arg10) :=
  (show StableHlo.after hostOps3 (W6 m ρ c) (Proc.devRef .tc main_arg10) = W6 m ρ c (Proc.devRef .tc main_arg10) by host_keep hostOps3).trans
    (W6_arg10 m ρ c)
theorem W7_arg11 (c : Dev nD) :
    W7 (F := Ideal) m ρ c (Proc.devRef .tc main_arg11) = m ((c : Thread nD τ).loc main_arg11) :=
  (show StableHlo.after hostOps3 (W6 m ρ c) (Proc.devRef .tc main_arg11) = W6 m ρ c (Proc.devRef .tc main_arg11) by host_keep hostOps3).trans
    (W6_arg11 m ρ c)
theorem W7_arg12 (c : Dev nD) :
    W7 (F := Ideal) m ρ c (Proc.devRef .tc main_arg12) = m ((c : Thread nD τ).loc main_arg12) :=
  (show StableHlo.after hostOps3 (W6 m ρ c) (Proc.devRef .tc main_arg12) = W6 m ρ c (Proc.devRef .tc main_arg12) by host_keep hostOps3).trans
    (W6_arg12 m ρ c)

/-! ### At the fourth region's exit, which is the readout region's entry: the third layer's features -/

theorem W8_v42 (c : Dev nD) :
    W8 (F := Ideal) m ρ c (Proc.devRef .tc main_v42) = MeanField.layer (poolOf (m ((c : Thread nD τ).loc main_arg2)) (m ((c : Thread nD τ).loc main_arg3)) (MeanField.layer (poolOf (m ((c : Thread nD τ).loc main_arg2)) (m ((c : Thread nD τ).loc main_arg3)) (MeanField.layer (poolOf (m ((c : Thread nD τ).loc main_arg2)) (m ((c : Thread nD τ).loc main_arg3)) (MeanField.clamp (MeanField.messageOfAgg (m ((c : Thread nD τ).loc main_arg0)) (aggOf (m ((c : Thread nD τ).loc main_arg1)) (m ((c : Thread nD τ).loc main_arg3))) (m ((c : Thread nD τ).loc main_arg5)) (m ((c : Thread nD τ).loc main_arg6)) (m ((c : Thread nD τ).loc main_arg7)) (m ((c : Thread nD τ).loc main_arg8))))) (m ((c : Thread nD τ).loc main_arg9)) (m ((c : Thread nD τ).loc main_arg10)) (MeanField.messageOfAgg (m ((c : Thread nD τ).loc main_arg0)) (aggOf (m ((c : Thread nD τ).loc main_arg1)) (m ((c : Thread nD τ).loc main_arg3))) (m ((c : Thread nD τ).loc main_arg5)) (m ((c : Thread nD τ).loc main_arg6)) (m ((c : Thread nD τ).loc main_arg7)) (m ((c : Thread nD τ).loc main_arg8))))) (m ((c : Thread nD τ).loc main_arg9)) (m ((c : Thread nD τ).loc main_arg10)) (MeanField.messageOfAgg (m ((c : Thread nD τ).loc main_arg0)) (aggOf (m ((c : Thread nD τ).loc main_arg1)) (m ((c : Thread nD τ).loc main_arg3))) (m ((c : Thread nD τ).loc main_arg5)) (m ((c : Thread nD τ).loc main_arg6)) (m ((c : Thread nD τ).loc main_arg7)) (m ((c : Thread nD τ).loc main_arg8))))) (m ((c : Thread nD τ).loc main_arg9)) (m ((c : Thread nD τ).loc main_arg10)) (MeanField.messageOfAgg (m ((c : Thread nD τ).loc main_arg0)) (aggOf (m ((c : Thread nD τ).loc main_arg1)) (m ((c : Thread nD τ).loc main_arg3))) (m ((c : Thread nD τ).loc main_arg5)) (m ((c : Thread nD τ).loc main_arg6)) (m ((c : Thread nD τ).loc main_arg7)) (m ((c : Thread nD τ).loc main_arg8))) := by
  refine (W8_arr m ρ c 4).trans ((region3_out (V7 m ρ) c).trans ?_)
  show MeanField.layer (W7 m ρ c (Proc.devRef .tc main_v41)) (W7 m ρ c (Proc.devRef .tc main_arg9)) (W7 m ρ c (Proc.devRef .tc main_arg10)) (W7 m ρ c (Proc.devRef .tc main_v6_0)) = _
  rw [W7_v41 m ρ c, W7_arg9 m ρ c, W7_arg10 m ρ c, W7_v6_0 m ρ c]
theorem W8_v0 (c : Dev nD) :
    W8 (F := Ideal) m ρ c (Proc.devRef .tc main_v0) = idColOf (m ((c : Thread nD τ).loc main_arg4)) :=
  (W8_of_ne m ρ c main_v0 (by decide)).trans (W7_v0 m ρ c)
theorem W8_arg11 (c : Dev nD) :
    W8 (F := Ideal) m ρ c (Proc.devRef .tc main_arg11) = m ((c : Thread nD τ).loc main_arg11) :=
  (W8_of_ne m ρ c main_arg11 (by decide)).trans (W7_arg11 m ρ c)
theorem W8_arg12 (c : Dev nD) :
    W8 (F := Ideal) m ρ c (Proc.devRef .tc main_arg12) = m ((c : Thread nD τ).loc main_arg12) :=
  (W8_of_ne m ρ c main_arg12 (by decide)).trans (W7_arg12 m ρ c)

/-- The result buffer at the last boundary of the fold is the kernel's function of the launch arguments. -/
theorem fold_result (c : Dev nD) :
    W9 (F := Ideal) m ρ c (Proc.devRef .tc main_v43) = kernelValue (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W9_arr m ρ c 4).trans ((region4_out (V8 m ρ) c).trans ?_)
  show MeanField.readoutByTiles 25 4000 (W8 m ρ c (Proc.devRef .tc main_v42)) (W8 m ρ c (Proc.devRef .tc main_arg11)) (W8 m ρ c (Proc.devRef .tc main_arg12)) (W8 m ρ c (Proc.devRef .tc main_v0)) = _
  rw [W8_v42 m ρ c, W8_arg11 m ρ c, W8_arg12 m ρ c, W8_v0 m ρ c]
  rfl

end Cert.KernelIdeal.FoldValue

end
-- ==== Proof.LibScatterRows.lean ====
/-
  A scatter-add by rows, read at an entry.

  The operand is an [N x C] matrix, the scatter indices an [M x 1] column of words and the updates an [M x C]
  matrix; update row `e` is added to the operand row whose number is the word in row `e` of the index column read
  as a signed integer, column by column.  A row whose index is negative or at least `N` lands nowhere.  So entry
  `(p, q)` of the result is the operand's entry plus the sum of `upd (e, q)` over the rows `e` whose index is `p`.
-/
import Idealize.ShloMosaic.PureOps.Ideal
import Idealize.ShloMosaic.Lib.ValueIdx

noncomputable section

open Idealize.ShloMosaic Idealize.ShloMosaic.ValueIdx

namespace ScatterRows

variable {N C M w : Nat}

/-- An update index lands on operand index `i` exactly when, on every axis, the window's start plus the window
    coordinate is `i`'s coordinate. -/
theorem resultIdx_eq_some_iff_forall {s si u : Shape} (d : ScatterDims s si u) (j : u.Idx) (idx : IVec si w)
    (i : s.Idx) :
    d.resultIdx? j idx = some i ↔ ∀ a, d.start j idx a + (d.window j a : ℕ) = ((i a).val : ℤ) := by
  unfold ScatterDims.resultIdx?
  split_ifs with h
  · rw [Option.some_inj]
    constructor
    · intro hf a
      have ha : (d.start j idx a + (d.window j a : ℕ)).toNat = (i a).val := congrArg Fin.val (congrFun hf a)
      have := (h a).1
      omega
    · intro H
      funext a
      refine Fin.ext ?_
      show (d.start j idx a + (d.window j a : ℕ)).toNat = (i a).val
      rw [H a]; omega
  · constructor
    · intro hf; cases hf
    · intro H
      exfalso; apply h
      intro a
      rw [H a]
      have := (i a).isLt
      omega

/-- The dimension numbers of a scatter by rows, as a literal record. -/
abbrev rowsDims (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ := ⟨[1], [0], [0], 1, wf⟩

/-- On the row axis the window starts at row `e`'s index word, read signed. -/
theorem start0 (wf) (idx : IVec ⟨2, ![M, 1]⟩ w) (e : Fin M) (q : Fin C) :
    (rowsDims (N := N) wf).start (ix2 e q) idx 0 = (idx (ix2 e 0)).toInt := by
  unfold ScatterDims.start
  rw [dif_pos (List.mem_singleton.mpr rfl)]
  congr 2
  funext b; refine Fin.ext ?_
  match b with
  | ⟨0, _⟩ => rfl
  | ⟨1, _⟩ => rfl

/-- On the column axis, which the index map does not name, the window starts at `0`. -/
theorem start1 (wf) (idx : IVec ⟨2, ![M, 1]⟩ w) (e : Fin M) (q : Fin C) :
    (rowsDims (N := N) wf).start (ix2 e q) idx 1 = 0 := by
  unfold ScatterDims.start
  rw [dif_neg (show (1 : Fin 2) ∉ ([0] : List (Fin 2)) by decide)]

/-- The row axis is an inserted window axis: its window coordinate is `0`. -/
theorem window0 (wf) (e : Fin M) (q : Fin C) :
    (rowsDims (N := N) wf).window (ix2 e q) 0 = 0 := by
  unfold ScatterDims.window
  rw [dif_neg (show (0 : Fin 2) ∉ (Shape.kept ⟨2, ![N, C]⟩ [0]) by simp [Shape.kept])]

/-- The column axis is the one window axis: its window coordinate is the update's column. -/
theorem window1 (wf) (e : Fin M) (q : Fin C) :
    (rowsDims (N := N) wf).window (ix2 e q) 1 = q.val := by
  unfold ScatterDims.window
  rw [dif_pos (show (1 : Fin 2) ∈ (Shape.kept ⟨2, ![N, C]⟩ [0]) by simp [Shape.kept])]
  rfl

/-- The landing rule for the literal record. -/
theorem resultIdx_rowsDims (wf) (idx : IVec ⟨2, ![M, 1]⟩ w) (e : Fin M) (q : Fin C) (p : Fin N) (q' : Fin C) :
    (rowsDims wf).resultIdx? (ix2 e q) idx = some (ix2 p q')
      ↔ (idx (ix2 e 0)).toInt = (p.val : ℤ) ∧ q = q' := by
  rw [resultIdx_eq_some_iff_forall]
  constructor
  · intro H
    have h0 : (rowsDims wf).start (ix2 e q) idx 0 + ((rowsDims wf).window (ix2 e q) 0 : ℕ) = (p.val : ℤ) := H 0
    have h1 : (rowsDims wf).start (ix2 e q) idx 1 + ((rowsDims wf).window (ix2 e q) 1 : ℕ) = (q'.val : ℤ) := H 1
    rw [start0, window0] at h0
    rw [start1, window1] at h1
    exact ⟨by omega, Fin.ext (by omega)⟩
  · rintro ⟨hp, rfl⟩
    have H0 : (rowsDims wf).start (ix2 e q) idx 0 + ((rowsDims wf).window (ix2 e q) 0 : ℕ) = (p.val : ℤ) := by
      rw [start0, window0]; omega
    have H1 : (rowsDims wf).start (ix2 e q) idx 1 + ((rowsDims wf).window (ix2 e q) 1 : ℕ) = (q.val : ℤ) := by
      rw [start1, window1]; omega
    intro a
    match a with
    | ⟨0, _⟩ => exact H0
    | ⟨1, _⟩ => exact H1

/-- Update entry `(e, q)` lands on operand entry `(p, q')` exactly when row `e`'s index, read signed, is `p` and
    the columns agree. -/
theorem resultIdx_eq_some_iff (d : ScatterDims ⟨2, ![N, C]⟩ ⟨2, ![M, 1]⟩ ⟨2, ![M, C]⟩)
    (hu : d.updateWindowDims = [1]) (hi : d.insertedWindowDims = [0]) (hs : d.scatterDimsToOperandDims = [0])
    (hv : d.indexVectorDim = 1) (idx : IVec ⟨2, ![M, 1]⟩ w) (e : Fin M) (q : Fin C) (p : Fin N) (q' : Fin C) :
    d.resultIdx? (ix2 e q) idx = some (ix2 p q') ↔ (idx (ix2 e 0)).toInt = (p.val : ℤ) ∧ q = q' := by
  obtain ⟨uw, iw, sd, iv, wf⟩ := d
  dsimp only at hu hi hs hv
  subst hu hi hs hv
  exact resultIdx_rowsDims wf idx e q p q'

/-- The host's accumulating scatter by rows at entry `(p, q)`: the operand's entry plus the sum of the updates'
    column `q` over the rows whose index is `p`. -/
theorem hostScatterAdd_rows_apply (d : ScatterDims ⟨2, ![N, C]⟩ ⟨2, ![M, 1]⟩ ⟨2, ![M, C]⟩)
    (hu : d.updateWindowDims = [1]) (hi : d.insertedWindowDims = [0]) (hs : d.scatterDimsToOperandDims = [0])
    (hv : d.indexVectorDim = 1) (x : (⟨2, ![N, C]⟩ : Shape).Idx → EReal) (idx : IVec ⟨2, ![M, 1]⟩ w)
    (upd : (⟨2, ![M, C]⟩ : Shape).Idx → EReal) (p : Fin N) (q : Fin C) :
    Ideal.hostScatterAdd d x idx upd (ix2 p q)
      = x (ix2 p q) + ∑ e ∈ Finset.univ.filter (fun e : Fin M => (idx (ix2 e 0)).toInt = (p.val : ℤ)), upd (ix2 e q) := by
  unfold Ideal.hostScatterAdd
  congr 1
  -- Both sums as sums of `if`s; the left one over rows and columns; in row `e` only column `q` can land.
  rw [Finset.sum_filter, Finset.sum_filter, sum_idx2]
  refine Finset.sum_congr rfl fun e _ => ?_
  simp only [resultIdx_eq_some_iff d hu hi hs hv]
  by_cases hP : (idx (ix2 e 0)).toInt = (p.val : ℤ)
  · simp [hP]
  · simp [hP]

end ScatterRows

end
-- ==== Proof.ReferenceTerm.lean ====
/-
  The reference program's result as one function of its arguments, layer by layer.

  The reference is host operations only.  Its input message is (node · wn + bn) plus the sum by edge destination of
  the projected edge features edge · we + be; three times it pools the clamped features over neighbours (gather by
  edge source, a negative source wrapped once, sum by edge destination) and applies
  max (pool · wc + bc + message) 0; the readout projects, clamps, sums the rows by graph id and clamps the sums.
  Entry by entry a host matrix product is the sum over the contracted axis, a broadcast bias reads its column, and
  the sum by rows of an [N x 1] index column reads the rows whose index names the segment.
-/
import proofs.«400930_j41970420417062_2_alg».proof.Proof.Gen.ReferenceIdeal.Run
import proofs.«400930_j41970420417062_2_alg».proof.Proof.Gen.ReferenceIdeal.Read
import proofs.«400930_j41970420417062_2_alg».proof.Proof.Spec
import proofs.«400930_j41970420417062_2_alg».proof.Proof.LibScatterRows
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.ShloMosaic.ValueIdx Idealize.SL.Sem

namespace Cert.ReferenceIdeal.TermValue

open Cert.ReferenceIdeal Cert.ReferenceIdeal.Gen

/-- The per-node sum, by edge destination, of the projected edge features `edge · we + be`. -/
def sumOf (x1 : FVec Ideal S1600000x16 .f32) (x3 : IVec S1600000 32) (x7 : FVec Ideal S16x128 .f32) (x8 : FVec Ideal S128 .f32) :
    FVec Ideal S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 x3)
    (addf (Host.dotGeneral dot_S1600000x16_S16x128_S1600000x128_1_0_0_1_n_n none x1 x7)
      (broadcastInDim S1600000x128 ![0, 1] bcast_S1x128_S1600000x128_0_1 (broadcastInDim S1x128 ![1] bcast_S128_S1x128_1 x8)))

/-- The graph ids as a column. -/
def idColOf (x4 : IVec S100000 32) : IVec S100000x1 32 := broadcastInDim S100000x1 ![0] bcast_S100000_S100000x1_0 x4

/-- Neighbour pooling of node features `h`: gather the row of each edge's source (a negative source wrapped by the
    number of nodes) and sum by edge destination. -/
def poolOf (x2 x3 : IVec S1600000 32) (h : FVec Ideal S100000x128 .f32) : FVec Ideal S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 x3)
    (Host.gather gather_S100000x128_S1600000x1_S1600000x128_1_0_n_n_0_1_1128 h
      (broadcastInDim S1600000x1 ![0] bcast_S1600000_S1600000x1_0
        (select (cmpi .slt x2 (broadcastInDim S1600000 ![] bcast_S_S1600000 (constantI S_ 32 0#32)))
          (addi x2 (broadcastInDim S1600000 ![] bcast_S_S1600000 (constantI S_ 32 100000#32))) x2)))

/-- The reference program's result of its thirteen arguments. -/
def referenceValue (x0 : FVec Ideal S100000x128 .f32) (x1 : FVec Ideal S1600000x16 .f32) (x2 x3 : IVec S1600000 32)
    (x4 : IVec S100000 32) (x5 : FVec Ideal S128x128 .f32) (x6 : FVec Ideal S128 .f32) (x7 : FVec Ideal S16x128 .f32)
    (x8 : FVec Ideal S128 .f32) (x9 : FVec Ideal S128x128 .f32) (x10 : FVec Ideal S128 .f32) (x11 : FVec Ideal S128x128 .f32)
    (x12 : FVec Ideal S128 .f32) : MeanField.Mat 64 128 :=
  let im : MeanField.Mat 100000 128 := MeanField.messageOfSum x0 x5 x6 (sumOf x1 x3 x7 x8)
  let h1 : MeanField.Mat 100000 128 := MeanField.layer (poolOf x2 x3 (MeanField.clamp im)) x9 x10 im
  let h2 : MeanField.Mat 100000 128 := MeanField.layer (poolOf x2 x3 h1) x9 x10 im
  let h3 : MeanField.Mat 100000 128 := MeanField.layer (poolOf x2 x3 h2) x9 x10 im
  MeanField.readoutBySegment h3 x11 x12 (idColOf x4)

/-- Entry `(p, q)` of the host matrix product of a node matrix and a weight matrix. -/
theorem dot_apply (x : FVec Ideal S100000x128 .f32) (w : FVec Ideal S128x128 .f32) (p : Fin 100000) (q : Fin 128) :
    Host.dotGeneral dot_S100000x128_S128x128_S100000x128_1_0_0_1_n_n none x w (ix2 p q) = MeanField.mmAt x w p q := by
  have h := Read.val_main_v0_apply x w (ix2 p q)
  unfold Read.val_main_v0 at h
  rw [h]
  unfold MeanField.mmAt
  refine Finset.sum_congr rfl fun k _ => ?_
  have el : Read.lidx_main_v0 (ix2 p q) k = ix2 p k :=
    funext fun a => Fin.ext (by match a with | ⟨0, _⟩ => rfl | ⟨1, _⟩ => rfl)
  have er : Read.ridx_main_v0 (ix2 p q) k = ix2 k q :=
    funext fun a => Fin.ext (by match a with | ⟨0, _⟩ => rfl | ⟨1, _⟩ => rfl)
  rw [el, er]

/-- Entry `(p, q)` of a bias row broadcast along the rows. -/
theorem bias_apply (b : FVec Ideal S128 .f32) (p : Fin 100000) (q : Fin 128) :
    broadcastInDim S100000x128 ![0, 1] bcast_S1x128_S100000x128_0_1 (broadcastInDim S1x128 ![1] bcast_S128_S1x128_1 b) (ix2 p q)
      = b (ix1 q) := by
  have h2 := Read.val_main_v2_apply (F := Ideal) b (ix2 p q)
  have h1 := Read.val_main_v1_apply (F := Ideal) b (Read.idx_main_v2 (ix2 p q))
  unfold Read.val_main_v2 at h2
  unfold Read.val_main_v1 at h1 h2
  rw [h2, h1]
  congr 1
  funext a
  match a with
  | ⟨0, _⟩ => rfl

/-- Entry of the broadcast zero. -/
theorem zero_apply (i : S100000x128.Idx) :
    broadcastInDim S100000x128 ![] bcast_S_S100000x128 (constant (F := Ideal) S_ .f32 0x00000000#32) i = (0 : EReal) := by
  have h := Read.val_main_v8_apply (F := Ideal) i
  unfold Read.val_main_v8 Read.val_main_cst at h
  rw [h, constant_apply, Ideal.ofBits_zero_f32]

/-- Entry of the broadcast zero of the readout's shape. -/
theorem zero64_apply (i : S64x128.Idx) :
    broadcastInDim S64x128 ![] bcast_S_S64x128 (constant (F := Ideal) S_ .f32 0x00000000#32) i = (0 : EReal) := by
  have h := Read.val_main_v66_apply (F := Ideal) i
  unfold Read.val_main_v66 Read.val_main_cst_8 at h
  rw [h, constant_apply, Ideal.ofBits_zero_f32]

/-- The node projection plus its bias plus the edge sum is the input message. -/
theorem message_eq (x0 : FVec Ideal S100000x128 .f32) (x5 : FVec Ideal S128x128 .f32) (x6 : FVec Ideal S128 .f32)
    (s : FVec Ideal S100000x128 .f32) :
    addf (addf (Host.dotGeneral dot_S100000x128_S128x128_S100000x128_1_0_0_1_n_n none x0 x5)
        (broadcastInDim S100000x128 ![0, 1] bcast_S1x128_S100000x128_0_1 (broadcastInDim S1x128 ![1] bcast_S128_S1x128_1 x6))) s
      = MeanField.messageOfSum x0 x5 x6 s := by
  funext i
  obtain ⟨p, q, rfl⟩ : ∃ (p : Fin 100000) (q : Fin 128), i = ix2 p q := ⟨i 0, i 1, eq_ix2 i⟩
  rw [addf_apply, addf_apply, dot_apply, bias_apply]
  rfl

/-- The maximum with the broadcast zero is the clamp. -/
theorem clamp_eq (x : FVec Ideal S100000x128 .f32) :
    maximumf x (broadcastInDim S100000x128 ![] bcast_S_S100000x128 (constant (F := Ideal) S_ .f32 0x00000000#32))
      = MeanField.clamp x := by
  funext i
  rw [maximumf_apply, zero_apply]
  rfl

/-- One layer: the product plus its bias plus the residual, clamped. -/
theorem layer_eq (p : FVec Ideal S100000x128 .f32) (w : FVec Ideal S128x128 .f32) (b : FVec Ideal S128 .f32)
    (r : FVec Ideal S100000x128 .f32) :
    maximumf (addf (addf (Host.dotGeneral dot_S100000x128_S128x128_S100000x128_1_0_0_1_n_n none p w)
        (broadcastInDim S100000x128 ![0, 1] bcast_S1x128_S100000x128_0_1 (broadcastInDim S1x128 ![1] bcast_S128_S1x128_1 b))) r)
      (broadcastInDim S100000x128 ![] bcast_S_S100000x128 (constant (F := Ideal) S_ .f32 0x00000000#32))
      = MeanField.layer p w b r := by
  funext i
  obtain ⟨n, q, rfl⟩ : ∃ (n : Fin 100000) (q : Fin 128), i = ix2 n q := ⟨i 0, i 1, eq_ix2 i⟩
  rw [maximumf_apply, zero_apply, addf_apply, addf_apply, dot_apply, bias_apply]
  rfl

/-- The output projection plus its bias, clamped. -/
theorem act_eq (h : FVec Ideal S100000x128 .f32) (w : FVec Ideal S128x128 .f32) (b : FVec Ideal S128 .f32) :
    maximumf (addf (Host.dotGeneral dot_S100000x128_S128x128_S100000x128_1_0_0_1_n_n none h w)
        (broadcastInDim S100000x128 ![0, 1] bcast_S1x128_S100000x128_0_1 (broadcastInDim S1x128 ![1] bcast_S128_S1x128_1 b)))
      (broadcastInDim S100000x128 ![] bcast_S_S100000x128 (constant (F := Ideal) S_ .f32 0x00000000#32))
      = MeanField.act h w b := by
  funext i
  obtain ⟨n, q, rfl⟩ : ∃ (n : Fin 100000) (q : Fin 128), i = ix2 n q := ⟨i 0, i 1, eq_ix2 i⟩
  rw [maximumf_apply, zero_apply, addf_apply, dot_apply, bias_apply]
  rfl

/-- The readout: the clamped projection summed by rows of the graph ids from zero, clamped. -/
theorem readout_eq (h : FVec Ideal S100000x128 .f32) (w : FVec Ideal S128x128 .f32) (b : FVec Ideal S128 .f32)
    (x4 : IVec S100000 32) :
    maximumf (Host.scatterAdd scatter_S64x128_S100000x1_S100000x128_1_0_0_1
        (broadcastInDim S64x128 ![] bcast_S_S64x128 (constant (F := Ideal) S_ .f32 0x00000000#32))
        (broadcastInDim S100000x1 ![0] bcast_S100000_S100000x1_0 x4)
        (maximumf (addf (Host.dotGeneral dot_S100000x128_S128x128_S100000x128_1_0_0_1_n_n none h w)
            (broadcastInDim S100000x128 ![0, 1] bcast_S1x128_S100000x128_0_1 (broadcastInDim S1x128 ![1] bcast_S128_S1x128_1 b)))
          (broadcastInDim S100000x128 ![] bcast_S_S100000x128 (constant (F := Ideal) S_ .f32 0x00000000#32))))
      (broadcastInDim S64x128 ![] bcast_S_S64x128 (constant (F := Ideal) S_ .f32 0x00000000#32))
      = MeanField.readoutBySegment h w b (idColOf x4) := by
  rw [act_eq]
  funext i
  obtain ⟨g, f, rfl⟩ : ∃ (g : Fin 64) (f : Fin 128), i = ix2 g f := ⟨i 0, i 1, eq_ix2 i⟩
  rw [maximumf_apply, zero64_apply]
  show max (Ideal.hostScatterAdd scatter_S64x128_S100000x1_S100000x128_1_0_0_1 _ _ _ (ix2 g f)) 0 = _
  rw [ScatterRows.hostScatterAdd_rows_apply _ rfl rfl rfl rfl, zero64_apply]
  rfl

/-- The generated run's result term is the reference's function of the launch arguments. -/
theorem result_eq (m : (ℓ : Loc nD τ sig) → Buf (Elt Ideal) ℓ) (c : Dev nD) :
    Cert.ReferenceIdeal.Value.res_out0 (F := Ideal) m c = referenceValue (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  show Cert.ReferenceIdeal.Value.res_main_v69 m c = _
  -- Each layer of the right side is written back as the host operations it equals; the two terms then coincide.
  unfold referenceValue
  simp only [← readout_eq, ← layer_eq, ← clamp_eq, ← message_eq]
  unfold Cert.ReferenceIdeal.Value.res_main_v69
  rfl

end Cert.ReferenceIdeal.TermValue

end
-- ==== Proof.MathMessage.lean ====
/-
  The two spellings of the input message agree on finite edge data.

  The reference projects every edge's features, adds the edge bias, and sums the 128 projected columns by edge
  destination.  The kernel sums the 16 raw feature columns and a column of ones by edge destination first, then
  projects the 16 sums and adds the count times the bias.  For a node p and a column q, with E_p the edges that
  arrive at p: sum over E_p of (sum_k f(e,k) w(k,q) + b(q)) = sum_k (sum over E_p of f(e,k)) w(k,q) + |E_p| b(q),
  which is exchanging two finite sums and distributing w(k,q) and b(q) over them: true of real numbers, so the edge
  features, the edge projection and the edge bias are taken real.
-/
import proofs.«400930_j41970420417062_2_alg».proof.Proof.Spec

noncomputable section

open Idealize.ShloMosaic Idealize.ShloMosaic.ValueIdx

namespace MeanField

/-- The inclusion of the reals in the extended reals carries a finite sum to the finite sum of the inclusions. -/
private theorem coe_finsetSum {ι : Type*} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- The edge-side identity over a finite set `E` of edges with real features `a`, real weights `w` and a real
    bias `b`: projecting the summed features and adding the count times the bias is summing the projected, biased
    features.  Both sides are inclusions of real numbers, and in the reals this is the exchange of the two finite
    sums together with distributing `w k` and `b` over the sum on `E`. -/
private theorem edge_side {ι : Type*} (E : Finset ι) (a : ι → Fin 16 → ℝ) (w : Fin 16 → ℝ) (b : ℝ) :
    (∑ k : Fin 16, (∑ e ∈ E, (a e k : EReal)) * (w k : EReal)) + (∑ e ∈ E, (1 : EReal)) * (b : EReal)
      = ∑ e ∈ E, ((∑ k : Fin 16, (a e k : EReal) * (w k : EReal)) + (b : EReal)) := by
  have h1 : (∑ e ∈ E, (1 : EReal)) = ((∑ e ∈ E, (1 : ℝ) : ℝ) : EReal) := by
    rw [coe_finsetSum]; rfl
  rw [h1]
  simp only [← coe_finsetSum, ← EReal.coe_mul, ← EReal.coe_add]
  congr 1
  rw [Finset.sum_add_distrib, Finset.sum_comm]
  simp only [Finset.sum_mul, one_mul]

/-- If the aggregate's feature columns hold the per-node sums of the edge features, its last column the per-node
    edge count, and `s` the per-node sums of the projected edge features, all by the same destination column, then
    the message from the aggregate is the message from `s`, for real edge features, projection and bias. -/
theorem message_eq {n m : Nat} (node : Mat n 128) (wn : Mat 128 128) (bn : Row 128)
    (f : Mat m 16) (dst : WCol m) (we : Mat 16 128) (be : Row 128) (agg : Mat n 17) (s : Mat n 128)
    (hf : ∀ i, ∃ r : ℝ, f i = (r : EReal)) (hw : ∀ i, ∃ r : ℝ, we i = (r : EReal)) (hb : ∀ i, ∃ r : ℝ, be i = (r : EReal))
    (hfeat : ∀ (p : Fin n) (j : Fin 16),
      agg (ix2 p (Fin.castLE (by omega) j)) = ∑ e ∈ rowsAt dst (p.val : ℤ), f (ix2 e j))
    (hcount : ∀ p : Fin n, agg (ix2 p (16 : Fin 17)) = ∑ e ∈ rowsAt dst (p.val : ℤ), (1 : EReal))
    (hs : ∀ (p : Fin n) (q : Fin 128),
      s (ix2 p q) = ∑ e ∈ rowsAt dst (p.val : ℤ), (mmAt f we e q + be (ix1 q))) :
    messageOfAgg node agg wn bn we be = messageOfSum node wn bn s := by
  choose fr hfr using hf
  choose wr hwr using hw
  choose br hbr using hb
  funext i
  obtain ⟨p, q, rfl⟩ : ∃ (p : Fin n) (q : Fin 128), i = ix2 p q := ⟨i 0, i 1, eq_ix2 i⟩
  show (affine node wn bn (ix2 p q) + ∑ j : Fin 16, agg (ix2 p (Fin.castLE (by omega) j)) * we (ix2 j q))
      + agg (ix2 p (16 : Fin 17)) * be (ix1 q) = affine node wn bn (ix2 p q) + s (ix2 p q)
  -- the node side `affine node wn bn (p, q)` may be infinite; it is the same summand on both sides
  rw [hcount, hs, add_assoc]
  congr 1
  -- the edge side is real throughout
  simp only [hfeat, mmAt, hfr, hwr, hbr]
  exact edge_side (rowsAt dst (p.val : ℤ)) (fun e k => fr (ix2 e k)) (fun k => wr (ix2 k q)) (br (ix1 q))

end MeanField

end
-- ==== Proof.MathReadout.lean ====
/-
  The two spellings of the graph readout agree.

  The kernel walks the nodes in tiles and adds, per tile, the one-hot matrix of the tile's graph ids transposed times
  the tile's clamped projection: entry (g, f) receives hot(id(n), g) * a(n, f) from every node n, and hot is 1 when
  the id word is g and 0 otherwise.  The reference sums a(n, f) over the nodes whose id, read as a signed integer,
  is g.  A 32-bit word equals g < 64 exactly when its signed reading is g, the node number is R * tile + row for
  exactly one (tile, row), 0 * a = 0 and 1 * a = a for every extended real a, so both are the same finite sum (no
  finiteness of a is needed).
-/
import proofs.«400930_j41970420417062_2_alg».proof.Proof.Spec

noncomputable section

open Idealize.ShloMosaic Idealize.ShloMosaic.ValueIdx

namespace MeanField

/-- For a segment number below 2^31 a word is that number exactly when its signed reading is. -/
theorem word_eq_iff_toInt_eq (a : BitVec 32) (g : Nat) (hg : g < 2 ^ 31) : a = BitVec.ofNat 32 g ↔ a.toInt = (g : ℤ) := by
  -- The signed reading of the word made from g is g itself: g lies in the balanced residue range of 2^32.
  have h : (BitVec.ofNat 32 g).toInt = (g : ℤ) := by
    rw [BitVec.toInt_ofNat']
    exact Int.bmod_eq_of_le_mul_two (by omega) (by omega)
  constructor
  · rintro rfl
    exact h
  · intro ha
    apply BitVec.eq_of_toInt_eq
    rw [ha, h]

/-- A sum over tiles and rows is the sum over the node numbers: every n below T * R is R * t + r for exactly one
    tile t below T and row r below R. -/
theorem sum_tiles (T R : Nat) (F : Fin (T * R) → EReal) (hb : ∀ (t : Fin T) (r : Fin R), t.val * R + r.val < T * R) :
    ∑ t : Fin T, ∑ r : Fin R, F ⟨t.val * R + r.val, hb t r⟩ = ∑ n : Fin (T * R), F n := by
  rw [← Fintype.sum_prod_type']
  refine Fintype.sum_equiv finProdFinEquiv _ _ (fun x => ?_)
  congr 1
  apply Fin.ext
  simp only [finProdFinEquiv_apply_val]
  rw [Nat.mul_comm, Nat.add_comm]

/-- Weighting every term by a one-hot factor keeps exactly the terms where the factor is one:
    1 * x = x and 0 * x = 0 for every extended real x. -/
theorem sum_hot_mul {m : Nat} (ids : WCol m) (g : Nat) (hg : g < 2 ^ 31) (x : Fin m → EReal) :
    ∑ n : Fin m, hot (ids (ix2 n 0)) g * x n = ∑ n ∈ rowsAt ids (g : ℤ), x n := by
  unfold rowsAt hot
  rw [Finset.sum_filter]
  refine Finset.sum_congr rfl (fun n _ => ?_)
  have hw := word_eq_iff_toInt_eq (ids (ix2 n 0)) g hg
  by_cases hc : ids (ix2 n 0) = BitVec.ofNat 32 g
  · rw [if_pos hc, if_pos (hw.mp hc), one_mul]
  · rw [if_neg hc, if_neg (mt hw.mpr hc), zero_mul]

/-- The readout tile by tile with one-hot products is the readout by segment sums. -/
theorem readout_eq (h : Mat (25 * 4000) 128) (w : Mat 128 128) (b : Row 128) (ids : WCol (25 * 4000)) :
    readoutByTiles 25 4000 h w b ids = readoutBySegment h w b ids := by
  funext i
  unfold readoutByTiles readoutBySegment segSum
  generalize act h w b = a
  have hg : (i 0 : Fin 64).val < 2 ^ 31 := by
    have h64 : (i 0 : Fin 64).val < 64 := (i 0 : Fin 64).isLt
    omega
  refine congrArg (fun x => max x (0 : EReal)) ?_
  rw [zero_add]
  refine (sum_tiles 25 4000 (fun n => hot (ids (ix2 n 0)) (i 0 : Fin 64).val * a (ix2 n (i 1))) _).trans ?_
  exact sum_hot_mul ids (i 0 : Fin 64).val hg (fun n => a (ix2 n (i 1)))

end MeanField

end
-- ==== Proof.Bridge.lean ====
/-
  The kernel program's value is the reference program's value, on finite edge data.

  Both values are three mean-field layers over an input message followed by the graph readout; they differ in three
  places.  The neighbour pooling is the same host operations on both sides (the kernel widens the gathered rows, a
  change of format that is the identity here).  The input messages agree by exchanging the edge sum with the edge
  projection, once the two sums by edge destination are read entry by entry.  The readouts agree as finite sums, and
  the two id columns read the same words.
-/
import proofs.«400930_j41970420417062_2_alg».proof.Proof.KernelFold
import proofs.«400930_j41970420417062_2_alg».proof.Proof.ReferenceTerm
import proofs.«400930_j41970420417062_2_alg».proof.Proof.LibScatterRows
import proofs.«400930_j41970420417062_2_alg».proof.Proof.MathMessage
import proofs.«400930_j41970420417062_2_alg».proof.Proof.MathReadout
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.ShloMosaic.ValueIdx

namespace Cert.Bridge

abbrev Words (n : Nat) : Type := (⟨1, ![n]⟩ : Shape).Idx → BitVec 32

/-- The edge destinations as a column: row `e` holds edge `e`'s destination word. -/
def dstCol (x3 : Words 1600000) : MeanField.WCol 1600000 :=
  broadcastInDim Cert.ReferenceIdeal.S1600000x1 ![0] Cert.ReferenceIdeal.Facts₀.bcast_S1600000_S1600000x1_0 x3

/-- Neighbour pooling is spelled by the same host operations in both programs. -/
theorem pool_eq (x2 x3 : Words 1600000) (h : MeanField.Mat 100000 128) :
    Cert.KernelIdeal.FoldValue.poolOf x2 x3 h = Cert.ReferenceIdeal.TermValue.poolOf x2 x3 h := by
  unfold Cert.KernelIdeal.FoldValue.poolOf Cert.ReferenceIdeal.TermValue.poolOf
  rfl

/-- The two programs' id columns read the same words. -/
theorem idCol_eq (x4 : Words 100000) :
    Cert.KernelIdeal.FoldValue.idColOf x4 = Cert.ReferenceIdeal.TermValue.idColOf x4 := by
  funext i
  unfold Cert.KernelIdeal.FoldValue.idColOf Cert.ReferenceIdeal.TermValue.idColOf
  rw [shapeCast_apply x4 _ i (ix1 ⟨(i 0).val, (i 0).isLt⟩) (by
      rw [Shape.rowMajor_val_two, Shape.rowMajor_val_one]
      have h1 : (i 1).val < 1 := (i 1).isLt
      show (i 0).val = (i 0).val * 1 + (i 1).val
      omega)]
  exact (broadcastInDim_apply _ _ x4 i (ix1 ⟨(i 0).val, (i 0).isLt⟩) (fun a => match a with
    | ⟨0, _⟩ => by show (i 0).val = if (100000 : Nat) = 1 then 0 else (i 0).val; rw [if_neg (by decide)])).symm

/-- The f32 word of one is the number one. -/
theorem ofBits_one_f32 : Ideal.ofBits .f32 0x3F800000#32 = 1 := by
  simp [Ideal.ofBits, Ideal.ieee]
  norm_cast
  norm_num

/-- A broadcast of the zero constant reads zero everywhere. -/
theorem zeros_apply {t : Shape} (h : (⟨0, ![]⟩ : Shape).BroadcastsInDim t ![]) (i : t.Idx) :
    broadcastInDim t ![] h (constant (F := Ideal) (⟨0, ![]⟩ : Shape) .f32 0x00000000#32) i = 0 :=
  (broadcastInDim_apply _ h _ i ix0 (fun a => a.elim0)).trans Ideal.ofBits_zero_f32

/-- A broadcast of the one constant reads one everywhere. -/
theorem ones_apply {t : Shape} (h : (⟨0, ![]⟩ : Shape).BroadcastsInDim t ![]) (i : t.Idx) :
    broadcastInDim t ![] h (constant (F := Ideal) (⟨0, ![]⟩ : Shape) .f32 0x3F800000#32) i = 1 :=
  (broadcastInDim_apply _ h _ i ix0 (fun a => a.elim0)).trans ofBits_one_f32

/-- At the exact-real instance the host's accumulating scatter is the exact sum. -/
theorem host_scatterAdd_eq {s si su : Shape} {w : Nat} (d : ScatterDims s si su) (x : FVec Ideal s .f32) (idx : IVec si w)
    (upd : FVec Ideal su .f32) : Host.scatterAdd d x idx upd = Ideal.hostScatterAdd d x idx upd := rfl

/-- The aggregate's feature column `j` at node `p` is the sum of feature `j` over the edges that arrive at `p`. -/
theorem agg_feature (x1 : MeanField.Mat 1600000 16) (x3 : Words 1600000) (p : Fin 100000) (j : Fin 16) :
    Cert.KernelIdeal.FoldValue.aggOf x1 x3 (ix2 p (Fin.castLE (by omega) j))
      = ∑ e ∈ MeanField.rowsAt (dstCol x3) (p.val : ℤ), x1 (ix2 e j) := by
  unfold Cert.KernelIdeal.FoldValue.aggOf
  rw [host_scatterAdd_eq, ScatterRows.hostScatterAdd_rows_apply _ rfl rfl rfl rfl, zeros_apply, zero_add]
  refine Finset.sum_congr (by rfl) (fun e _ => ?_)
  exact concatenate_pair_apply_left (t := Cert.KernelIdeal.S1600000x17) (s₁ := Cert.KernelIdeal.S1600000x16)
    (s₂ := Cert.KernelIdeal.S1600000x1) (1 : Fin 2) x1 _ _
    (ix2 e (Fin.castLE (by omega) j) : Cert.KernelIdeal.S1600000x17.Idx) rfl (ix2 e j)
    (fun b => match b with | ⟨0, _⟩ => rfl | ⟨1, _⟩ => rfl)

/-- The aggregate's last column at node `p` counts the edges that arrive at `p`. -/
theorem agg_count (x1 : MeanField.Mat 1600000 16) (x3 : Words 1600000) (p : Fin 100000) :
    Cert.KernelIdeal.FoldValue.aggOf x1 x3 (ix2 p (16 : Fin 17))
      = ∑ e ∈ MeanField.rowsAt (dstCol x3) (p.val : ℤ), (1 : EReal) := by
  unfold Cert.KernelIdeal.FoldValue.aggOf
  rw [host_scatterAdd_eq, ScatterRows.hostScatterAdd_rows_apply _ rfl rfl rfl rfl, zeros_apply, zero_add]
  refine Finset.sum_congr (by rfl) (fun e _ => ?_)
  refine (concatenate_pair_apply_right (t := Cert.KernelIdeal.S1600000x17) (s₁ := Cert.KernelIdeal.S1600000x16)
    (s₂ := Cert.KernelIdeal.S1600000x1) (1 : Fin 2) x1 _ _
    (ix2 e (16 : Fin 17) : Cert.KernelIdeal.S1600000x17.Idx) rfl rfl (ix2 e (0 : Fin 1))
    (fun b => match b with | ⟨0, _⟩ => fun _ => rfl | ⟨1, _⟩ => fun hne => absurd rfl hne) rfl).trans ?_
  exact ones_apply _ _

/-- The reference's edge sum at `(p, q)` adds the projected feature row plus the bias over the edges that arrive at `p`. -/
theorem sum_entry (x1 : MeanField.Mat 1600000 16) (x3 : Words 1600000) (x7 : MeanField.Mat 16 128) (x8 : MeanField.Row 128)
    (p : Fin 100000) (q : Fin 128) :
    Cert.ReferenceIdeal.TermValue.sumOf x1 x3 x7 x8 (ix2 p q)
      = ∑ e ∈ MeanField.rowsAt (dstCol x3) (p.val : ℤ), (MeanField.mmAt x1 x7 e q + x8 (ix1 q)) := by
  unfold Cert.ReferenceIdeal.TermValue.sumOf
  rw [host_scatterAdd_eq, ScatterRows.hostScatterAdd_rows_apply _ rfl rfl rfl rfl, zeros_apply, zero_add]
  refine Finset.sum_congr (by rfl) (fun e _ => ?_)
  show Cert.ReferenceIdeal.Read.val_main_v7 (F := Ideal) x1 x7 x8 (ix2 e q) = _
  rw [Cert.ReferenceIdeal.Read.val_main_v7_apply, Cert.ReferenceIdeal.Read.val_main_v4_apply,
    Cert.ReferenceIdeal.Read.val_main_v6_apply, Cert.ReferenceIdeal.Read.val_main_v5_apply]
  have hl : ∀ k : Fin 16, Cert.ReferenceIdeal.Read.lidx_main_v4 (ix2 e q) k = ix2 e k := fun k =>
    funext fun a => Fin.ext (by match a with | ⟨0, _⟩ => rfl | ⟨1, _⟩ => rfl)
  have hr : ∀ k : Fin 16, Cert.ReferenceIdeal.Read.ridx_main_v4 (ix2 e q) k = ix2 k q := fun k =>
    funext fun a => Fin.ext (by match a with | ⟨0, _⟩ => rfl | ⟨1, _⟩ => rfl)
  have hb : Cert.ReferenceIdeal.Read.idx_main_v5 (Cert.ReferenceIdeal.Read.idx_main_v6 (ix2 e q)) = ix1 q :=
    funext fun a => Fin.ext (by match a with | ⟨0, _⟩ => rfl)
  simp only [hl, hr, hb]
  rfl

/-- On real edge features, edge projection and edge bias the kernel program's value is the reference program's. -/
theorem value_eq (x0 : MeanField.Mat 100000 128) (x1 : MeanField.Mat 1600000 16) (x2 x3 : Words 1600000) (x4 : Words 100000)
    (x5 : MeanField.Mat 128 128) (x6 : MeanField.Row 128) (x7 : MeanField.Mat 16 128) (x8 : MeanField.Row 128)
    (x9 : MeanField.Mat 128 128) (x10 : MeanField.Row 128) (x11 : MeanField.Mat 128 128) (x12 : MeanField.Row 128)
    (h1 : ∀ i, ∃ r : ℝ, x1 i = (r : EReal)) (h7 : ∀ i, ∃ r : ℝ, x7 i = (r : EReal)) (h8 : ∀ i, ∃ r : ℝ, x8 i = (r : EReal)) :
    Cert.KernelIdeal.FoldValue.kernelValue x0 x1 x2 x3 x4 x5 x6 x7 x8 x9 x10 x11 x12
      = Cert.ReferenceIdeal.TermValue.referenceValue x0 x1 x2 x3 x4 x5 x6 x7 x8 x9 x10 x11 x12 := by
  have him := MeanField.message_eq x0 x5 x6 x1 (dstCol x3) x7 x8 (Cert.KernelIdeal.FoldValue.aggOf x1 x3)
    (Cert.ReferenceIdeal.TermValue.sumOf x1 x3 x7 x8) h1 h7 h8 (agg_feature x1 x3) (agg_count x1 x3) (sum_entry x1 x3 x7 x8)
  unfold Cert.KernelIdeal.FoldValue.kernelValue Cert.ReferenceIdeal.TermValue.referenceValue
  dsimp only
  rw [him]
  simp only [pool_eq]
  rw [idCol_eq, MeanField.readout_eq]

end Cert.Bridge

end
-- ==== Proof.FiniteInputs.lean ====
/-
  What the precondition gives the value proof: the edge features, the edge projection and the edge bias hold
  real numbers (no infinity) at every entry.  The precondition is the conjunction, over the ten float inputs, of
  "every entry's absolute value is below +infinity"; an extended real whose absolute value is below +infinity is
  a real number.
-/
import proofs.«400930_j41970420417062_2_alg».proof.Pre_finite_inputs
import proofs.«400930_j41970420417062_2_alg».proof.Proof.Gen.Pre_finite_inputs
import Idealize.ShloMosaic.PureOps.Ideal
import Idealize.ShloMosaic.Lib.ReduceAll
import Idealize.ShloMosaic.Lib.ValueIdx

noncomputable section

open Idealize.ShloMosaic

namespace Cert.FiniteInputs

open Cert.Pre_finite_inputs

variable [Cert.Pre_finite_inputs.Facts]

omit [Cert.Pre_finite_inputs.Facts] in
/-- An extended real whose absolute value, max a (-a), is below +infinity is a real number:
    at either infinity the maximum is +infinity itself. -/
theorem real_of_abs_lt_top (a : EReal) (h : max a (-a) < ⊤) : ∃ r : ℝ, a = r := by
  induction a using EReal.rec with
  | bot => simp at h
  | coe r => exact ⟨r, rfl⟩
  | top => simp at h

omit [Cert.Pre_finite_inputs.Facts] in
/-- The single-precision pattern 0x7F800000 denotes +infinity. -/
theorem ofBits_inf : Ideal.ofBits .f32 0x7F800000#32 = ⊤ := by simp [Ideal.ofBits, Ideal.ieee]

omit [Cert.Pre_finite_inputs.Facts] in
/-- One conjunct of the precondition, at any shape: if the conjunction over all entries of
    "|x i| < +infinity" is 1, every entry of x is a real number. -/
theorem real_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .olt (Host.absf x) (broadcastInDim s ![] hb (constant S_ .f32 0x7F800000#32)))
          (constantI S_ 1 1#1) hr hu ValueIdx.ix0 = 1#1)
    (i : s.Idx) : ∃ r : ℝ, x i = (r : EReal) := by
  haveI : Subsingleton S_.Idx := ⟨fun a b => funext fun d => d.elim0⟩
  have h1 := Host.reduce_andi_all _ _ hr hu _ e i
  have h2 : Ideal.cmp .olt (max (x i) (-(x i))) (Ideal.ofBits .f32 0x7F800000#32) = 1#1 := h1
  rw [ofBits_inf] at h2
  apply real_of_abs_lt_top
  unfold Ideal.cmp at h2
  by_contra hn
  simp [hn] at h2

/-- Under the precondition the three edge-side float inputs are real-valued at every entry. -/
theorem edge_inputs_real
    (x0 : FVec Ideal S100000x128 .f32) (x1 : FVec Ideal S1600000x16 .f32) (x2 : IVec S1600000 32) (x3 : IVec S1600000 32)
    (x4 : IVec S100000 32) (x5 : FVec Ideal S128x128 .f32) (x6 : FVec Ideal S128 .f32) (x7 : FVec Ideal S16x128 .f32)
    (x8 : FVec Ideal S128 .f32) (x9 : FVec Ideal S128x128 .f32) (x10 : FVec Ideal S128 .f32) (x11 : FVec Ideal S128x128 .f32)
    (x12 : FVec Ideal S128 .f32)
    (h : Cert.Pre_finite_inputs.fn (F := Ideal) x0 x1 x2 x3 x4 x5 x6 x7 x8 x9 x10 x11 x12 = fun _ => 1#1) :
    (∀ i, ∃ r : ℝ, x1 i = (r : EReal)) ∧ (∀ i, ∃ r : ℝ, x7 i = (r : EReal)) ∧ (∀ i, ∃ r : ℝ, x8 i = (r : EReal)) := by
  have h0 := congrFun h ValueIdx.ix0
  dsimp only [fn, fn_part1, fn_part2, Idealize.ShloMosaic.andi] at h0
  -- the chain is left-nested: peel the last four conjuncts, keep the sixth, fifth and second
  obtain ⟨h9, _⟩ := IntOp.andi_eq_one.1 h0
  obtain ⟨h8, _⟩ := IntOp.andi_eq_one.1 h9
  obtain ⟨h7, _⟩ := IntOp.andi_eq_one.1 h8
  obtain ⟨h6, _⟩ := IntOp.andi_eq_one.1 h7
  obtain ⟨h5, e8⟩ := IntOp.andi_eq_one.1 h6
  obtain ⟨h4, e7⟩ := IntOp.andi_eq_one.1 h5
  obtain ⟨h3, _⟩ := IntOp.andi_eq_one.1 h4
  obtain ⟨h2, _⟩ := IntOp.andi_eq_one.1 h3
  obtain ⟨_, e1⟩ := IntOp.andi_eq_one.1 h2
  exact ⟨real_of_all x1 _ _ _ e1, real_of_all x7 _ _ _ e7, real_of_all x8 _ _ _ e8⟩

end Cert.FiniteInputs

end
-- ==== Proof.lean ====
/-
  A mean-field graph embedding: a kernel program of five kernel regions among host scatter and gather operations
  against a plain host reference, equal over the extended reals on finite inputs.

  Both programs compute, for 100000 nodes, 1600000 edges and 64 graphs: an input message (node projection plus the
  projected features of the arriving edges), three layers max (pool(h) · wc + bc + message) 0 where pool gathers
  the neighbours' features by edge source and sums them by edge destination, and a readout that sums the clamped
  output projection over the nodes of each graph and clamps the sums.

  The kernel side.  Its run is the launch over the generated segments with the result buffer read at the last
  boundary; walking the buffer contents back through the regions and the host stretches, each region's output array
  being one function of the arrays it found (a dense layer block by block; the readout accumulated over 25 tiles with
  a one-hot matrix product), gives the result as a function of the arguments.  The reference side is its generated
  run, rewritten layer by layer into the same functions.

  They meet in three facts.  Neighbour pooling is the same host operations on both sides.  The kernel sums the raw
  edge features and a column of ones by destination and projects afterwards, the reference projects first: equal by
  exchanging two finite sums and distributing, which needs the edge features, the edge projection and the edge bias
  real, and that is where the precondition is used.  The kernel's one-hot products over tiles and the reference's
  sum over the rows carrying a graph's id are the same finite sum; an id outside 0..63 lands nowhere in either.

  The kernel's idealization rewrote no operation, so there is nothing to preserve beyond the program's own text.
-/
import proofs.«400930_j41970420417062_2_alg».proof.Defs
import proofs.«400930_j41970420417062_2_alg».proof.Proof.Gen.Kernel
import proofs.«400930_j41970420417062_2_alg».proof.Proof.Gen.Kernel.Frame
import proofs.«400930_j41970420417062_2_alg».proof.Proof.Gen.KernelIdeal
import proofs.«400930_j41970420417062_2_alg».proof.Proof.Gen.KernelIdeal.Frame
import proofs.«400930_j41970420417062_2_alg».proof.Proof.Gen.ReferenceIdeal
import proofs.«400930_j41970420417062_2_alg».proof.Proof.Gen.ReferenceIdeal.Run
import proofs.«400930_j41970420417062_2_alg».proof.Proof.Gen.Pre_finite_inputs
import proofs.«400930_j41970420417062_2_alg».proof.Proof.KernelRun
import proofs.«400930_j41970420417062_2_alg».proof.Proof.KernelFold
import proofs.«400930_j41970420417062_2_alg».proof.Proof.ReferenceTerm
import proofs.«400930_j41970420417062_2_alg».proof.Proof.Bridge
import proofs.«400930_j41970420417062_2_alg».proof.Proof.FiniteInputs
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_kernel : Cert.frame_Kernel := fun m ρ _ => Cert.Kernel.Gen.frame m ρ

/-- The idealized kernel program runs and leaves its arguments unchanged. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both idealized programs end with the same 64 x 128 result. -/
theorem algebraic : Cert.algebraic_KernelIdeal_ReferenceIdeal := by
  intro m ρ m' ρ' hpre hagree
  refine ⟨fun c => Cert.KernelIdeal.FoldValue.kernelValue
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.FoldValue.fold_result m ρ c), (h c).2⟩)
      (Cert.KernelIdeal.RunValue.run_fold (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12⟩ := hagree c
    obtain ⟨h1, h7, h8⟩ := Cert.FiniteInputs.edge_inputs_real _ _ _ _ _ _ _ _ _ _ _ _ _ (hpre c)
    refine (Cert.ReferenceIdeal.TermValue.result_eq m' c).trans ?_
    rw [e0, e1, e2, e3, e4, e5, e6, e7, e8, e9, e10, e11, e12]
    exact (Cert.Bridge.value_eq _ _ _ _ _ _ _ _ _ _ _ _ _ h1 h7 h8).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
